-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_c)) (v2 : (c : Dev Cert.KernelIdeal.nD) → Buf (Elt Ideal) ((c.tc : Thread Cert.KernelIdeal.nD Cert.KernelIdeal.τ).loc Cert.KernelIdeal.main_v45)) (v3 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_v43) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536 : Shape := ⟨1, ![65536]⟩
abbrev S_ : Shape := ⟨0, ![]⟩
abbrev S1024 : Shape := ⟨1, ![1024]⟩
abbrev S65536x1 : Shape := ⟨2, ![65536, 1]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536 : S_.BroadcastsInDim S65536 (![] : Fin 0 → Fin S65536.rank)
  reducesTo_S65536_S_d0 : S65536.ReducesTo [0] S_
  bcast_S_S1024 : S_.BroadcastsInDim S1024 (![] : Fin 0 → Fin S1024.rank)
  bcast_S65536_S65536x1_0 : S65536.BroadcastsInDim S65536x1 (![0] : Fin 1 → Fin S65536x1.rank)
  reducesTo_S1024_S_d0 : S1024.ReducesTo [0] S_
  scatter_S1024_S65536x1_S65536_n_0_0_1_wf : ScatterDims.WF S1024 S65536x1 S65536 [] [0] [0] 1

variable [Facts]

def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def fn_part1 {F : FTy → Type} [FloatOps F] (main_v10 : IVec S_ 1) (main_v14 : FVec F S1024 .f32) (main_v15 : FVec F S1024 .f32) : IVec S_ 1 :=
  let main_v16 : IVec S1024 1 := cmpf .oge main_v14 main_v15
  let main_c_6 : IVec S_ 1 := constantI S_ 1 1#1
  let main_v17 : IVec S_ 1 := (fun x v => Host.reduce IntOp.andi x v reducesTo_S1024_S_d0 h_S_) main_v16 main_c_6
  let main_v18 : IVec S_ 1 := andi main_v10 main_v17
  main_v18

def fn {F : FTy → Type} [FloatOps F] (main_arg0 : FVec F S65536x128 .f32) (main_arg1 : IVec S65536 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 1024#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  let main_cst_3 : FVec F S_ .f32 := constant S_ .f32 0x3F800000#32
  let main_v11 : FVec F S65536 .f32 := broadcastInDim S65536 ![] bcast_S_S65536 main_cst_3
  let main_cst_4 : FVec F S_ .f32 := constant S_ .f32 0x00000000#32
  let main_v12 : FVec F S1024 .f32 := broadcastInDim S1024 ![] bcast_S_S1024 main_cst_4
  let main_v13 : IVec S65536x1 32 := broadcastInDim S65536x1 ![0] bcast_S65536_S65536x1_0 main_arg1
  let main_v14 : FVec F S1024 .f32 := (fun x i u => Host.scatterAdd scatter_S1024_S65536x1_S65536_n_0_0_1 x i u) main_v12 main_v13 main_v11
  let main_cst_5 : FVec F S_ .f32 := constant S_ .f32 0x3F800000#32
  let main_v15 : FVec F S1024 .f32 := broadcastInDim S1024 ![] bcast_S_S1024 main_cst_5
  fn_part1 (F := F) main_v10 main_v14 main_v15
-- ==== Kernel.lean ====
abbrev S65536x128 : Shape := ⟨2, ![65536, 128]⟩
abbrev S65536 : Shape := ⟨1, ![65536]⟩
abbrev S_ : Shape := ⟨0, ![]⟩
abbrev S1024 : Shape := ⟨1, ![1024]⟩
abbrev S65536x1 : Shape := ⟨2, ![65536, 1]⟩
abbrev S1024x128 : Shape := ⟨2, ![1024, 128]⟩
abbrev S1024x1 : Shape := ⟨2, ![1024, 1]⟩
abbrev S128x1024 : Shape := ⟨2, ![128, 1024]⟩
abbrev S1x1024 : Shape := ⟨2, ![1, 1024]⟩
abbrev S2x8x128 : Shape := ⟨3, ![2, 8, 128]⟩
abbrev S1x8x128 : Shape := ⟨3, ![1, 8, 128]⟩
abbrev S1024x1024 : Shape := ⟨2, ![1024, 1024]⟩
abbrev S1 : Shape := ⟨1, ![1]⟩
abbrev S1x1 : Shape := ⟨2, ![1, 1]⟩
abbrev S2x1x1 : Shape := ⟨3, ![2, 1, 1]⟩
abbrev S2 : Shape := ⟨1, ![2]⟩

abbrev nBuf : Space → Nat
  | .hbm => 68
  | .vmem => 23
  | .smem => 0
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S_, .f32⟩
  | .hbm, ⟨3, _⟩ => ⟨S65536, .f32⟩
  | .hbm, ⟨4, _⟩ => ⟨S_, .f32⟩
  | .hbm, ⟨5, _⟩ => ⟨S1024, .f32⟩
  | .hbm, ⟨6, _⟩ => ⟨S65536x1, .i32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024x128, .f32⟩
  | .hbm, ⟨13, _⟩ => ⟨S65536x1, .i32⟩
  | .hbm, ⟨14, _⟩ => ⟨S1024x128, .f32⟩
  | .hbm, ⟨15, _⟩ => ⟨S1024x1, .f32⟩
  | .hbm, ⟨16, _⟩ => ⟨S1024x128, .f32⟩
  | .hbm, ⟨17, _⟩ => ⟨S1024x128, .f32⟩
  | .hbm, ⟨18, _⟩ => ⟨S128x1024, .f32⟩
  | .hbm, ⟨19, _⟩ => ⟨S128x1024, .bf16⟩
  | .hbm, ⟨20, _⟩ => ⟨S1024x128, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S65536x1, .i32⟩
  | .hbm, ⟨28, _⟩ => ⟨S2x8x128, .f32⟩
  | .hbm, ⟨29, _⟩ => ⟨S2x8x128, .f32⟩
  | .hbm, ⟨30, _⟩ => ⟨S2x8x128, .f32⟩
  | .hbm, ⟨31, _⟩ => ⟨S2x8x128, .f32⟩
  | .hbm, ⟨32, _⟩ => ⟨S2x1x1, .f32⟩
  | .hbm, ⟨33, _⟩ => ⟨S2, .f32⟩
  | .hbm, ⟨34, _⟩ => ⟨S_, .f32⟩
  | .hbm, ⟨35, _⟩ => ⟨S_, .f32⟩
  | .hbm, ⟨36, _⟩ => ⟨S2x1x1, .f32⟩
  | .hbm, ⟨37, _⟩ => ⟨S2, .f32⟩
  | .hbm, ⟨38, _⟩ => ⟨S_, .f32⟩
  | .hbm, ⟨39, _⟩ => ⟨S_, .f32⟩
  | .hbm, ⟨40, _⟩ => ⟨S2x1x1, .f32⟩
  | .hbm, ⟨41, _⟩ => ⟨S2, .f32⟩
  | .hbm, ⟨42, _⟩ => ⟨S_, .f32⟩
  | .hbm, ⟨43, _⟩ => ⟨S_, .f32⟩
  | .hbm, ⟨44, _⟩ => ⟨S2x1x1, .f32⟩
  | .hbm, ⟨45, _⟩ => ⟨S2, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x1, .f32⟩
  | .hbm, ⟨52, _⟩ => ⟨S2x8x128, .f32⟩
  | .hbm, ⟨53, _⟩ => ⟨S2x1x1, .f32⟩
  | .hbm, ⟨54, _⟩ => ⟨S2, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .i32⟩
  | .local _ .vmem, ⟨0, _⟩ => ⟨S1024x128, .f32⟩
  | .local _ .vmem, ⟨1, _⟩ => ⟨S1024x128, .f32⟩
  | .local _ .vmem, ⟨2, _⟩ => ⟨S1024x1, .i32⟩
  | .local _ .vmem, ⟨3, _⟩ => ⟨S1024x1, .i32⟩
  | .local _ .vmem, ⟨4, _⟩ => ⟨S128x1024, .bf16⟩
  | .local _ .vmem, ⟨5, _⟩ => ⟨S1x1024, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1024x128, .f32⟩
  | .local _ .vmem, ⟨15, _⟩ => ⟨S1024x128, .f32⟩
  | .local _ .vmem, ⟨16, _⟩ => ⟨S1024x1, .i32⟩
  | .local _ .vmem, ⟨17, _⟩ => ⟨S1024x1, .i32⟩
  | .local _ .vmem, ⟨18, _⟩ => ⟨S128x1024, .bf16⟩
  | .local _ .vmem, ⟨19, _⟩ => ⟨S1x1024, .f32⟩
  | .local _ .vmem, ⟨20, _⟩ => ⟨S1x1, .f32⟩
  | .local _ .vmem, ⟨21, _⟩ => ⟨S1x8x128, .f32⟩
  | .local _ .vmem, ⟨22, _⟩ => ⟨S1x8x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_c : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S65536 : S_.BroadcastsInDim S65536 (![] : Fin 0 → Fin S65536.rank)
  bcast_S_S1024 : S_.BroadcastsInDim S1024 (![] : Fin 0 → Fin S1024.rank)
  bcast_S65536_S65536x1_0 : S65536.BroadcastsInDim S65536x1 (![0] : Fin 1 → Fin S65536x1.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  transposes_S1024x128_S128x1024_1_0 : S1024x128.Transposes [1, 0] S128x1024
  bitsLt_bf16_f32 : FTy.bits .bf16 < FTy.bits .f32
  reducesTo_S1024x128_S1024_d1 : S1024x128.ReducesTo [1] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)
  inb_S1x8x128_S1x8x128_0_0_0 : ∀ a, (![0, 0, 0] : Fin 3 → Nat) a + S1x8x128.size a ≤ S1x8x128.size a
  h_S1x8x128 : 0 < S1x8x128.numel
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  reduces_S1024x128_S1024 : S1024x128.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  reduces_S1024x1024_S1024 : S1024x1024.Reduces [1] S1024
  reduces_S1024x1_S1 : S1024x1.Reduces [0] S1
  shapeCasts_S1_S1x1 : S1.ShapeCasts S1x1
  inpos_S1x1_p0_0 : ∀ a, (![0, 0] : Fin 2 → Nat) a < S1x1.size a
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  scatter_S1024_S65536x1_S65536_n_0_0_1_wf : ScatterDims.WF S1024 S65536x1 S65536 [] [0] [0] 1
  scatter_S1024x128_S65536x1_S65536x128_1_0_0_1_wf : ScatterDims.WF S1024x128 S65536x1 S65536x128 [1] [0] [0] 1
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .bf16 = 32 ∨ (Rect.block (s := S128x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S2x8x128.size a
  hwx0_7 : ∀ i : grid0.Coords, EltTy.bits .f32 = 32 ∨ (Rect.block (s := S2x8x128) S1x8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S65536x128.size a
  hwx1_0 : ∀ i : grid1.Coords, EltTy.bits .f32 = 32 ∨ (Rect.block (s := S65536x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S65536x1.size a
  hwx1_1 : ∀ i : grid1.Coords, EltTy.bits .i32 = 32 ∨ (Rect.block (s := S65536x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S128x1024.size a
  hwx1_2 : ∀ i : grid1.Coords, EltTy.bits .bf16 = 32 ∨ (Rect.block (s := S128x1024) S128x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x128.size a ≤ S2x8x128.size a
  hwx1_5 : ∀ i : grid1.Coords, EltTy.bits .f32 = 32 ∨ (Rect.block (s := S2x8x128) S1x8x128.size (cc1_transform_5 i) (hinb1_5 i)).WholeWords (EltTy.packing .f32)

variable [Facts₀]

def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def scatter_S1024x128_S65536x1_S65536x128_1_0_0_1 : ScatterDims S1024x128 S65536x1 S65536x128 where
  updateWindowDims := [1]
  insertedWindowDims := [0]
  scatterDimsToOperandDims := [0]
  indexVectorDim := 1
  wf := scatter_S1024x128_S65536x1_S65536x128_1_0_0_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_2) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_3) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S65536x128 : Shape := ⟨2, ![65536, 128]⟩
abbrev S65536 : Shape := ⟨1, ![65536]⟩
abbrev S_ : Shape := ⟨0, ![]⟩
abbrev S1024 : Shape := ⟨1, ![1024]⟩
abbrev S65536x1 : Shape := ⟨2, ![65536, 1]⟩
abbrev S1024x128 : Shape := ⟨2, ![1024, 128]⟩
abbrev S1024x1 : Shape := ⟨2, ![1024, 1]⟩
abbrev S1x1024 : Shape := ⟨2, ![1, 1024]⟩
abbrev S65536x1024 : Shape := ⟨2, ![65536, 1024]⟩
abbrev S128x1024 : Shape := ⟨2, ![128, 1024]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S_, .f32⟩
  | .hbm, ⟨3, _⟩ => ⟨S65536, .f32⟩
  | .hbm, ⟨4, _⟩ => ⟨S_, .f32⟩
  | .hbm, ⟨5, _⟩ => ⟨S1024, .f32⟩
  | .hbm, ⟨6, _⟩ => ⟨S65536x1, .i32⟩
  | .hbm, ⟨7, _⟩ => ⟨S1024, .f32⟩
  | .hbm, ⟨8, _⟩ => ⟨S_, .f32⟩
  | .hbm, ⟨9, _⟩ => ⟨S1024x128, .f32⟩
  | .hbm, ⟨10, _⟩ => ⟨S65536x1, .i32⟩
  | .hbm, ⟨11, _⟩ => ⟨S1024x128, .f32⟩
  | .hbm, ⟨12, _⟩ => ⟨S1024x1, .f32⟩
  | .hbm, ⟨13, _⟩ => ⟨S1024x128, .f32⟩
  | .hbm, ⟨14, _⟩ => ⟨S1024x128, .f32⟩
  | .hbm, ⟨15, _⟩ => ⟨S65536x128, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S1024x128, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S128x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1, .i32⟩
  | .hbm, ⟨33, _⟩ => ⟨S_, .i32⟩
  | .hbm, ⟨34, _⟩ => ⟨S65536x1, .i32⟩
  | .hbm, ⟨35, _⟩ => ⟨S65536x1, .i1⟩
  | .hbm, ⟨36, _⟩ => ⟨S_, .i32⟩
  | .hbm, ⟨37, _⟩ => ⟨S65536x1, .i32⟩
  | .hbm, ⟨38, _⟩ => ⟨S65536x1, .i32⟩
  | .hbm, ⟨39, _⟩ => ⟨S65536x1, .i32⟩
  | .hbm, ⟨40, _⟩ => ⟨S65536x1x1, .i32⟩
  | .hbm, ⟨41, _⟩ => ⟨S1, .i32⟩
  | .hbm, ⟨42, _⟩ => ⟨S_, .i32⟩
  | .hbm, ⟨43, _⟩ => ⟨S65536x1x1, .i32⟩
  | .hbm, ⟨44, _⟩ => ⟨S65536x1x1, .i1⟩
  | .hbm, ⟨45, _⟩ => ⟨S1x1x1, .i32⟩
  | .hbm, ⟨46, _⟩ => ⟨S65536x1x1, .i32⟩
  | .hbm, ⟨47, _⟩ => ⟨S65536x1x1, .i1⟩
  | .hbm, ⟨48, _⟩ => ⟨S65536x1x1, .i1⟩
  | .hbm, ⟨49, _⟩ => ⟨S_, .i1⟩
  | .hbm, ⟨50, _⟩ => ⟨S65536x1, .i1⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S65536, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S65536, .f32⟩
  | .hbm, ⟨64, _⟩ => ⟨S65536, .f32⟩
  | .hbm, ⟨65, _⟩ => ⟨S_, .f32⟩
  | .hbm, ⟨66, _⟩ => ⟨S65536, .f32⟩
  | .hbm, ⟨67, _⟩ => ⟨S65536, .f32⟩
  | .hbm, ⟨68, _⟩ => ⟨S65536, .f32⟩
  | .hbm, ⟨69, _⟩ => ⟨S65536x1024, .f32⟩
  | .hbm, ⟨70, _⟩ => ⟨S65536x1024, .f32⟩
  | .hbm, ⟨71, _⟩ => ⟨S_, .f32⟩
  | .hbm, ⟨72, _⟩ => ⟨S65536x1024, .f32⟩
  | .hbm, ⟨73, _⟩ => ⟨S65536x1024, .f32⟩
  | .hbm, ⟨74, _⟩ => ⟨S65536x1024, .f32⟩
  | .hbm, ⟨75, _⟩ => ⟨S_, .f32⟩
  | .hbm, ⟨76, _⟩ => ⟨S65536, .f32⟩
  | .hbm, ⟨77, _⟩ => ⟨S65536, .f32⟩
  | .hbm, ⟨78, _⟩ => ⟨S65536, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .i32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_cst_6 : Ref sig .tc := ⟨.hbm, 58, rfl⟩
abbrev main_v28 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_8 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_9 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_10 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_11 : Ref sig .tc := ⟨.hbm, 79, rfl⟩
abbrev main_v44 : Ref sig .tc := ⟨.hbm, 80, rfl⟩
abbrev main_cst_12 : Ref sig .tc := ⟨.hbm, 81, rfl⟩
abbrev main_v45 : Ref sig .tc := ⟨.hbm, 82, rfl⟩
abbrev main_v46 : Ref sig .tc := ⟨.hbm, 83, rfl⟩
abbrev main_cst_13 : Ref sig .tc := ⟨.hbm, 84, rfl⟩
abbrev main_v47 : Ref sig .tc := ⟨.hbm, 85, rfl⟩
abbrev main_cst_14 : Ref sig .tc := ⟨.hbm, 86, rfl⟩
abbrev main_v48 : Ref sig .tc := ⟨.hbm, 87, rfl⟩
abbrev main_v49 : Ref sig .tc := ⟨.hbm, 88, rfl⟩
abbrev main_cst_15 : Ref sig .tc := ⟨.hbm, 89, rfl⟩
abbrev main_v50 : Ref sig .tc := ⟨.hbm, 90, rfl⟩
abbrev main_cst_16 : Ref sig .tc := ⟨.hbm, 91, rfl⟩
abbrev main_v51 : Ref sig .tc := ⟨.hbm, 92, rfl⟩
abbrev main_cst_17 : Ref sig .tc := ⟨.hbm, 93, rfl⟩
abbrev main_v52 : Ref sig .tc := ⟨.hbm, 94, rfl⟩
abbrev main_cst_18 : Ref sig .tc := ⟨.hbm, 95, rfl⟩
abbrev main_v53 : Ref sig .tc := ⟨.hbm, 96, rfl⟩
abbrev main_c : Ref sig .tc := ⟨.hbm, 97, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S1024 : S_.BroadcastsInDim S1024 (![] : Fin 0 → Fin S1024.rank)
  bcast_S65536_S65536x1_0 : S65536.BroadcastsInDim S65536x1 (![0] : Fin 1 → Fin S65536x1.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  reducesTo_S65536x128_S65536_d1 : S65536x128.ReducesTo [1] S65536
  h_S_ : 0 < S_.numel
  reducesTo_S1024x128_S1024_d1 : S1024x128.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x128_S128x1024_1_0 : S1024x128.Transposes [1, 0] S128x1024
  bcast_S_S65536x1024 : S_.BroadcastsInDim S65536x1024 (![] : Fin 0 → Fin S65536x1024.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  reducesTo_S65536x1024_S_d0_1 : S65536x1024.ReducesTo [0, 1] S_
  reducesTo_S65536x1024_S65536_d1 : S65536x1024.ReducesTo [1] S65536
  reducesTo_S65536_S_d0 : S65536.ReducesTo [0] S_
  scatter_S1024_S65536x1_S65536_n_0_0_1_wf : ScatterDims.WF S1024 S65536x1 S65536 [] [0] [0] 1
  scatter_S1024x128_S65536x1_S65536x128_1_0_0_1_wf : ScatterDims.WF S1024x128 S65536x1 S65536x128 [1] [0] [0] 1
  dot_S65536x128_S128x1024_S65536x1024_1_0_0_1_n_n_wf : DotDims.WF S65536x128 S128x1024 S65536x1024 [1] [0] [0] [1] [] []
  gather_S65536x1024_S65536x1x1_S65536x1_n_1_0_0_1_2_11_wf : GatherDims.WF S65536x1024 S65536x1x1 S65536x1 [] [1] [0] [1] [0] 2 ![1, 1]

variable [Facts₀]

def scatter_S1024_S65536x1_S65536_n_0_0_1 : ScatterDims S1024 S65536x1 S65536 where
  updateWindowDims := []
  insertedWindowDims := [0]
  scatterDimsToOperandDims := [0]
  indexVectorDim := 1
  wf := scatter_S1024_S65536x1_S65536_n_0_0_1_wf
def scatter_S1024x128_S65536x1_S65536x128_1_0_0_1 : ScatterDims S1024x128 S65536x1 S65536x128 where
  updateWindowDims := [1]
  insertedWindowDims := [0]
  scatterDimsToOperandDims := [0]
  indexVectorDim := 1
  wf := scatter_S1024x128_S65536x1_S65536x128_1_0_0_1_wf
def dot_S65536x128_S128x1024_S65536x1024_1_0_0_1_n_n : DotDims S65536x128 S128x1024 S65536x1024 where
  lhsContracting := [1]
  rhsContracting := [0]
  lhsNonContracting := [0]
  rhsNonContracting := [1]
  lhsBatch := []
  rhsBatch := []
  wf := dot_S65536x128_S128x1024_S65536x1024_1_0_0_1_n_n_wf
def gather_S65536x1024_S65536x1x1_S65536x1_n_1_0_0_1_2_11 : GatherDims S65536x1024 S65536x1x1 S65536x1 where
  offsetDims := []
  collapsedSliceDims := [1]
  operandBatchingDims := [0]
  startIndicesBatchingDims := [0]
  startIndexMap := [1]
  indexVectorDim := 2
  sliceSizes := ![1, 1]
  wf := gather_S65536x1024_S65536x1x1_S65536x1_n_1_0_0_1_2_11_wf

class Facts : Prop extends Facts₀ where

variable [Facts]
-- ==== Proof.Spec.lean ====
/-
  The mathematics both programs compute, stated once over plain index types at the extended reals.

  Inputs: a matrix `x` of 65536 rows of 128 numbers, a label per row, and the matrix `cen` of 1024 class
  centres (each the mean of the rows carrying that label).  With xxᵢ = Σ_d x_{i,d}², yyⱼ = Σ_d cen_{j,d}² and
  sᵢⱼ = Σ_d x_{i,d}·cen_{j,d}, the squared distance is Dᵢⱼ = (xxᵢ + yyⱼ) − 2·sᵢⱼ.  The results are
    loss  = −( Σᵢ log( exp(−16(D_{i,tᵢ} − B)) / Σⱼ exp(−16(Dᵢⱼ − B)) ) / 65536 ),  B = (max D + min D)/2,
    d_ap  = (64/63)·( Σᵢ D_{i,tᵢ} / 65536 ),
    d_an  = ( Σᵢⱼ Dᵢⱼ − Σᵢ D_{i,tᵢ} ) / (65536·1023).
  One program evaluates these formulas as written (`lossR`, `apR`, `anR`).  The other walks the rows in two halves
  of 32 tiles of 1024 rows, keeps per half a running sum / maximum / minimum, picks the labelled column by a
  comparison of the label with the column number, and writes the exponent as 16(B − xxᵢ) + 32(sᵢⱼ − yyⱼ/2)
  and the logarithm of the quotient as a difference of logarithms (`lossK`, `apK`, `anK`).
-/
import Idealize.ShloMosaic.PureOps.Ideal
import Idealize.ShloMosaic.Lib.ValueIdx

noncomputable section

open scoped BigOperators

namespace Cert.Spec

open Idealize.ShloMosaic Idealize.ShloMosaic.ValueIdx

/-! ## Shapes and the literals the programs spell -/

abbrev SX : Shape := ⟨2, ![65536, 128]⟩
abbrev ST1 : Shape := ⟨1, ![65536]⟩
abbrev ST : Shape := ⟨2, ![65536, 1]⟩
abbrev SC : Shape := ⟨2, ![1024, 128]⟩
abbrev SCT : Shape := ⟨2, ![128, 1024]⟩
abbrev SY : Shape := ⟨2, ![1, 1024]⟩
abbrev SB : Shape := ⟨2, ![1, 1]⟩
abbrev SO : Shape := ⟨3, ![2, 8, 128]⟩

/-- 2.0 -/
def c2 : EReal := Ideal.ofBits .f32 0x40000000#32
/-- 0.5 -/
def cHalf : EReal := Ideal.ofBits .f32 0x3F000000#32
/-- 16.0 -/
def c16 : EReal := Ideal.ofBits .f32 0x41800000#32
/-- 32.0 -/
def c32 : EReal := Ideal.ofBits .f32 0x42000000#32
/-- −16.0 -/
def cm16 : EReal := Ideal.ofBits .f32 0xC1800000#32
/-- 65536.0 -/
def cN : EReal := Ideal.ofBits .f32 0x47800000#32
/-- 65536 · 1023 -/
def cAN : EReal := Ideal.ofBits .f32 0x4C7FC000#32
/-- 64/63, rounded to f32 -/
def cAP : EReal := Ideal.ofBits .f32 0x3F820821#32

/-! ## What the tiled program's two passes see: arrays as its windows read them -/

section Tiled

/-! The per-row quantities, for a matrix of any number `n` of rows: used at n = 65536 (the whole input) and at
    n = 1024 (one tile). -/

variable {n : Nat} (x : (⟨2, ![n, 128]⟩ : Shape).Idx → EReal) (tg : (⟨2, ![n, 1]⟩ : Shape).Idx → BitVec 32)
  (ct : SCT.Idx → EReal) (yy : SY.Idx → EReal)

/-- Σ_d x_{i,d}² -/
def xx (i : Fin n) : EReal := ∑ d : Fin 128, x (ix2 i d) * x (ix2 i d)
/-- Σ_d x_{i,d} · ct_{d,j} -/
def sc (i : Fin n) (j : Fin 1024) : EReal := ∑ d : Fin 128, x (ix2 i d) * ct (ix2 d j)
/-- (xxᵢ + yyⱼ) − 2·sᵢⱼ -/
def dist (i : Fin n) (j : Fin 1024) : EReal := (xx x i + yy (ix2 0 j)) - c2 * sc x ct i j
/-- Column j is row i's labelled column: the column number, as a 32-bit word, is the label. -/
def hit (i : Fin n) (j : Fin 1024) : Prop := BitVec.ofNat 32 j.val = tg (ix2 i 0)
instance (i : Fin n) (j : Fin 1024) : Decidable (hit tg i j) := by unfold hit; infer_instance
/-- The labelled column's distance, picked by a masked row sum. -/
def pos (i : Fin n) : EReal := ∑ j : Fin 1024, if hit tg i j then dist x ct yy i j else 0

variable (yh : SY.Idx → EReal) (base : SB.Idx → EReal)

/-- sᵢⱼ − yhⱼ -/
def g (i : Fin n) (j : Fin 1024) : EReal := sc x ct i j - yh (ix2 0 j)
/-- The labelled column's g, picked by a masked row sum. -/
def posg (i : Fin n) : EReal := ∑ j : Fin 1024, if hit tg i j then g x ct yh i j else 0
/-- 16 · (B − xxᵢ) -/
def rowc (i : Fin n) : EReal := c16 * (base (ix2 0 0) - xx x i)
/-- log exp(rowcᵢ + 32·posgᵢ) − log Σⱼ exp(rowcᵢ + 32·gᵢⱼ) -/
def lr (i : Fin n) : EReal :=
  Ideal.log (Ideal.exp (rowc x base i + c32 * posg x tg ct yh i))
    - Ideal.log (∑ j : Fin 1024, Ideal.exp (rowc x base i + c32 * g x ct yh i j))

end Tiled

section Halves

variable (x : SX.Idx → EReal) (tg : ST.Idx → BitVec 32) (ct : SCT.Idx → EReal) (yy : SY.Idx → EReal)

/-- Row r of tile t of half p. -/
def row (p : Fin 2) (t : Fin 32) (r : Fin 1024) : Fin 65536 := ⟨(p.val * 32 + t.val) * 1024 + r.val, by omega⟩
/-- Tile t of half p of the input, as a 1024-row matrix. -/
def xTile (p : Fin 2) (t : Fin 32) : (⟨2, ![1024, 128]⟩ : Shape).Idx → EReal := fun i => x (ix2 (row p t (i 0)) (i 1))
/-- Tile t of half p of the label column. -/
def tgTile (p : Fin 2) (t : Fin 32) : (⟨2, ![1024, 1]⟩ : Shape).Idx → BitVec 32 := fun i => tg (ix2 (row p t (i 0)) 0)
/-- Half p's sum of all distances. -/
def sdPart (p : Fin 2) : EReal := ∑ t : Fin 32, ∑ r : Fin 1024, ∑ j : Fin 1024, dist x ct yy (row p t r) j
/-- Half p's sum of the labelled distances. -/
def spPart (p : Fin 2) : EReal := ∑ t : Fin 32, ∑ r : Fin 1024, pos x tg ct yy (row p t r)
/-- Half p's largest distance. -/
def mxPart (p : Fin 2) : EReal :=
  Finset.univ.sup fun q : Fin 32 × Fin 1024 × Fin 1024 => dist x ct yy (row p q.1 q.2.1) q.2.2
/-- Half p's smallest distance. -/
def mnPart (p : Fin 2) : EReal :=
  Finset.univ.inf fun q : Fin 32 × Fin 1024 × Fin 1024 => dist x ct yy (row p q.1 q.2.1) q.2.2

variable (yh : SY.Idx → EReal) (base : SB.Idx → EReal)

/-- Half p's sum of the rows' log ratios. -/
def slPart (p : Fin 2) : EReal := ∑ t : Fin 32, ∑ r : Fin 1024, lr x tg ct yh base (row p t r)

end Halves

/-! ## The tiled program's results, from the inputs and the centres -/

section TiledWhole

variable (x : SX.Idx → EReal) (tg : ST1.Idx → BitVec 32) (cen : SC.Idx → EReal)

/-- The labels as a column. -/
def tgCol : ST.Idx → BitVec 32 := fun i => tg (ix1 (i 0))
/-- The centres transposed. -/
def ctOf : SCT.Idx → EReal := fun i => cen (ix2 (i 1) (i 0))
/-- yyⱼ as a row. -/
def yyOf : SY.Idx → EReal := fun i => ∑ d : Fin 128, cen (ix2 (i 1) d) * cen (ix2 (i 1) d)
/-- yyⱼ/2 as a row. -/
def yhOf : SY.Idx → EReal := fun i => cHalf * yyOf cen i
/-- B = (max + min)/2 from the two halves' extremes. -/
def baseK : EReal :=
  (max (mxPart x (ctOf cen) (yyOf cen) 0) (mxPart x (ctOf cen) (yyOf cen) 1)
    + min (mnPart x (ctOf cen) (yyOf cen) 0) (mnPart x (ctOf cen) (yyOf cen) 1)) * cHalf
/-- B as the 1×1 array the second pass reads. -/
def baseArr : SB.Idx → EReal := fun _ => baseK x cen
def lossK : EReal :=
  -(Ideal.div (slPart x (tgCol tg) (ctOf cen) (yhOf cen) (baseArr x cen) 0
      + slPart x (tgCol tg) (ctOf cen) (yhOf cen) (baseArr x cen) 1) cN)
def apK : EReal :=
  cAP * Ideal.div (spPart x (tgCol tg) (ctOf cen) (yyOf cen) 0 + spPart x (tgCol tg) (ctOf cen) (yyOf cen) 1) cN
def anK : EReal :=
  Ideal.div ((sdPart x (ctOf cen) (yyOf cen) 0 + sdPart x (ctOf cen) (yyOf cen) 1)
    - (spPart x (tgCol tg) (ctOf cen) (yyOf cen) 0 + spPart x (tgCol tg) (ctOf cen) (yyOf cen) 1)) cAN

end TiledWhole

/-! ## The formulas as written -/

section Plain

variable (x : SX.Idx → EReal) (t : Fin 65536 → Fin 1024) (cen : SC.Idx → EReal)

def yyR (j : Fin 1024) : EReal := ∑ d : Fin 128, cen (ix2 j d) * cen (ix2 j d)
def scR (i : Fin 65536) (j : Fin 1024) : EReal := ∑ d : Fin 128, x (ix2 i d) * cen (ix2 j d)
def distR (i : Fin 65536) (j : Fin 1024) : EReal := (xx x i + yyR cen j) - c2 * scR x cen i j
def posR (i : Fin 65536) : EReal := distR x cen i (t i)
def mxR : EReal := Finset.univ.sup fun q : Fin 65536 × Fin 1024 => distR x cen q.1 q.2
def mnR : EReal := Finset.univ.inf fun q : Fin 65536 × Fin 1024 => distR x cen q.1 q.2
def baseR : EReal := (mxR x cen + mnR x cen) * cHalf
def lrR (i : Fin 65536) : EReal :=
  Ideal.log (Ideal.div (Ideal.exp (cm16 * (posR x t cen i - baseR x cen)))
    (∑ j : Fin 1024, Ideal.exp (cm16 * (distR x cen i j - baseR x cen))))
def lossR : EReal := -(Ideal.div (∑ i : Fin 65536, lrR x t cen i) cN)
def apR : EReal := cAP * Ideal.div (∑ i : Fin 65536, posR x t cen i) cN
def anR : EReal :=
  Ideal.div ((∑ i : Fin 65536, ∑ j : Fin 1024, distR x cen i j) - ∑ i : Fin 65536, posR x t cen i) cAN

end Plain

/-- The label of row i as a column number (meaningful when the label word is below 1024). -/
def tOf (tg : ST1.Idx → BitVec 32) (i : Fin 65536) : Fin 1024 := ⟨(tg (ix1 i)).toNat % 1024, Nat.mod_lt _ (by norm_num)⟩

end Cert.Spec

end
-- ==== Proof.KCen.lean ====
/-
  The class centres as the tiled program's host code builds them: per class the sum of its rows, divided by the
  class's row count raised to at least one.
-/
import proofs.«408375_j76639396429875_3_alg».proof.Proof.Gen.KernelIdeal

noncomputable section

namespace Cert.KernelIdeal.KCen

open Cert.KernelIdeal Cert.KernelIdeal.Gen Idealize.ShloMosaic

variable {F : FTy → Type} [FloatOps F]

/-- How many rows carry each label: a scatter-add of ones. -/
def cntKer (tg : IVec S65536 32) : FVec F S1024 .f32 :=
  Host.scatterAdd scatter_S1024_S65536x1_S65536_n_0_0_1
    (broadcastInDim S1024 ![] bcast_S_S1024 (constant S_ .f32 0x00000000#32))
    (broadcastInDim S65536x1 ![0] bcast_S65536_S65536x1_0 tg)
    (broadcastInDim S65536 ![] bcast_S_S65536 (constant S_ .f32 0x3F800000#32))

/-- Per label the sum of its rows: a scatter-add of the rows. -/
def sumKer (x : FVec F S65536x128 .f32) (tg : IVec S65536 32) : FVec F S1024x128 .f32 :=
  Host.scatterAdd scatter_S1024x128_S65536x1_S65536x128_1_0_0_1
    (broadcastInDim S1024x128 ![] bcast_S_S1024x128 (constant S_ .f32 0x00000000#32))
    (broadcastInDim S65536x1 ![0] bcast_S65536_S65536x1_0 tg) x

/-- The centres: the row sums over the counts, a count of zero replaced by one. -/
def cenKer (x : FVec F S65536x128 .f32) (tg : IVec S65536 32) : FVec F S1024x128 .f32 :=
  Host.divf (sumKer x tg)
    (broadcastInDim S1024x128 ![0, 1] bcast_S1024x1_S1024x128_0_1
      (broadcastInDim S1024x1 ![0] bcast_S1024_S1024x1_0
        (maximumf (cntKer (F := F) tg) (broadcastInDim S1024 ![] bcast_S_S1024 (constant S_ .f32 0x3F800000#32)))))

end Cert.KernelIdeal.KCen

end
-- ==== Proof.KPay0.lean ====
/-
  The first pass's arithmetic on one tile, read entry by entry over the extended reals.  The matrix product of the
  tile with the transposed centres into a zero accumulator is sᵣⱼ = Σ_d x_{r,d}·ct_{d,j}; a row sum of squares is xxᵣ;
  their combination (xxᵣ + yyⱼ) − 2·sᵣⱼ is the squared distance; the comparison of the column numbers with the row's
  label masks the labelled column, whose masked row sum is the labelled distance; the row reductions followed by the
  column reduction give the tile's total, its labelled total, its largest and its smallest distance; and the stored
  block is the carried block plus (max, min) that scalar, entrywise.
-/
import proofs.«408375_j76639396429875_3_alg».proof.Proof.Gen.KernelIdeal.Skeleton
import proofs.«408375_j76639396429875_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.TcCoe Idealize.SL.Sem Idealize.ShloMosaic.ValueIdx

namespace Cert.KernelIdeal.KPay0

open Cert.KernelIdeal Cert.KernelIdeal.Gen

/-! ## The two infinities' words -/

/-- The word 0xFF800000 is −∞. -/
theorem ofBits_ninf : Ideal.ofBits .f32 0xFF800000#32 = ⊥ := by simp [Ideal.ofBits, Ideal.ieee]
/-- The word 0x7F800000 is +∞. -/
theorem ofBits_pinf : Ideal.ofBits .f32 0x7F800000#32 = ⊤ := by simp [Ideal.ofBits, Ideal.ieee]

/-! ## Layout operations on a column: a vector viewed as a column, and a column spread over the columns -/

section Layout
variable {α : Type}

/-- A vector of 1024 entries viewed as a 1024×1 column reads, at (r, u), entry r. -/
theorem shapeCast_col_apply (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A 1024×1 column spread over 1024 columns reads, at (r, j), the column's row r. -/
theorem broadcastTo_col_apply (v : S1024x1.Idx → α) (h : S1024x1.Broadcasts S1024x1024) (r j : Fin 1024) :
    broadcastTo S1024x1024 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- A one-entry vector viewed as a 1×1 matrix, read at its one position. -/
theorem extract_cast_one (v : S1.Idx → α) (h : S1.ShapeCasts S1x1) (hp : ∀ a, (![0, 0] : Fin 2 → Nat) a < S1x1.size a) :
    extractAt ![0, 0] (shapeCast S1x1 v h) hp = v (ix1 (0 : Fin 1)) := by
  unfold extractAt
  have e : (fun a => ⟨(![0, 0] : Fin 2 → Nat) a, hp a⟩ : S1x1.Idx) = ix2 (0 : Fin 1) (0 : Fin 1) := by
    funext a; match a with | ⟨0, _⟩ => rfl | ⟨1, _⟩ => rfl
  rw [e]
  exact shapeCast_a_1a_apply v h 0 0

end Layout

/-! ## Sums along one axis, read at an index -/

/-- The sum along the 128 columns of a 1024×128 matrix, at row r. -/
theorem rowsum128_apply (src : FVec Ideal S1024x128 .f32) (h : S1024x128.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ d : Fin 128, src (ix2 r d) := by
  refine (Ideal.multiReduction_add_single src 0x00000000#32 h hφ hacc (ix1 r)).trans ?_
  refine Finset.sum_congr rfl fun d _ => congrArg src ?_
  funext a; match a with | ⟨0, _⟩ => rfl | ⟨1, _⟩ => rfl

/-- The sum along the 1024 columns of a 1024×1024 matrix, at row r. -/
theorem rowsum1024_apply (src : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ j : Fin 1024, src (ix2 r j) := by
  refine (Ideal.multiReduction_add_single src 0x00000000#32 h hφ hacc (ix1 r)).trans ?_
  refine Finset.sum_congr rfl fun d _ => congrArg src ?_
  funext a; match a with | ⟨0, _⟩ => rfl | ⟨1, _⟩ => rfl

/-- The sum down the 1024 rows of a 1024×1 column. -/
theorem colsum_apply (src : FVec Ideal S1024x1 .f32) (h : S1024x1.Reduces [0] S1) (hφ : FKind.Formats .f32)
    (hacc : (0x00000000#32 : BitVec 32) = 0x00000000#32) :
    multiReduction (F := Ideal) .add [0] S1 src 0x00000000#32 h hφ hacc (ix1 (0 : Fin 1)) = ∑ r : Fin 1024, src (ix2 r (0 : Fin 1)) := by
  refine (Ideal.multiReduction_add_single src 0x00000000#32 h hφ hacc (ix1 (0 : Fin 1))).trans ?_
  refine Finset.sum_congr rfl fun d _ => congrArg src ?_
  funext a; match a with | ⟨0, _⟩ => rfl | ⟨1, _⟩ => rfl

/-! ## The block product read at an index

The product contracts the left operand's axis 1 with the right operand's axis 0: at output index (r, j) and
contraction position d the left operand is read at (r, d) and the right one at (d, j). The four lemmas below
give those coordinates axis by axis. -/

theorem lhs_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem lhs_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The 1024×128 by 128×1024 product into the zero accumulator, at (r, j): Σ_d a(r,d)·b(d,j). -/
theorem matmul_ix2 (a : FVec Ideal S1024x128 .bf16) (b : FVec Ideal S128x1024 .bf16) (r j : Fin 1024) :
    matmul dot_S1024x128_S128x1024_S1024x1024_1_0_0_1_n_n none a b (constant (F := Ideal) S1024x1024 .f32 0x00000000#32) (ix2 r j)
      = ∑ d : Fin 128, a (ix2 r d) * b (ix2 d j) := by
  simp only [matmul]
  rw [Ideal.matmul_constant_zero_apply,
    ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r j)
      ((contrEquiv1 dot_S1024x128_S128x1024_S1024x1024_1_0_0_1_n_n 128 rfl rfl).symm k) = ix2 r k :=
    funext fun a => Fin.ext (by
      match a with
      | ⟨0, _⟩ => exact lhs_0 _ _
      | ⟨1, _⟩ => exact (lhs_1 _ _).trans hk)
  have er : dot_S1024x128_S128x1024_S1024x1024_1_0_0_1_n_n.rhsIdx (ix2 r j)
      ((contrEquiv1 dot_S1024x128_S128x1024_S1024x1024_1_0_0_1_n_n 128 rfl rfl).symm k) = ix2 k j :=
    funext fun a => Fin.ext (by
      match a with
      | ⟨0, _⟩ => exact (rhs_0 _ _).trans hk
      | ⟨1, _⟩ => exact rhs_1 _ _)
  rw [el, er]

/-! ## Largest and smallest entries along one axis, read at an index -/

/-- The largest entry of row r of a 1024×1024 matrix, folded from −∞. -/
theorem rowmax_apply (src : FVec Ideal S1024x1024 .f32) (h : S1024x1024.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r)
      = Finset.univ.sup fun j : Fin 1024 => src (ix2 r j) := by
  refine (Ideal.multiReduction_maximumf_single src 0xFF800000#32 h hφ hacc (ix1 r)).trans ?_
  have e : (src ∘ h.lift (ix1 r)) = fun j : Fin 1024 => src (ix2 r j) := by
    funext j
    exact congrArg src (by funext a; match a with | ⟨0, _⟩ => rfl | ⟨1, _⟩ => rfl)
  rw [e]
  show Finset.univ.fold max (Ideal.ofBits .f32 0xFF800000#32) _ = _
  rw [ofBits_ninf]
  rfl

/-- The largest entry of a 1024×1 column, folded from −∞. -/
theorem colmax_apply (src : FVec Ideal S1024x1 .f32) (h : S1024x1.Reduces [0] S1) (hφ : FKind.Formats .f32)
    (hacc : (0xFF800000#32 : BitVec 32) = 0xFF800000#32) :
    multiReduction (F := Ideal) .maximumf [0] S1 src 0xFF800000#32 h hφ hacc (ix1 (0 : Fin 1))
      = Finset.univ.sup fun r : Fin 1024 => src (ix2 r (0 : Fin 1)) := by
  refine (Ideal.multiReduction_maximumf_single src 0xFF800000#32 h hφ hacc (ix1 (0 : Fin 1))).trans ?_
  have e : (src ∘ h.lift (ix1 (0 : Fin 1))) = fun r : Fin 1024 => src (ix2 r (0 : Fin 1)) := by
    funext j
    exact congrArg src (by funext a; match a with | ⟨0, _⟩ => rfl | ⟨1, _⟩ => rfl)
  rw [e]
  show Finset.univ.fold max (Ideal.ofBits .f32 0xFF800000#32) _ = _
  rw [ofBits_ninf]
  rfl

/-- A smallest-entry reduction along one axis is the fold of `min` over that axis's coordinates. -/
theorem minimumf_single {s t : Shape} {a : Fin s.rank} (src : FVec Ideal s .f32) (acc : BitVec 32)
    (h : s.Reduces [a] t) (hφ : FKind.Formats .f32) (hacc : acc = FKind.minimumf.neutral .f32 hφ) (j : t.Idx) :
    multiReduction .minimumf [a] t src acc h hφ hacc j
      = (Finset.univ : Finset (Fin (s.size a))).fold min (FloatOps.ofBits .f32 acc) (src ∘ h.lift j) := by
  rw [multiReduction_minimumf_eq_fold]; exact h.fold_filter_drop_single _ _ src j

/-- The smallest entry of row r of a 1024×1024 matrix, folded from +∞. -/
theorem rowmin_apply (src : FVec Ideal S1024x1024 .f32) (h : S1024x1024.Reduces [1] S1024) (hφ : FKind.Formats .f32)
    (hacc : (0x7F800000#32 : BitVec 32) = 0x7F800000#32) (r : Fin 1024) :
    multiReduction (F := Ideal) .minimumf [1] S1024 src 0x7F800000#32 h hφ hacc (ix1 r)
      = Finset.univ.inf fun j : Fin 1024 => src (ix2 r j) := by
  refine (minimumf_single src 0x7F800000#32 h hφ hacc (ix1 r)).trans ?_
  have e : (src ∘ h.lift (ix1 r)) = fun j : Fin 1024 => src (ix2 r j) := by
    funext j
    exact congrArg src (by funext a; match a with | ⟨0, _⟩ => rfl | ⟨1, _⟩ => rfl)
  rw [e]
  show Finset.univ.fold min (Ideal.ofBits .f32 0x7F800000#32) _ = _
  rw [ofBits_pinf]
  rfl

/-- The smallest entry of a 1024×1 column, folded from +∞. -/
theorem colmin_apply (src : FVec Ideal S1024x1 .f32) (h : S1024x1.Reduces [0] S1) (hφ : FKind.Formats .f32)
    (hacc : (0x7F800000#32 : BitVec 32) = 0x7F800000#32) :
    multiReduction (F := Ideal) .minimumf [0] S1 src 0x7F800000#32 h hφ hacc (ix1 (0 : Fin 1))
      = Finset.univ.inf fun r : Fin 1024 => src (ix2 r (0 : Fin 1)) := by
  refine (minimumf_single src 0x7F800000#32 h hφ hacc (ix1 (0 : Fin 1))).trans ?_
  have e : (src ∘ h.lift (ix1 (0 : Fin 1))) = fun r : Fin 1024 => src (ix2 r (0 : Fin 1)) := by
    funext j
    exact congrArg src (by funext a; match a with | ⟨0, _⟩ => rfl | ⟨1, _⟩ => rfl)
  rw [e]
  show Finset.univ.fold min (Ideal.ofBits .f32 0x7F800000#32) _ = _
  rw [ofBits_pinf]
  rfl

/-- A largest value over pairs is the largest of the rows' largest. -/
theorem sup_pairs {ι κ : Type} [Fintype ι] [Fintype κ] (f : ι → κ → EReal) :
    (Finset.univ.sup fun q : ι × κ => f q.1 q.2) = Finset.univ.sup fun i => Finset.univ.sup fun k => f i k := by
  rw [← Finset.univ_product_univ, Finset.sup_product_left]

/-- A smallest value over pairs is the smallest of the rows' smallest. -/
theorem inf_pairs {ι κ : Type} [Fintype ι] [Fintype κ] (f : ι → κ → EReal) :
    (Finset.univ.inf fun q : ι × κ => f q.1 q.2) = Finset.univ.inf fun i => Finset.univ.inf fun k => f i k := by
  rw [← Finset.univ_product_univ, Finset.inf_product_left]

variable (xb : Vec Ideal S1024x128 .f32) (ctb : Vec Ideal S128x1024 .bf16) (yb : Vec Ideal S1x1024 .f32)
  (tb : Vec Ideal S1024x1 .i32) (acc : Vec Ideal S1x8x128 .f32)

theorem pay1_apply (j : S1x8x128.Idx) : k0_pay1 (F := Ideal) j = 0 := Ideal.ofBits_zero_f32
theorem pay2_apply (j : S1x8x128.Idx) : k0_pay2 (F := Ideal) j = 0 := Ideal.ofBits_zero_f32
theorem pay3_apply (j : S1x8x128.Idx) : k0_pay3 (F := Ideal) j = ⊥ := ofBits_ninf
theorem pay4_apply (j : S1x8x128.Idx) : k0_pay4 (F := Ideal) j = ⊤ := ofBits_pinf

/-- The distance tile at (r, j). -/
theorem pay5_apply (r j : Fin 1024) : k0_pay5 xb ctb yb (ix2 r j) = Cert.Spec.dist xb ctb yb r j := by
  unfold k0_pay5
  simp only [subf_apply, addf_apply, mulf_apply, broadcast_apply]
  rw [broadcastTo_col_apply, shapeCast_col_apply, rowsum128_apply, broadcastTo_1b_ab_apply, shapeCast_self, matmul_ix2, shapeCast_self]
  rfl

/-- The tile's row sums of the distance, as a column. -/
theorem pay7_apply (r : Fin 1024) (u : Fin 1) :
    k0_pay7 xb ctb yb (ix2 r u) = ∑ j : Fin 1024, Cert.Spec.dist xb ctb yb r j := by
  simp only [k0_pay7]
  rw [shapeCast_col_apply, rowsum1024_apply]
  exact Finset.sum_congr rfl fun j _ => pay5_apply xb ctb yb r j

/-- A select on a word comparison for equality is the `if` on the equation. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := beq_eq_false_iff_ne.mpr h
    rw [if_neg h]
    show (if BitVec.ofBool (x == y) = 1#1 then a else b) = b
    rw [hb]
    exact if_neg (by decide)

/-- The tile's labelled distances, as a column: the row sum of the distance masked by "column number = label". -/
theorem pay6_apply (r : Fin 1024) (u : Fin 1) :
    k0_pay6 xb ctb yb tb (ix2 r u) = Cert.Spec.pos xb tb ctb yb r := by
  simp only [k0_pay6]
  rw [shapeCast_col_apply, rowsum1024_apply]
  unfold Cert.Spec.pos
  refine Finset.sum_congr rfl fun j _ => ?_
  rw [select_apply, broadcast_apply, pay5_apply]
  show Scalar.select (IntOp.cmpi .eq (iota .tc S1024x1024 32 [1] iota_S1024x1024_d1_w32 (ix2 r j))
      (broadcastTo S1024x1024 (shapeCast S1024x1 tb shapeCasts_S1024x1_S1024x1) broadcasts_S1024x1_S1024x1024 (ix2 r j)))
      _ (Ideal.ofBits .f32 0x00000000#32) = _
  rw [iota_single_apply, broadcastTo_col_apply, shapeCast_self, select_cmpi_eq, Ideal.ofBits_zero_f32]
  exact if_congr Iff.rfl rfl rfl

/-! ## The tile's totals added to the carried block -/

/-- The one entry of the column sum, viewed 1×1 and extracted: the sum down the column. -/
theorem total_apply (v : FVec Ideal S1024x1 .f32) (h : S1024x1.Reduces [0] S1) (hφ : FKind.Formats .f32)
    (hacc : (0x00000000#32 : BitVec 32) = 0x00000000#32) (hc : S1.ShapeCasts S1x1)
    (hp : ∀ a, (![0, 0] : Fin 2 → Nat) a < S1x1.size a) :
    extractAt ![0, 0] (shapeCast S1x1 (multiReduction (F := Ideal) .add [0] S1 v 0x00000000#32 h hφ hacc) hc) hp
      = ∑ r : Fin 1024, v (ix2 r (0 : Fin 1)) := by
  rw [extract_cast_one, colsum_apply]

/-! ## The tile's extremes -/

/-- The tile's largest distance: the largest of the rows' largest. -/
theorem pay8_apply :
    extractAt ![0, 0] (k0_pay8 xb ctb yb) inpos_S1x1_p0_0
      = Finset.univ.sup fun q : Fin 1024 × Fin 1024 => Cert.Spec.dist xb ctb yb q.1 q.2 := by
  simp only [k0_pay8]
  rw [extract_cast_one, colmax_apply]
  refine Eq.trans ?_ (sup_pairs (fun r j => Cert.Spec.dist xb ctb yb r j)).symm
  refine congrArg (Finset.sup Finset.univ) (funext fun r => ?_)
  rw [shapeCast_col_apply, rowmax_apply]
  exact congrArg (Finset.sup Finset.univ) (funext fun j => pay5_apply xb ctb yb r j)

/-- The tile's smallest distance: the smallest of the rows' smallest. -/
theorem pay9_apply :
    k0_pay9 xb ctb yb (ix1 (0 : Fin 1))
      = Finset.univ.inf fun q : Fin 1024 × Fin 1024 => Cert.Spec.dist xb ctb yb q.1 q.2 := by
  simp only [k0_pay9]
  rw [colmin_apply]
  refine Eq.trans ?_ (inf_pairs (fun r j => Cert.Spec.dist xb ctb yb r j)).symm
  refine congrArg (Finset.inf Finset.univ) (funext fun r => ?_)
  rw [shapeCast_col_apply, rowmin_apply]
  exact congrArg (Finset.inf Finset.univ) (funext fun j => pay5_apply xb ctb yb r j)

/-! ## The second stage's four updates of the carried block, for any tile values -/

/-- The carried block plus the sum down a column. -/
theorem pay10_gen (v : FVec Ideal S1024x1 .f32) (j : S1x8x128.Idx) :
    k0_pay10 v acc j = acc j + ∑ r : Fin 1024, v (ix2 r (0 : Fin 1)) := by
  simp only [k0_pay10, addf_apply, broadcast_apply]
  rw [shapeCast_self, total_apply]

/-- The same for the second carried block. -/
theorem pay11_gen (v : FVec Ideal S1024x1 .f32) (j : S1x8x128.Idx) :
    k0_pay11 v acc j = acc j + ∑ r : Fin 1024, v (ix2 r (0 : Fin 1)) := by
  simp only [k0_pay11, addf_apply, broadcast_apply]
  rw [shapeCast_self, total_apply]

/-- The carried block's maximum with a 1×1 value. -/
theorem pay12_gen (v : FVec Ideal S1x1 .f32) (j : S1x8x128.Idx) :
    k0_pay12 v acc j = max (acc j) (extractAt ![0, 0] v inpos_S1x1_p0_0) := by
  simp only [k0_pay12, maximumf_apply, broadcast_apply]
  rw [shapeCast_self]

/-- The carried block's minimum with a one-entry value. -/
theorem pay13_gen (v : FVec Ideal S1 .f32) (j : S1x8x128.Idx) :
    k0_pay13 v acc j = min (acc j) (v (ix1 (0 : Fin 1))) := by
  simp only [k0_pay13, minimumf_apply, broadcast_apply]
  rw [shapeCast_self, extract_cast_one]

theorem pay10_apply (j : S1x8x128.Idx) :
    k0_pay10 (k0_pay7 xb ctb yb) acc j = acc j + ∑ r : Fin 1024, ∑ j' : Fin 1024, Cert.Spec.dist xb ctb yb r j' :=
  (pay10_gen acc (k0_pay7 xb ctb yb) j).trans
    (congrArg (acc j + ·) (Finset.sum_congr rfl fun r _ => pay7_apply xb ctb yb r 0))
theorem pay11_apply (j : S1x8x128.Idx) :
    k0_pay11 (k0_pay6 xb ctb yb tb) acc j = acc j + ∑ r : Fin 1024, Cert.Spec.pos xb tb ctb yb r :=
  (pay11_gen acc (k0_pay6 xb ctb yb tb) j).trans
    (congrArg (acc j + ·) (Finset.sum_congr rfl fun r _ => pay6_apply xb ctb yb tb r 0))
theorem pay12_apply (j : S1x8x128.Idx) :
    k0_pay12 (k0_pay8 xb ctb yb) acc j
      = max (acc j) (Finset.univ.sup fun q : Fin 1024 × Fin 1024 => Cert.Spec.dist xb ctb yb q.1 q.2) :=
  (pay12_gen acc (k0_pay8 xb ctb yb) j).trans (congrArg (max (acc j)) (pay8_apply xb ctb yb))
theorem pay13_apply (j : S1x8x128.Idx) :
    k0_pay13 (k0_pay9 xb ctb yb) acc j
      = min (acc j) (Finset.univ.inf fun q : Fin 1024 × Fin 1024 => Cert.Spec.dist xb ctb yb q.1 q.2) :=
  (pay13_gen acc (k0_pay9 xb ctb yb) j).trans (congrArg (min (acc j)) (pay9_apply xb ctb yb))

end Cert.KernelIdeal.KPay0

end
-- ==== Proof.LibBlockSum.lean ====
/-
  A sum over n·b terms taken block by block, and an accumulator that adds one block's sum per step.

  Position t·b + r is the r-th term of block t. Over a commutative monoid the sum of all n·b terms is the sum over the
  blocks of each block's sum: this is only a re-indexing of the positions by (block, place in block). An accumulator
  that holds 0 + g 0 after step 0 and adds g (k+1) at step k+1 holds g 0 + … + g k after step k; with g t the sum of
  block t, after the last step it holds the sum of all terms.
-/
import Mathlib.Algebra.BigOperators.Fin
import Mathlib.Logic.Equiv.Fin.Basic

namespace Cert.BlockSum

open scoped BigOperators

variable {M : Type*} [AddCommMonoid M]

/-- Among `N = n * b` positions, the one of block `t` at place `r`: `t * b + r`. -/
def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

/-- The sum of all terms is the sum over the blocks of each block's sum. -/
theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

/-- An accumulator that holds `0 + g 0` after step 0 and adds `g (k + 1)` at step `k + 1` holds, after step `k`,
    the sum of `g 0, …, g k`. -/
theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

/-- After its last step the accumulator holds the sum of all the `g t`. -/
theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

/-- An accumulator that adds block `t`'s sum at step `t`, starting from `0`, holds after the last of the `n + 1`
    steps the sum of all `(n + 1) * b` terms. -/
theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.KReg0.lean ====
/-
  What the first of the two passes leaves in its four result arrays, for any contents of its input arrays.

  The pass walks the 65536 rows of the data matrix in two halves of 32 tiles of 1024 rows: grid point 32·p + s handles
  tile s of half p. It carries four [1,8,128] blocks, one per result, whose block index is the half p: at the first tile of
  a half the blocks are reset to 0, 0, −∞, +∞; at every tile each entry of a block is updated with the tile's total of all
  distances (added), its total of the labelled distances (added), its largest distance (maximum) and its smallest distance
  (minimum); after the last tile of the half the blocks are written back to block p of the [2,8,128] result arrays.

  So every entry of block p of the four results ends at, respectively, the sum over the half's rows and all columns of the
  squared distances, the sum over the half's rows of the labelled distance, the maximum and the minimum over the half's
  rows and all columns of the distances: `Spec.sdPart`, `Spec.spPart`, `Spec.mxPart`, `Spec.mnPart` at p.

  The argument: (1) what one point leaves in each carried block, as a function of the point's input blocks and of what the
  block held; (2) the input blocks at point 32·p + s are tile s of half p of the data and label arrays and the whole of the
  two small arrays; (3) by induction along a half, a running sum is the sum, a running maximum the maximum, a running
  minimum the minimum, and the tile-by-tile total regroups to the half's total (a distance inside a tile is the distance
  of that row of the whole matrix: the same sums of the same entries); (4) the two blocks written back tile the result.
-/
import proofs.«408375_j76639396429875_3_alg».proof.Proof.Gen.KernelIdeal.Frame
import proofs.«408375_j76639396429875_3_alg».proof.Proof.Spec
import proofs.«408375_j76639396429875_3_alg».proof.Proof.KPay0
import Idealize.ShloMosaic.Lib.Pipeline.Value
import proofs.«408375_j76639396429875_3_alg».proof.Proof.LibBlockSum

noncomputable section

open scoped BigOperators
open Idealize.ShloMosaic Idealize.ShloMosaic.TcCoe Idealize.SL.Sem Idealize.ShloMosaic.ValueIdx
open Idealize.ShloMosaic.Pipeline (Dat)

namespace Cert.KernelIdeal.KReg0

open Cert.KernelIdeal Cert.KernelIdeal.Gen

variable (V : (c : Dev nD) → (b : Ref sig .tc) → Buf (Elt Ideal) ((c : Thread nD τ).loc b))

/-! ## What one grid point leaves in each carried block

At a point that is not the first of its half the body adds the tile's total to (takes the maximum / minimum of the tile's
extreme with) what the block held; at the first point of a half the block is first reset (to 0, 0, −∞, +∞) and the
reset value is what the update reads back. -/

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem out_B_4 (c : Dev nD) (i : grid0.Coords) (a2 : Memref sig .tc .vmem S1024x128 .f32) (h2 : a2.IsWhole) (a3 : Memref sig .tc .vmem S1024x1 .i32) (h3 : a3.IsWhole) (a4 : Memref sig .tc .vmem S128x1024 .bf16) (h4 : a4.IsWhole) (a5 : Memref sig .tc .vmem S1x1024 .f32) (h5 : a5.IsWhole) (a6 : Memref sig .tc .vmem S1x8x128 .f32) (h6 : a6.IsWhole) (a7 : Memref sig .tc .vmem S1x8x128 .f32) (h7 : a7.IsWhole) (a8 : Memref sig .tc .vmem S1x8x128 .f32) (h8 : a8.IsWhole) (a9 : Memref sig .tc .vmem S1x8x128 .f32) (h9 : a9.IsWhole) (hc : ¬cond0_0 i)
    (x0 : Vec F S1024x128 .f32) (x1 : Vec F S1024x1 .i32) (x2 : Vec F S128x1024 .bf16) (x3 : Vec F S1x1024 .f32)
    (xo4 xo5 xo6 xo7 : Vec F S1x8x128 .f32) :
    out0_B_4 c i a2 h2 a3 h3 a4 h4 a5 h5 a6 h6 a7 h7 a8 h8 a9 h9 hc x0 x1 x2 x3 xo4 xo5 xo6 xo7 = k0_pay10 (k0_pay7 x0 x2 x3) xo4 := by
  unfold out0_B_4
  rw [View.read_writes_eq_canon _ _ _ (cover0_B_4 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread,
    h7.read_unread, h8.read_unread, h9.read_unread, View.ld_unit_zero (S := S1024x128) hz2,
    View.ld_unit_zero (S := S1024x1) hz2, View.ld_unit_zero (S := S128x1024) hz2, View.ld_unit_zero (S := S1x1024) hz2,
    View.ld_unit_zero (S := S1x8x128) hz3, shapeCast_self]

theorem out_B_5 (c : Dev nD) (i : grid0.Coords) (a2 : Memref sig .tc .vmem S1024x128 .f32) (h2 : a2.IsWhole) (a3 : Memref sig .tc .vmem S1024x1 .i32) (h3 : a3.IsWhole) (a4 : Memref sig .tc .vmem S128x1024 .bf16) (h4 : a4.IsWhole) (a5 : Memref sig .tc .vmem S1x1024 .f32) (h5 : a5.IsWhole) (a6 : Memref sig .tc .vmem S1x8x128 .f32) (h6 : a6.IsWhole) (a7 : Memref sig .tc .vmem S1x8x128 .f32) (h7 : a7.IsWhole) (a8 : Memref sig .tc .vmem S1x8x128 .f32) (h8 : a8.IsWhole) (a9 : Memref sig .tc .vmem S1x8x128 .f32) (h9 : a9.IsWhole) (hc : ¬cond0_0 i)
    (x0 : Vec F S1024x128 .f32) (x1 : Vec F S1024x1 .i32) (x2 : Vec F S128x1024 .bf16) (x3 : Vec F S1x1024 .f32)
    (xo4 xo5 xo6 xo7 : Vec F S1x8x128 .f32) :
    out0_B_5 c i a2 h2 a3 h3 a4 h4 a5 h5 a6 h6 a7 h7 a8 h8 a9 h9 hc x0 x1 x2 x3 xo4 xo5 xo6 xo7 = k0_pay11 (k0_pay6 x0 x2 x3 x1) xo5 := by
  unfold out0_B_5
  rw [View.read_writes_eq_canon _ _ _ (cover0_B_5 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread,
    h7.read_unread, h8.read_unread, h9.read_unread, View.ld_unit_zero (S := S1024x128) hz2,
    View.ld_unit_zero (S := S1024x1) hz2, View.ld_unit_zero (S := S128x1024) hz2, View.ld_unit_zero (S := S1x1024) hz2,
    View.ld_unit_zero (S := S1x8x128) hz3, shapeCast_self]

theorem out_B_6 (c : Dev nD) (i : grid0.Coords) (a2 : Memref sig .tc .vmem S1024x128 .f32) (h2 : a2.IsWhole) (a3 : Memref sig .tc .vmem S1024x1 .i32) (h3 : a3.IsWhole) (a4 : Memref sig .tc .vmem S128x1024 .bf16) (h4 : a4.IsWhole) (a5 : Memref sig .tc .vmem S1x1024 .f32) (h5 : a5.IsWhole) (a6 : Memref sig .tc .vmem S1x8x128 .f32) (h6 : a6.IsWhole) (a7 : Memref sig .tc .vmem S1x8x128 .f32) (h7 : a7.IsWhole) (a8 : Memref sig .tc .vmem S1x8x128 .f32) (h8 : a8.IsWhole) (a9 : Memref sig .tc .vmem S1x8x128 .f32) (h9 : a9.IsWhole) (hc : ¬cond0_0 i)
    (x0 : Vec F S1024x128 .f32) (x1 : Vec F S1024x1 .i32) (x2 : Vec F S128x1024 .bf16) (x3 : Vec F S1x1024 .f32)
    (xo4 xo5 xo6 xo7 : Vec F S1x8x128 .f32) :
    out0_B_6 c i a2 h2 a3 h3 a4 h4 a5 h5 a6 h6 a7 h7 a8 h8 a9 h9 hc x0 x1 x2 x3 xo4 xo5 xo6 xo7 = k0_pay12 (k0_pay8 x0 x2 x3) xo6 := by
  unfold out0_B_6
  rw [View.read_writes_eq_canon _ _ _ (cover0_B_6 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread,
    h7.read_unread, h8.read_unread, h9.read_unread, View.ld_unit_zero (S := S1024x128) hz2,
    View.ld_unit_zero (S := S1024x1) hz2, View.ld_unit_zero (S := S128x1024) hz2, View.ld_unit_zero (S := S1x1024) hz2,
    View.ld_unit_zero (S := S1x8x128) hz3, shapeCast_self]

theorem out_B_7 (c : Dev nD) (i : grid0.Coords) (a2 : Memref sig .tc .vmem S1024x128 .f32) (h2 : a2.IsWhole) (a3 : Memref sig .tc .vmem S1024x1 .i32) (h3 : a3.IsWhole) (a4 : Memref sig .tc .vmem S128x1024 .bf16) (h4 : a4.IsWhole) (a5 : Memref sig .tc .vmem S1x1024 .f32) (h5 : a5.IsWhole) (a6 : Memref sig .tc .vmem S1x8x128 .f32) (h6 : a6.IsWhole) (a7 : Memref sig .tc .vmem S1x8x128 .f32) (h7 : a7.IsWhole) (a8 : Memref sig .tc .vmem S1x8x128 .f32) (h8 : a8.IsWhole) (a9 : Memref sig .tc .vmem S1x8x128 .f32) (h9 : a9.IsWhole) (hc : ¬cond0_0 i)
    (x0 : Vec F S1024x128 .f32) (x1 : Vec F S1024x1 .i32) (x2 : Vec F S128x1024 .bf16) (x3 : Vec F S1x1024 .f32)
    (xo4 xo5 xo6 xo7 : Vec F S1x8x128 .f32) :
    out0_B_7 c i a2 h2 a3 h3 a4 h4 a5 h5 a6 h6 a7 h7 a8 h8 a9 h9 hc x0 x1 x2 x3 xo4 xo5 xo6 xo7 = k0_pay13 (k0_pay9 x0 x2 x3) xo7 := by
  unfold out0_B_7
  rw [View.read_writes_eq_canon _ _ _ (cover0_B_7 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread,
    h7.read_unread, h8.read_unread, h9.read_unread, View.ld_unit_zero (S := S1024x128) hz2,
    View.ld_unit_zero (S := S1024x1) hz2, View.ld_unit_zero (S := S128x1024) hz2, View.ld_unit_zero (S := S1x1024) hz2,
    View.ld_unit_zero (S := S1x8x128) hz3, shapeCast_self]

theorem out_A_4 (c : Dev nD) (i : grid0.Coords) (a2 : Memref sig .tc .vmem S1024x128 .f32) (h2 : a2.IsWhole) (a3 : Memref sig .tc .vmem S1024x1 .i32) (h3 : a3.IsWhole) (a4 : Memref sig .tc .vmem S128x1024 .bf16) (h4 : a4.IsWhole) (a5 : Memref sig .tc .vmem S1x1024 .f32) (h5 : a5.IsWhole) (a6 : Memref sig .tc .vmem S1x8x128 .f32) (h6 : a6.IsWhole) (a7 : Memref sig .tc .vmem S1x8x128 .f32) (h7 : a7.IsWhole) (a8 : Memref sig .tc .vmem S1x8x128 .f32) (h8 : a8.IsWhole) (a9 : Memref sig .tc .vmem S1x8x128 .f32) (h9 : a9.IsWhole) (hc : cond0_0 i)
    (x0 : Vec F S1024x128 .f32) (x1 : Vec F S1024x1 .i32) (x2 : Vec F S128x1024 .bf16) (x3 : Vec F S1x1024 .f32) :
    out0_A_4 c i a2 h2 a3 h3 a4 h4 a5 h5 a6 h6 a7 h7 a8 h8 a9 h9 hc x0 x1 x2 x3 = k0_pay10 (k0_pay7 x0 x2 x3) k0_pay1 := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S1024x128) hz2,
    View.ld_unit_zero (S := S1024x1) hz2, View.ld_unit_zero (S := S128x1024) hz2, View.ld_unit_zero (S := S1x1024) hz2,
    shapeCast_self]

theorem out_A_5 (c : Dev nD) (i : grid0.Coords) (a2 : Memref sig .tc .vmem S1024x128 .f32) (h2 : a2.IsWhole) (a3 : Memref sig .tc .vmem S1024x1 .i32) (h3 : a3.IsWhole) (a4 : Memref sig .tc .vmem S128x1024 .bf16) (h4 : a4.IsWhole) (a5 : Memref sig .tc .vmem S1x1024 .f32) (h5 : a5.IsWhole) (a6 : Memref sig .tc .vmem S1x8x128 .f32) (h6 : a6.IsWhole) (a7 : Memref sig .tc .vmem S1x8x128 .f32) (h7 : a7.IsWhole) (a8 : Memref sig .tc .vmem S1x8x128 .f32) (h8 : a8.IsWhole) (a9 : Memref sig .tc .vmem S1x8x128 .f32) (h9 : a9.IsWhole) (hc : cond0_0 i)
    (x0 : Vec F S1024x128 .f32) (x1 : Vec F S1024x1 .i32) (x2 : Vec F S128x1024 .bf16) (x3 : Vec F S1x1024 .f32) :
    out0_A_5 c i a2 h2 a3 h3 a4 h4 a5 h5 a6 h6 a7 h7 a8 h8 a9 h9 hc x0 x1 x2 x3 = k0_pay11 (k0_pay6 x0 x2 x3 x1) k0_pay2 := by
  unfold out0_A_5
  rw [View.read_writes_eq_canon _ _ _ (cover0_A_5 c i a2 h2 a3 h3 a4 h4 a5 h5 a6 h6 a7 h7 a8 h8 a9 h9 hc x0 x1 x2 x3)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S1024x128) hz2,
    View.ld_unit_zero (S := S1024x1) hz2, View.ld_unit_zero (S := S128x1024) hz2, View.ld_unit_zero (S := S1x1024) hz2,
    shapeCast_self]

theorem out_A_6 (c : Dev nD) (i : grid0.Coords) (a2 : Memref sig .tc .vmem S1024x128 .f32) (h2 : a2.IsWhole) (a3 : Memref sig .tc .vmem S1024x1 .i32) (h3 : a3.IsWhole) (a4 : Memref sig .tc .vmem S128x1024 .bf16) (h4 : a4.IsWhole) (a5 : Memref sig .tc .vmem S1x1024 .f32) (h5 : a5.IsWhole) (a6 : Memref sig .tc .vmem S1x8x128 .f32) (h6 : a6.IsWhole) (a7 : Memref sig .tc .vmem S1x8x128 .f32) (h7 : a7.IsWhole) (a8 : Memref sig .tc .vmem S1x8x128 .f32) (h8 : a8.IsWhole) (a9 : Memref sig .tc .vmem S1x8x128 .f32) (h9 : a9.IsWhole) (hc : cond0_0 i)
    (x0 : Vec F S1024x128 .f32) (x1 : Vec F S1024x1 .i32) (x2 : Vec F S128x1024 .bf16) (x3 : Vec F S1x1024 .f32) :
    out0_A_6 c i a2 h2 a3 h3 a4 h4 a5 h5 a6 h6 a7 h7 a8 h8 a9 h9 hc x0 x1 x2 x3 = k0_pay12 (k0_pay8 x0 x2 x3) k0_pay3 := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S1024x128) hz2,
    View.ld_unit_zero (S := S1024x1) hz2, View.ld_unit_zero (S := S128x1024) hz2, View.ld_unit_zero (S := S1x1024) hz2,
    shapeCast_self]

theorem out_A_7 (c : Dev nD) (i : grid0.Coords) (a2 : Memref sig .tc .vmem S1024x128 .f32) (h2 : a2.IsWhole) (a3 : Memref sig .tc .vmem S1024x1 .i32) (h3 : a3.IsWhole) (a4 : Memref sig .tc .vmem S128x1024 .bf16) (h4 : a4.IsWhole) (a5 : Memref sig .tc .vmem S1x1024 .f32) (h5 : a5.IsWhole) (a6 : Memref sig .tc .vmem S1x8x128 .f32) (h6 : a6.IsWhole) (a7 : Memref sig .tc .vmem S1x8x128 .f32) (h7 : a7.IsWhole) (a8 : Memref sig .tc .vmem S1x8x128 .f32) (h8 : a8.IsWhole) (a9 : Memref sig .tc .vmem S1x8x128 .f32) (h9 : a9.IsWhole) (hc : cond0_0 i)
    (x0 : Vec F S1024x128 .f32) (x1 : Vec F S1024x1 .i32) (x2 : Vec F S128x1024 .bf16) (x3 : Vec F S1x1024 .f32) :
    out0_A_7 c i a2 h2 a3 h3 a4 h4 a5 h5 a6 h6 a7 h7 a8 h8 a9 h9 hc x0 x1 x2 x3 = k0_pay13 (k0_pay9 x0 x2 x3) k0_pay4 := by
  unfold out0_A_7
  rw [View.read_writes_eq_canon _ _ _ (cover0_A_7 c i a2 h2 a3 h3 a4 h4 a5 h5 a6 h6 a7 h7 a8 h8 a9 h9 hc x0 x1 x2 x3)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S1024x128) hz2,
    View.ld_unit_zero (S := S1024x1) hz2, View.ld_unit_zero (S := S128x1024) hz2, View.ld_unit_zero (S := S1x1024) hz2,
    shapeCast_self]

end Pieces

/-! ## A running maximum and a running minimum

An accumulator that holds max(−∞, g 0) after step 0 and max(previous, g (k+1)) after step k+1 holds after step n the
largest of g 0, …, g n; dually for the minimum from +∞. Both by the universal property: a bound of the accumulator is
a bound of every term so far. -/

section Chains

theorem chain_max (n : ℕ) (a g : (k : ℕ) → k < n + 1 → EReal)
    (h0 : ∀ h, a 0 h = max ⊥ (g 0 h))
    (hs : ∀ (k : ℕ) (h : k + 1 < n + 1), a (k + 1) h = max (a k (Nat.lt_of_succ_lt h)) (g (k + 1) h)) :
    a n (Nat.lt_succ_self n) = Finset.univ.sup fun t : Fin (n + 1) => g t.val t.isLt := by
  have key : ∀ (k : ℕ) (h : k < n + 1) (b : EReal),
      a k h ≤ b ↔ ∀ (s : ℕ) (hs' : s ≤ k), g s (lt_of_le_of_lt hs' h) ≤ b := by
    intro k
    induction k with
    | zero =>
      intro h b
      rw [h0, max_le_iff]
      constructor
      · intro hb s hs'
        obtain rfl : s = 0 := Nat.le_zero.mp hs'
        exact hb.2
      · intro hb
        exact ⟨bot_le, hb 0 le_rfl⟩
    | succ k ih =>
      intro h b
      rw [hs, max_le_iff, ih]
      constructor
      · rintro ⟨h1, h2⟩ s hs'
        rcases Nat.lt_or_eq_of_le hs' with hlt | rfl
        · exact h1 s (Nat.le_of_lt_succ hlt)
        · exact h2
      · intro hb
        exact ⟨fun s hs' => hb s (Nat.le_succ_of_le hs'), hb (k + 1) le_rfl⟩
  refine eq_of_forall_ge_iff fun b => ?_
  rw [key, Finset.sup_le_iff]
  constructor
  · intro hb t _
    exact hb t.val (Nat.le_of_lt_succ t.isLt)
  · intro hb s hs'
    exact hb ⟨s, Nat.lt_succ_of_le hs'⟩ (Finset.mem_univ _)

theorem chain_min (n : ℕ) (a g : (k : ℕ) → k < n + 1 → EReal)
    (h0 : ∀ h, a 0 h = min ⊤ (g 0 h))
    (hs : ∀ (k : ℕ) (h : k + 1 < n + 1), a (k + 1) h = min (a k (Nat.lt_of_succ_lt h)) (g (k + 1) h)) :
    a n (Nat.lt_succ_self n) = Finset.univ.inf fun t : Fin (n + 1) => g t.val t.isLt := by
  have key : ∀ (k : ℕ) (h : k < n + 1) (b : EReal),
      b ≤ a k h ↔ ∀ (s : ℕ) (hs' : s ≤ k), b ≤ g s (lt_of_le_of_lt hs' h) := by
    intro k
    induction k with
    | zero =>
      intro h b
      rw [h0, le_min_iff]
      constructor
      · intro hb s hs'
        obtain rfl : s = 0 := Nat.le_zero.mp hs'
        exact hb.2
      · intro hb
        exact ⟨le_top, hb 0 le_rfl⟩
    | succ k ih =>
      intro h b
      rw [hs, le_min_iff, ih]
      constructor
      · rintro ⟨h1, h2⟩ s hs'
        rcases Nat.lt_or_eq_of_le hs' with hlt | rfl
        · exact h1 s (Nat.le_of_lt_succ hlt)
        · exact h2
      · intro hb
        exact ⟨fun s hs' => hb s (Nat.le_succ_of_le hs'), hb (k + 1) le_rfl⟩
  refine eq_of_forall_le_iff fun b => ?_
  rw [key, Finset.le_inf_iff]
  constructor
  · intro hb t _
    exact hb t.val (Nat.le_of_lt_succ t.isLt)
  · intro hb s hs'
    exact hb ⟨s, Nat.lt_succ_of_le hs'⟩ (Finset.mem_univ _)

end Chains

/-! ## The input blocks at a point

A window's block at point t starts at (block index × block size) on each axis. The data and label windows' index on the
row axis is the point's number t (tile t of the 64 tiles of 1024 rows), on the other axis 0; the two small arrays' block
is the whole array at every point. -/

section Blocks

/-- The block indices of the four input windows, decided over the grid. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)

/-- The grid has 64 points. -/
theorem lt64 (t : Fin cfg0.N) : t.val < 64 := lt_of_lt_of_eq t.isLt (show cfg0.N = 64 from N_0)

/-- The four input arrays as the pass finds them, and their blocks at point `t`, at their literal shapes. -/
abbrev xarr (c : Dev nD) : Vec Ideal S65536x128 .f32 := V c main_arg0
abbrev tarr (c : Dev nD) : Vec Ideal S65536x1 .i32 := V c main_v19
abbrev carr (c : Dev nD) : Vec Ideal S128x1024 .bf16 := V c main_v13
abbrev yarr (c : Dev nD) : Vec Ideal S1x1024 .f32 := V c main_v16
abbrev xblk (c : Dev nD) (t : Fin cfg0.N) : Vec Ideal S1024x128 .f32 := iblk0 V c 0 t
abbrev tblk (c : Dev nD) (t : Fin cfg0.N) : Vec Ideal S1024x1 .i32 := iblk0 V c 1 t
abbrev cblk (c : Dev nD) (t : Fin cfg0.N) : Vec Ideal S128x1024 .bf16 := iblk0 V c 2 t
abbrev yblk (c : Dev nD) (t : Fin cfg0.N) : Vec Ideal S1x1024 .f32 := iblk0 V c 3 t

/-- Entry (r, d) of the data block at point t is entry (1024·t + r, d) of the data matrix. -/
theorem xblk_apply (c : Dev nD) (t : Fin cfg0.N) (r : Fin 1024) (d : Fin 128) :
    xblk V c t (ix2 r d) = xarr V c (ix2 ⟨t.val * 1024 + r.val, by have := lt64 t; omega⟩ d) := by
  have hi := idx0_0 t
  unfold xblk xarr iblk0
  rw [View.read_apply]
  show V c main_arg0 _ = V c main_arg0 _
  congr 1
  funext a
  apply Fin.ext
  match a with
  | ⟨0, _⟩ => show win0_0.index t 0 * 1024 + 1 * r.val = t.val * 1024 + r.val; rw [hi.1]; omega
  | ⟨1, _⟩ => show win0_0.index t 1 * 128 + 1 * d.val = d.val; rw [hi.2]; omega

/-- Entry (r, ·) of the label block at point t is the label of row 1024·t + r. -/
theorem tblk_apply (c : Dev nD) (t : Fin cfg0.N) (r : Fin 1024) (d : Fin 1) :
    tblk V c t (ix2 r d) = tarr V c (ix2 ⟨t.val * 1024 + r.val, by have := lt64 t; omega⟩ 0) := by
  have hi := idx0_1 t
  unfold tblk tarr iblk0
  rw [View.read_apply]
  show V c main_v19 _ = V c main_v19 _
  congr 1
  funext a
  apply Fin.ext
  match a with
  | ⟨0, _⟩ => show win0_1.index t 0 * 1024 + 1 * r.val = t.val * 1024 + r.val; rw [hi.1]; omega
  | ⟨1, _⟩ => show win0_1.index t 1 * 1 + 1 * d.val = 0; rw [hi.2]; omega

/-- The block of the transposed centres is the whole array, at every point. -/
theorem cblk_eq (c : Dev nD) (t : Fin cfg0.N) : cblk V c t = carr V c := by
  have hi := idx0_2 t
  funext j
  unfold cblk carr iblk0
  rw [View.read_apply]
  show V c main_v13 _ = V c main_v13 _
  congr 1
  funext a
  apply Fin.ext
  match a with
  | ⟨0, _⟩ => show win0_2.index t 0 * 128 + 1 * (j 0).val = (j 0).val; rw [hi.1]; omega
  | ⟨1, _⟩ => show win0_2.index t 1 * 1024 + 1 * (j 1).val = (j 1).val; rw [hi.2]; omega

/-- The block of the centres' squared norms is the whole array, at every point. -/
theorem yblk_eq (c : Dev nD) (t : Fin cfg0.N) : yblk V c t = yarr V c := by
  have hi := idx0_3 t
  funext j
  unfold yblk yarr iblk0
  rw [View.read_apply]
  show V c main_v16 _ = V c main_v16 _
  congr 1
  funext a
  apply Fin.ext
  match a with
  | ⟨0, _⟩ => show win0_3.index t 0 * 1 + 1 * (j 0).val = (j 0).val; rw [hi.1]; omega
  | ⟨1, _⟩ => show win0_3.index t 1 * 1024 + 1 * (j 1).val = (j 1).val; rw [hi.2]; omega
end Blocks

/-! ## What a point leaves in the four carried blocks, over the point's input blocks -/

section Steps

/-- What the four carried blocks hold after a point that opens a half: the reset value updated by the point's tile. -/
theorem outs_A (c : Dev nD) (t : Fin cfg0.N) (h0 : t.val % 32 = 0) :
    outsAt0 V c t.val t.isLt
      = (k0_pay10 (k0_pay7 (xblk V c t) (cblk V c t) (yblk V c t)) (k0_pay1 (F := Ideal)),
         k0_pay11 (k0_pay6 (xblk V c t) (cblk V c t) (yblk V c t) (tblk V c t)) (k0_pay2 (F := Ideal)),
         k0_pay12 (k0_pay8 (xblk V c t) (cblk V c t) (yblk V c t)) (k0_pay3 (F := Ideal)),
         k0_pay13 (k0_pay9 (xblk V c t) (cblk V c t) (yblk V c t)) (k0_pay4 (F := Ideal))) := by
  rw [outsAt0_A V c t h0,
    out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t),
    out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t),
    out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t),
    out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t)]

/-- What they hold after any other point: what the point before left, updated by the point's tile. -/
theorem outs_B (c : Dev nD) (t : Fin cfg0.N) (h0 : ¬t.val % 32 = 0) :
    outsAt0 V c t.val t.isLt
      = (k0_pay10 (k0_pay7 (xblk V c t) (cblk V c t) (yblk V c t)) (outsAt0 V c (t.val - 1) (Nat.lt_of_le_of_lt (Nat.sub_le _ _) t.isLt)).1,
         k0_pay11 (k0_pay6 (xblk V c t) (cblk V c t) (yblk V c t) (tblk V c t)) (outsAt0 V c (t.val - 1) (Nat.lt_of_le_of_lt (Nat.sub_le _ _) t.isLt)).2.1,
         k0_pay12 (k0_pay8 (xblk V c t) (cblk V c t) (yblk V c t)) (outsAt0 V c (t.val - 1) (Nat.lt_of_le_of_lt (Nat.sub_le _ _) t.isLt)).2.2.1,
         k0_pay13 (k0_pay9 (xblk V c t) (cblk V c t) (yblk V c t)) (outsAt0 V c (t.val - 1) (Nat.lt_of_le_of_lt (Nat.sub_le _ _) t.isLt)).2.2.2) := by
  rw [outsAt0_B V c t h0,
    out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2]
end Steps

/-! ## One half of the rows: 32 consecutive points

Point 32·p + k handles tile k of half p. After it, every entry of the four carried blocks holds the total (the largest,
the smallest) over tiles 0 … k of that half; after point 32·p + 31, the half's totals. -/

section Halves

/-- The block of the data matrix at point 32·p + s is tile s of half p. -/
theorem xblk_tile (c : Dev nD) (p : Fin 2) (s : Fin 32) (t : Fin cfg0.N) (ht : t.val = p.val * 32 + s.val) :
    xblk V c t = Cert.Spec.xTile (xarr V c) p s := by
  funext j
  obtain ⟨r, d, rfl⟩ : ∃ r d, j = ix2 r d := ⟨j 0, j 1, eq_ix2 j⟩
  rw [xblk_apply]
  have e : ∀ h, (⟨t.val * 1024 + r.val, h⟩ : Fin 65536) = Cert.Spec.row p s r := fun h =>
    Fin.ext (by show t.val * 1024 + r.val = (p.val * 32 + s.val) * 1024 + r.val; rw [ht])
  rw [e]
  rfl

/-- The block of the label column at point 32·p + s is tile s of half p. -/
theorem tblk_tile (c : Dev nD) (p : Fin 2) (s : Fin 32) (t : Fin cfg0.N) (ht : t.val = p.val * 32 + s.val) :
    tblk V c t = Cert.Spec.tgTile (tarr V c) p s := by
  funext j
  obtain ⟨r, d, rfl⟩ : ∃ r d, j = ix2 r d := ⟨j 0, j 1, eq_ix2 j⟩
  rw [tblk_apply]
  have e : ∀ h, (⟨t.val * 1024 + r.val, h⟩ : Fin 65536) = Cert.Spec.row p s r := fun h =>
    Fin.ext (by show t.val * 1024 + r.val = (p.val * 32 + s.val) * 1024 + r.val; rw [ht])
  rw [e]
  rfl

/-- A distance inside a tile is the distance of the tile's row in the whole matrix: the same sums of the same entries. -/
theorem dist_tile (x : Cert.Spec.SX.Idx → EReal) (ct : Cert.Spec.SCT.Idx → EReal) (y : Cert.Spec.SY.Idx → EReal)
    (p : Fin 2) (s : Fin 32) (r : Fin 1024) (j : Fin 1024) :
    Cert.Spec.dist (Cert.Spec.xTile x p s) ct y r j = Cert.Spec.dist x ct y (Cert.Spec.row p s r) j := rfl

/-- Likewise the labelled distance: the tile's label of row r is the label of the tile's row. -/
theorem pos_tile (x : Cert.Spec.SX.Idx → EReal) (tg : Cert.Spec.ST.Idx → BitVec 32) (ct : Cert.Spec.SCT.Idx → EReal)
    (y : Cert.Spec.SY.Idx → EReal) (p : Fin 2) (s : Fin 32) (r : Fin 1024) :
    Cert.Spec.pos (Cert.Spec.xTile x p s) (Cert.Spec.tgTile tg p s) ct y r
      = Cert.Spec.pos x tg ct y (Cert.Spec.row p s r) := rfl

/-- A half's largest distance, taken tile by tile. -/
theorem mx_regroup (x : Cert.Spec.SX.Idx → EReal) (ct : Cert.Spec.SCT.Idx → EReal) (y : Cert.Spec.SY.Idx → EReal)
    (p : Fin 2) :
    Cert.Spec.mxPart x ct y p
      = Finset.univ.sup fun t : Fin 32 => Finset.univ.sup fun q : Fin 1024 × Fin 1024 =>
          Cert.Spec.dist (Cert.Spec.xTile x p t) ct y q.1 q.2 := by
  unfold Cert.Spec.mxPart
  rw [← Finset.univ_product_univ (α := Fin 32) (β := Fin 1024 × Fin 1024), Finset.sup_product_left]
  rfl

/-- A half's smallest distance, taken tile by tile. -/
theorem mn_regroup (x : Cert.Spec.SX.Idx → EReal) (ct : Cert.Spec.SCT.Idx → EReal) (y : Cert.Spec.SY.Idx → EReal)
    (p : Fin 2) :
    Cert.Spec.mnPart x ct y p
      = Finset.univ.inf fun t : Fin 32 => Finset.univ.inf fun q : Fin 1024 × Fin 1024 =>
          Cert.Spec.dist (Cert.Spec.xTile x p t) ct y q.1 q.2 := by
  unfold Cert.Spec.mnPart
  rw [← Finset.univ_product_univ (α := Fin 32) (β := Fin 1024 × Fin 1024), Finset.inf_product_left]
  rfl

theorem pt_lt (p : Fin 2) (k : ℕ) (hk : k < 31 + 1) : p.val * 32 + k < cfg0.N := by
  rw [show cfg0.N = 64 from N_0]; have := p.isLt; omega

/-- The contents after a point depend on the point's number only. -/
theorem outs_congr (c : Dev nD) (n n' : ℕ) (e : n = n') (h : n < cfg0.N) (h' : n' < cfg0.N) :
    outsAt0 V c n h = outsAt0 V c n' h' := by subst e; rfl

/-- The point before 32·p + (k+1) is 32·p + k. -/
theorem outs_pred (c : Dev nD) (p : Fin 2) (k : ℕ) (h : k + 1 < 31 + 1) (h' : p.val * 32 + (k + 1) - 1 < cfg0.N) :
    outsAt0 V c (p.val * 32 + (k + 1) - 1) h' = outsAt0 V c (p.val * 32 + k) (pt_lt p k (Nat.lt_of_succ_lt h)) :=
  outs_congr V c _ _ (by omega) _ _

/-! ### The sum of all distances -/

theorem sd_first (c : Dev nD) (p : Fin 2) (j : S1x8x128.Idx) (h : 0 < 31 + 1) :
    ((outsAt0 V c (p.val * 32 + 0) (pt_lt p 0 h)).1 j : EReal)
      = 0 + ∑ r : Fin 1024, ∑ j' : Fin 1024, Cert.Spec.dist (Cert.Spec.xTile (xarr V c) p ⟨0, h⟩) (carr V c) (yarr V c) r j' := by
  rw [outs_A V c ⟨p.val * 32 + 0, pt_lt p 0 h⟩ (by show (p.val * 32 + 0) % 32 = 0; omega)]
  dsimp only
  rw [KPay0.pay10_apply, KPay0.pay1_apply, xblk_tile V c p ⟨0, h⟩ _ rfl, cblk_eq, yblk_eq]

theorem sd_step (c : Dev nD) (p : Fin 2) (j : S1x8x128.Idx) (k : ℕ) (h : k + 1 < 31 + 1) :
    ((outsAt0 V c (p.val * 32 + (k + 1)) (pt_lt p (k + 1) h)).1 j : EReal)
      = ((outsAt0 V c (p.val * 32 + k) (pt_lt p k (Nat.lt_of_succ_lt h))).1 j)
        + ∑ r : Fin 1024, ∑ j' : Fin 1024, Cert.Spec.dist (Cert.Spec.xTile (xarr V c) p ⟨k + 1, h⟩) (carr V c) (yarr V c) r j' := by
  rw [outs_B V c ⟨p.val * 32 + (k + 1), pt_lt p (k + 1) h⟩ (by show ¬(p.val * 32 + (k + 1)) % 32 = 0; omega)]
  dsimp only
  rw [KPay0.pay10_apply, xblk_tile V c p ⟨k + 1, h⟩ _ rfl, cblk_eq, yblk_eq, outs_pred V c p k h]

theorem sd_half (c : Dev nD) (p : Fin 2) (j : S1x8x128.Idx) :
    ((outsAt0 V c (p.val * 32 + 31) (pt_lt p 31 (Nat.lt_succ_self 31))).1 j : EReal) = Cert.Spec.sdPart (xarr V c) (carr V c) (yarr V c) p :=
  (Cert.BlockSum.chain_last 31
    (fun k hk => ((outsAt0 V c (p.val * 32 + k) (pt_lt p k hk)).1 j : EReal))
    (fun k hk => ∑ r : Fin 1024, ∑ j' : Fin 1024, Cert.Spec.dist (Cert.Spec.xTile (xarr V c) p ⟨k, hk⟩) (carr V c) (yarr V c) r j')
    (fun h => sd_first V c p j h) (fun k h => sd_step V c p j k h)).trans
    (Finset.sum_congr rfl fun t _ => Finset.sum_congr rfl fun r _ => Finset.sum_congr rfl fun j' _ =>
      dist_tile (xarr V c) (carr V c) (yarr V c) p t r j')

/-! ### The sum of the labelled distances -/

theorem sp_first (c : Dev nD) (p : Fin 2) (j : S1x8x128.Idx) (h : 0 < 31 + 1) :
    ((outsAt0 V c (p.val * 32 + 0) (pt_lt p 0 h)).2.1 j : EReal)
      = 0 + ∑ r : Fin 1024, Cert.Spec.pos (Cert.Spec.xTile (xarr V c) p ⟨0, h⟩) (Cert.Spec.tgTile (tarr V c) p ⟨0, h⟩) (carr V c) (yarr V c) r := by
  rw [outs_A V c ⟨p.val * 32 + 0, pt_lt p 0 h⟩ (by show (p.val * 32 + 0) % 32 = 0; omega)]
  dsimp only
  rw [KPay0.pay11_apply, KPay0.pay2_apply, xblk_tile V c p ⟨0, h⟩ _ rfl, tblk_tile V c p ⟨0, h⟩ _ rfl, cblk_eq, yblk_eq]

theorem sp_step (c : Dev nD) (p : Fin 2) (j : S1x8x128.Idx) (k : ℕ) (h : k + 1 < 31 + 1) :
    ((outsAt0 V c (p.val * 32 + (k + 1)) (pt_lt p (k + 1) h)).2.1 j : EReal)
      = ((outsAt0 V c (p.val * 32 + k) (pt_lt p k (Nat.lt_of_succ_lt h))).2.1 j)
        + ∑ r : Fin 1024, Cert.Spec.pos (Cert.Spec.xTile (xarr V c) p ⟨k + 1, h⟩) (Cert.Spec.tgTile (tarr V c) p ⟨k + 1, h⟩) (carr V c) (yarr V c) r := by
  rw [outs_B V c ⟨p.val * 32 + (k + 1), pt_lt p (k + 1) h⟩ (by show ¬(p.val * 32 + (k + 1)) % 32 = 0; omega)]
  dsimp only
  rw [KPay0.pay11_apply, xblk_tile V c p ⟨k + 1, h⟩ _ rfl, tblk_tile V c p ⟨k + 1, h⟩ _ rfl, cblk_eq, yblk_eq, outs_pred V c p k h]

theorem sp_half (c : Dev nD) (p : Fin 2) (j : S1x8x128.Idx) :
    ((outsAt0 V c (p.val * 32 + 31) (pt_lt p 31 (Nat.lt_succ_self 31))).2.1 j : EReal) = Cert.Spec.spPart (xarr V c) (tarr V c) (carr V c) (yarr V c) p :=
  (Cert.BlockSum.chain_last 31
    (fun k hk => ((outsAt0 V c (p.val * 32 + k) (pt_lt p k hk)).2.1 j : EReal))
    (fun k hk => ∑ r : Fin 1024, Cert.Spec.pos (Cert.Spec.xTile (xarr V c) p ⟨k, hk⟩) (Cert.Spec.tgTile (tarr V c) p ⟨k, hk⟩) (carr V c) (yarr V c) r)
    (fun h => sp_first V c p j h) (fun k h => sp_step V c p j k h)).trans
    (Finset.sum_congr rfl fun t _ => Finset.sum_congr rfl fun r _ => pos_tile (xarr V c) (tarr V c) (carr V c) (yarr V c) p t r)

/-! ### The largest distance -/

theorem mx_first (c : Dev nD) (p : Fin 2) (j : S1x8x128.Idx) (h : 0 < 31 + 1) :
    ((outsAt0 V c (p.val * 32 + 0) (pt_lt p 0 h)).2.2.1 j : EReal)
      = max ⊥ (Finset.univ.sup fun q : Fin 1024 × Fin 1024 => Cert.Spec.dist (Cert.Spec.xTile (xarr V c) p ⟨0, h⟩) (carr V c) (yarr V c) q.1 q.2) := by
  rw [outs_A V c ⟨p.val * 32 + 0, pt_lt p 0 h⟩ (by show (p.val * 32 + 0) % 32 = 0; omega)]
  dsimp only
  rw [KPay0.pay12_apply, KPay0.pay3_apply, xblk_tile V c p ⟨0, h⟩ _ rfl, cblk_eq, yblk_eq]

theorem mx_step (c : Dev nD) (p : Fin 2) (j : S1x8x128.Idx) (k : ℕ) (h : k + 1 < 31 + 1) :
    ((outsAt0 V c (p.val * 32 + (k + 1)) (pt_lt p (k + 1) h)).2.2.1 j : EReal)
      = max ((outsAt0 V c (p.val * 32 + k) (pt_lt p k (Nat.lt_of_succ_lt h))).2.2.1 j)
          (Finset.univ.sup fun q : Fin 1024 × Fin 1024 => Cert.Spec.dist (Cert.Spec.xTile (xarr V c) p ⟨k + 1, h⟩) (carr V c) (yarr V c) q.1 q.2) := by
  rw [outs_B V c ⟨p.val * 32 + (k + 1), pt_lt p (k + 1) h⟩ (by show ¬(p.val * 32 + (k + 1)) % 32 = 0; omega)]
  dsimp only
  rw [KPay0.pay12_apply, xblk_tile V c p ⟨k + 1, h⟩ _ rfl, cblk_eq, yblk_eq, outs_pred V c p k h]

theorem mx_half (c : Dev nD) (p : Fin 2) (j : S1x8x128.Idx) :
    ((outsAt0 V c (p.val * 32 + 31) (pt_lt p 31 (Nat.lt_succ_self 31))).2.2.1 j : EReal) = Cert.Spec.mxPart (xarr V c) (carr V c) (yarr V c) p :=
  (chain_max 31
    (fun k hk => ((outsAt0 V c (p.val * 32 + k) (pt_lt p k hk)).2.2.1 j : EReal))
    (fun k hk => Finset.univ.sup fun q : Fin 1024 × Fin 1024 => Cert.Spec.dist (Cert.Spec.xTile (xarr V c) p ⟨k, hk⟩) (carr V c) (yarr V c) q.1 q.2)
    (fun h => mx_first V c p j h) (fun k h => mx_step V c p j k h)).trans
    (mx_regroup (xarr V c) (carr V c) (yarr V c) p).symm

/-! ### The smallest distance -/

theorem mn_first (c : Dev nD) (p : Fin 2) (j : S1x8x128.Idx) (h : 0 < 31 + 1) :
    ((outsAt0 V c (p.val * 32 + 0) (pt_lt p 0 h)).2.2.2 j : EReal)
      = min ⊤ (Finset.univ.inf fun q : Fin 1024 × Fin 1024 => Cert.Spec.dist (Cert.Spec.xTile (xarr V c) p ⟨0, h⟩) (carr V c) (yarr V c) q.1 q.2) := by
  rw [outs_A V c ⟨p.val * 32 + 0, pt_lt p 0 h⟩ (by show (p.val * 32 + 0) % 32 = 0; omega)]
  dsimp only
  rw [KPay0.pay13_apply, KPay0.pay4_apply, xblk_tile V c p ⟨0, h⟩ _ rfl, cblk_eq, yblk_eq]

theorem mn_step (c : Dev nD) (p : Fin 2) (j : S1x8x128.Idx) (k : ℕ) (h : k + 1 < 31 + 1) :
    ((outsAt0 V c (p.val * 32 + (k + 1)) (pt_lt p (k + 1) h)).2.2.2 j : EReal)
      = min ((outsAt0 V c (p.val * 32 + k) (pt_lt p k (Nat.lt_of_succ_lt h))).2.2.2 j)
          (Finset.univ.inf fun q : Fin 1024 × Fin 1024 => Cert.Spec.dist (Cert.Spec.xTile (xarr V c) p ⟨k + 1, h⟩) (carr V c) (yarr V c) q.1 q.2) := by
  rw [outs_B V c ⟨p.val * 32 + (k + 1), pt_lt p (k + 1) h⟩ (by show ¬(p.val * 32 + (k + 1)) % 32 = 0; omega)]
  dsimp only
  rw [KPay0.pay13_apply, xblk_tile V c p ⟨k + 1, h⟩ _ rfl, cblk_eq, yblk_eq, outs_pred V c p k h]

theorem mn_half (c : Dev nD) (p : Fin 2) (j : S1x8x128.Idx) :
    ((outsAt0 V c (p.val * 32 + 31) (pt_lt p 31 (Nat.lt_succ_self 31))).2.2.2 j : EReal) = Cert.Spec.mnPart (xarr V c) (carr V c) (yarr V c) p :=
  (chain_min 31
    (fun k hk => ((outsAt0 V c (p.val * 32 + k) (pt_lt p k hk)).2.2.2 j : EReal))
    (fun k hk => Finset.univ.inf fun q : Fin 1024 × Fin 1024 => Cert.Spec.dist (Cert.Spec.xTile (xarr V c) p ⟨k, hk⟩) (carr V c) (yarr V c) q.1 q.2)
    (fun h => mn_first V c p j h) (fun k h => mn_step V c p j k h)).trans
    (mn_regroup (xarr V c) (carr V c) (yarr V c) p).symm

end Halves

/-! ## The result arrays

Each result array has one [1,8,128] block per half; the block of half p is written back once, after point 32·p + 31, and
every entry of it then holds the half's total. The two blocks tile the array. -/

section Final

theorem idx0_4 : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)
theorem idx0_5 : ∀ t : Fin cfg0.N, win0_5.index t 0 = t.val / 32 ∧ win0_5.index t 1 = 0 ∧ win0_5.index t 2 = 0 :=
  (by decide +kernel : ∀ t : Fin grid0.N, win0_5.index t 0 = t.val / 32 ∧ win0_5.index t 1 = 0 ∧ win0_5.index t 2 = 0)
theorem idx0_6 : ∀ t : Fin cfg0.N, win0_6.index t 0 = t.val / 32 ∧ win0_6.index t 1 = 0 ∧ win0_6.index t 2 = 0 :=
  (by decide +kernel : ∀ t : Fin grid0.N, win0_6.index t 0 = t.val / 32 ∧ win0_6.index t 1 = 0 ∧ win0_6.index t 2 = 0)
theorem idx0_7 : ∀ t : Fin cfg0.N, win0_7.index t 0 = t.val / 32 ∧ win0_7.index t 1 = 0 ∧ win0_7.index t 2 = 0 :=
  (by decide +kernel : ∀ t : Fin grid0.N, win0_7.index t 0 = t.val / 32 ∧ win0_7.index t 1 = 0 ∧ win0_7.index t 2 = 0)

/-- Block `t / 32` of result 0 as written back: every entry holds the half's value `M (t / 32)`, for whatever `M` the
    carried block is known to hold after the half's last point. -/
theorem flushed4_of (c : Dev nD) (M : Fin 2 → EReal)
    (hM : ∀ (p : Fin 2) (j : S1x8x128.Idx),
      ((outsAt0 V c (p.val * 32 + 31) (pt_lt p 31 (Nat.lt_succ_self 31))).1 j : EReal) = M p)
    (t : Fin cfg0.N) (hf : (cfg0.win 4).flush t = true) :
    (dat0 (F := Ideal) V c).flushed 4 t = ((cfg0.win 4).blk t).view.read (Elt Ideal)
      (fun j : S2x8x128.Idx => M (j 0)) := by
  have h31 : t.val % 32 = 31 := (flush0_4 t).mp hf
  have hlt := lt64 t
  have hp : t.val / 32 < 2 := by omega
  funext y
  show (cfg0.win 4).cut (grid0.coords t) ((dat0 (F := Ideal) V c).after 4 t) y = _
  rw [after0_4, View.read_apply]
  have hy : (y 0).val < 1 := (y 0).isLt
  have hidx : (((cfg0.win 4).blk t).view.emb y) 0 = (⟨t.val / 32, hp⟩ : Fin 2) := by
    apply Fin.ext
    show win0_4.index t (0 : Fin 3) * 1 + 1 * (y 0).val = t.val / 32
    rw [(idx0_4 t).1]; omega
  show ((outsAt0 V c t.val t.isLt).1 _ : EReal) = M ((((cfg0.win 4).blk t).view.emb y) 0)
  rw [hidx, outs_congr V c t.val ((⟨t.val / 32, hp⟩ : Fin 2).val * 32 + 31) (by dsimp only; omega) t.isLt
    (pt_lt ⟨t.val / 32, hp⟩ 31 (Nat.lt_succ_self 31))]
  exact hM ⟨t.val / 32, hp⟩ _

theorem flushed4 (c : Dev nD) (t : Fin cfg0.N) (hf : (cfg0.win 4).flush t = true) :
    (dat0 (F := Ideal) V c).flushed 4 t = ((cfg0.win 4).blk t).view.read (Elt Ideal)
      (fun j : S2x8x128.Idx => Cert.Spec.sdPart (xarr V c) (carr V c) (yarr V c) (j 0)) :=
  flushed4_of V c (Cert.Spec.sdPart (xarr V c) (carr V c) (yarr V c)) (sd_half V c) t hf
theorem covered4 (i : S2x8x128.Idx) :
    ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 128 := (i 2).isLt
  have hb : (i 0).val * 32 + 31 < cfg0.N := pt_lt (i 0) 31 (Nat.lt_succ_self 31)
  obtain ⟨e0, e1, e2⟩ := idx0_4 ⟨(i 0).val * 32 + 31, hb⟩
  refine ⟨⟨(i 0).val * 32 + 31, hb⟩, (flush0_4 _).mpr (by dsimp only; omega), ?_⟩
  show i ∈ ((View.whole main_v20_0).slice (win0_4.rect ⟨(i 0).val * 32 + 31, hb⟩)).set
  rw [View.set_slice_whole, Rect.mem_set_unit]
  intro a
  match a with
  | ⟨0, _⟩ =>
    show win0_4.index ⟨(i 0).val * 32 + 31, hb⟩ (0 : Fin 3) * 1 ≤ (i 0).val
      ∧ (i 0).val < win0_4.index ⟨(i 0).val * 32 + 31, hb⟩ (0 : Fin 3) * 1 + 1
    rw [e0]; dsimp only; omega
  | ⟨1, _⟩ =>
    show win0_4.index ⟨(i 0).val * 32 + 31, hb⟩ (1 : Fin 3) * 8 ≤ (i 1).val
      ∧ (i 1).val < win0_4.index ⟨(i 0).val * 32 + 31, hb⟩ (1 : Fin 3) * 8 + 8
    rw [e1]; omega
  | ⟨2, _⟩ =>
    show win0_4.index ⟨(i 0).val * 32 + 31, hb⟩ (2 : Fin 3) * 128 ≤ (i 2).val
      ∧ (i 2).val < win0_4.index ⟨(i 0).val * 32 + 31, hb⟩ (2 : Fin 3) * 128 + 128
    rw [e2]; omega

/-- Block `t / 32` of result 1 as written back: every entry holds the half's value `M (t / 32)`, for whatever `M` the
    carried block is known to hold after the half's last point. -/
theorem flushed5_of (c : Dev nD) (M : Fin 2 → EReal)
    (hM : ∀ (p : Fin 2) (j : S1x8x128.Idx),
      ((outsAt0 V c (p.val * 32 + 31) (pt_lt p 31 (Nat.lt_succ_self 31))).2.1 j : EReal) = M p)
    (t : Fin cfg0.N) (hf : (cfg0.win 5).flush t = true) :
    (dat0 (F := Ideal) V c).flushed 5 t = ((cfg0.win 5).blk t).view.read (Elt Ideal)
      (fun j : S2x8x128.Idx => M (j 0)) := by
  have h31 : t.val % 32 = 31 := (flush0_5 t).mp hf
  have hlt := lt64 t
  have hp : t.val / 32 < 2 := by omega
  funext y
  show (cfg0.win 5).cut (grid0.coords t) ((dat0 (F := Ideal) V c).after 5 t) y = _
  rw [after0_5, View.read_apply]
  have hy : (y 0).val < 1 := (y 0).isLt
  have hidx : (((cfg0.win 5).blk t).view.emb y) 0 = (⟨t.val / 32, hp⟩ : Fin 2) := by
    apply Fin.ext
    show win0_5.index t (0 : Fin 3) * 1 + 1 * (y 0).val = t.val / 32
    rw [(idx0_5 t).1]; omega
  show ((outsAt0 V c t.val t.isLt).2.1 _ : EReal) = M ((((cfg0.win 5).blk t).view.emb y) 0)
  rw [hidx, outs_congr V c t.val ((⟨t.val / 32, hp⟩ : Fin 2).val * 32 + 31) (by dsimp only; omega) t.isLt
    (pt_lt ⟨t.val / 32, hp⟩ 31 (Nat.lt_succ_self 31))]
  exact hM ⟨t.val / 32, hp⟩ _

theorem flushed5 (c : Dev nD) (t : Fin cfg0.N) (hf : (cfg0.win 5).flush t = true) :
    (dat0 (F := Ideal) V c).flushed 5 t = ((cfg0.win 5).blk t).view.read (Elt Ideal)
      (fun j : S2x8x128.Idx => Cert.Spec.spPart (xarr V c) (tarr V c) (carr V c) (yarr V c) (j 0)) :=
  flushed5_of V c (Cert.Spec.spPart (xarr V c) (tarr V c) (carr V c) (yarr V c)) (sp_half V c) t hf
theorem covered5 (i : S2x8x128.Idx) :
    ∃ t : Fin cfg0.N, (cfg0.win 5).flush t = true ∧ i ∈ ((cfg0.win 5).blk t).view.set := by
  have h0 : (i 0).val < 2 := (i 0).isLt
  have h1 : (i 1).val < 8 := (i 1).isLt
  have h2 : (i 2).val < 128 := (i 2).isLt
  have hb : (i 0).val * 32 + 31 < cfg0.N := pt_lt (i 0) 31 (Nat.lt_succ_self 31)
  obtain ⟨e0, e1, e2⟩ := idx0_5 ⟨(i 0).val * 32 + 31, hb⟩
  refine ⟨⟨(i 0).val * 32 + 31, hb⟩, (flush0_5 _).mpr (by dsimp only; omega), ?_⟩
  show i ∈ ((View.whole main_v20_1).slice (win0_5.rect ⟨(i 0).val * 32 + 31, hb⟩)).set
  rw [View.set_slice_whole, Rect.mem_set_unit]
  intro a
  match a with
  | ⟨0, _⟩ =>
    show win0_5.index ⟨(i 0).val * 32 + 31, hb⟩ (0 : Fin 3) * 1 ≤ (i 0).val
      ∧ (i 0).val < win0_5.index ⟨(i 0).val * 32 + 31, hb⟩ (0 : Fin 3) * 1 + 1
    rw [e0]; dsimp only; omega
  | ⟨1, _⟩ =>
    show win0_5.index ⟨(i 0).val * 32 + 31, hb⟩ (1 : Fin 3) * 8 ≤ (i 1).val
      ∧ (i 1).val < win0_5.index ⟨(i 0).val * 32 + 31, hb⟩ (1 : Fin 3) * 8 + 8
    rw [e1]; omega
  | ⟨2, _⟩ =>
    show win0_5.index ⟨(i 0).val * 32 + 31, hb⟩ (2 : Fin 3) * 128 ≤ (i 2).val
      ∧ (i 2).val < win0_5.index ⟨(i 0).val * 32 + 31, hb⟩ (2 : Fin 3) * 128 + 128
    rw [e2]; omega

/-- Block `t / 32` of result 2 as written back: every entry holds the half's value `M (t / 32)`, for whatever `M` the
    carried block is known to hold after the half's last point. -/
theorem flushed6_of (c : Dev nD) (M : Fin 2 → EReal)
    (hM : ∀ (p : Fin 2) (j : S1x8x128.Idx),
      ((outsAt0 V c (p.val * 32 + 31) (pt_lt p 31 (Nat.lt_succ_self 31))).2.2.1 j : EReal) = M p)
    (t : Fin cfg0.N) (hf : (cfg0.win 6).flush t = true) :
    (dat0 (F := Ideal) V c).flushed 6 t = ((cfg0.win 6).blk t).view.read (Elt Ideal)
      (fun j : S2x8x128.Idx => M (j 0)) := by
  have h31 : t.val % 32 = 31 := (flush0_6 t).mp hf
  have hlt := lt64 t
  have hp : t.val / 32 < 2 := by omega
  funext y
  show (cfg0.win 6).cut (grid0.coords t) ((dat0 (F := Ideal) V c).after 6 t) y = _
  rw [after0_6, View.read_apply]
  have hy : (y 0).val < 1 := (y 0).isLt
  have hidx : (((cfg0.win 6).blk t).view.emb y) 0 = (⟨t.val / 32, hp⟩ : Fin 2) := by
    apply Fin.ext
    show win0_6.index t (0 : Fin 3) * 1 + 1 * (y 0).val = t.val / 32
    rw [(idx0_6 t).1]; omega
  show ((outsAt0 V c t.val t.isLt).2.2.1 _ : EReal) = M ((((cfg0.win 6).blk t).view.emb y) 0)
  rw [hidx, outs_congr V c t.val ((⟨t.val / 32, hp⟩ : Fin 2).val * 32 + 31) (by dsimp only; omega) t.isLt
    (pt_lt ⟨t.val / 32, hp⟩ 31 (Nat.lt_succ_self 31))]
  exact hM ⟨t.val / 32, hp⟩ _

theorem flushed6 (c : Dev nD) (t : Fin cfg0.N) (hf : (cfg0.win 6).flush t = true) :
    (dat0 (F := Ideal) V c).flushed 6 t = ((cfg0.win 6).blk t).view.read (Elt Ideal)
      (fun j : S2x8x128.Idx => Cert.Spec.mxPart (xarr V c) (carr V c) (yarr V c) (j 0)) :=
  flushed6_of V c (Cert.Spec.mxPart (xarr V c) (carr V c) (yarr V c)) (mx_half V c) t hf
theorem covered6 (i : S2x8x128.Idx) :
    ∃ t : Fin cfg0.N, (cfg0.win 6).flush t = true ∧ i ∈ ((cfg0.win 6).blk t).view.set := by
  have h0 : (i 0).val < 2 := (i 0).isLt
  have h1 : (i 1).val < 8 := (i 1).isLt
  have h2 : (i 2).val < 128 := (i 2).isLt
  have hb : (i 0).val * 32 + 31 < cfg0.N := pt_lt (i 0) 31 (Nat.lt_succ_self 31)
  obtain ⟨e0, e1, e2⟩ := idx0_6 ⟨(i 0).val * 32 + 31, hb⟩
  refine ⟨⟨(i 0).val * 32 + 31, hb⟩, (flush0_6 _).mpr (by dsimp only; omega), ?_⟩
  show i ∈ ((View.whole main_v20_2).slice (win0_6.rect ⟨(i 0).val * 32 + 31, hb⟩)).set
  rw [View.set_slice_whole, Rect.mem_set_unit]
  intro a
  match a with
  | ⟨0, _⟩ =>
    show win0_6.index ⟨(i 0).val * 32 + 31, hb⟩ (0 : Fin 3) * 1 ≤ (i 0).val
      ∧ (i 0).val < win0_6.index ⟨(i 0).val * 32 + 31, hb⟩ (0 : Fin 3) * 1 + 1
    rw [e0]; dsimp only; omega
  | ⟨1, _⟩ =>
    show win0_6.index ⟨(i 0).val * 32 + 31, hb⟩ (1 : Fin 3) * 8 ≤ (i 1).val
      ∧ (i 1).val < win0_6.index ⟨(i 0).val * 32 + 31, hb⟩ (1 : Fin 3) * 8 + 8
    rw [e1]; omega
  | ⟨2, _⟩ =>
    show win0_6.index ⟨(i 0).val * 32 + 31, hb⟩ (2 : Fin 3) * 128 ≤ (i 2).val
      ∧ (i 2).val < win0_6.index ⟨(i 0).val * 32 + 31, hb⟩ (2 : Fin 3) * 128 + 128
    rw [e2]; omega

/-- Block `t / 32` of result 3 as written back: every entry holds the half's value `M (t / 32)`, for whatever `M` the
    carried block is known to hold after the half's last point. -/
theorem flushed7_of (c : Dev nD) (M : Fin 2 → EReal)
    (hM : ∀ (p : Fin 2) (j : S1x8x128.Idx),
      ((outsAt0 V c (p.val * 32 + 31) (pt_lt p 31 (Nat.lt_succ_self 31))).2.2.2 j : EReal) = M p)
    (t : Fin cfg0.N) (hf : (cfg0.win 7).flush t = true) :
    (dat0 (F := Ideal) V c).flushed 7 t = ((cfg0.win 7).blk t).view.read (Elt Ideal)
      (fun j : S2x8x128.Idx => M (j 0)) := by
  have h31 : t.val % 32 = 31 := (flush0_7 t).mp hf
  have hlt := lt64 t
  have hp : t.val / 32 < 2 := by omega
  funext y
  show (cfg0.win 7).cut (grid0.coords t) ((dat0 (F := Ideal) V c).after 7 t) y = _
  rw [after0_7, View.read_apply]
  have hy : (y 0).val < 1 := (y 0).isLt
  have hidx : (((cfg0.win 7).blk t).view.emb y) 0 = (⟨t.val / 32, hp⟩ : Fin 2) := by
    apply Fin.ext
    show win0_7.index t (0 : Fin 3) * 1 + 1 * (y 0).val = t.val / 32
    rw [(idx0_7 t).1]; omega
  show ((outsAt0 V c t.val t.isLt).2.2.2 _ : EReal) = M ((((cfg0.win 7).blk t).view.emb y) 0)
  rw [hidx, outs_congr V c t.val ((⟨t.val / 32, hp⟩ : Fin 2).val * 32 + 31) (by dsimp only; omega) t.isLt
    (pt_lt ⟨t.val / 32, hp⟩ 31 (Nat.lt_succ_self 31))]
  exact hM ⟨t.val / 32, hp⟩ _

theorem flushed7 (c : Dev nD) (t : Fin cfg0.N) (hf : (cfg0.win 7).flush t = true) :
    (dat0 (F := Ideal) V c).flushed 7 t = ((cfg0.win 7).blk t).view.read (Elt Ideal)
      (fun j : S2x8x128.Idx => Cert.Spec.mnPart (xarr V c) (carr V c) (yarr V c) (j 0)) :=
  flushed7_of V c (Cert.Spec.mnPart (xarr V c) (carr V c) (yarr V c)) (mn_half V c) t hf
theorem covered7 (i : S2x8x128.Idx) :
    ∃ t : Fin cfg0.N, (cfg0.win 7).flush t = true ∧ i ∈ ((cfg0.win 7).blk t).view.set := by
  have h0 : (i 0).val < 2 := (i 0).isLt
  have h1 : (i 1).val < 8 := (i 1).isLt
  have h2 : (i 2).val < 128 := (i 2).isLt
  have hb : (i 0).val * 32 + 31 < cfg0.N := pt_lt (i 0) 31 (Nat.lt_succ_self 31)
  obtain ⟨e0, e1, e2⟩ := idx0_7 ⟨(i 0).val * 32 + 31, hb⟩
  refine ⟨⟨(i 0).val * 32 + 31, hb⟩, (flush0_7 _).mpr (by dsimp only; omega), ?_⟩
  show i ∈ ((View.whole main_v20_3).slice (win0_7.rect ⟨(i 0).val * 32 + 31, hb⟩)).set
  rw [View.set_slice_whole, Rect.mem_set_unit]
  intro a
  match a with
  | ⟨0, _⟩ =>
    show win0_7.index ⟨(i 0).val * 32 + 31, hb⟩ (0 : Fin 3) * 1 ≤ (i 0).val
      ∧ (i 0).val < win0_7.index ⟨(i 0).val * 32 + 31, hb⟩ (0 : Fin 3) * 1 + 1
    rw [e0]; dsimp only; omega
  | ⟨1, _⟩ =>
    show win0_7.index ⟨(i 0).val * 32 + 31, hb⟩ (1 : Fin 3) * 8 ≤ (i 1).val
      ∧ (i 1).val < win0_7.index ⟨(i 0).val * 32 + 31, hb⟩ (1 : Fin 3) * 8 + 8
    rw [e1]; omega
  | ⟨2, _⟩ =>
    show win0_7.index ⟨(i 0).val * 32 + 31, hb⟩ (2 : Fin 3) * 128 ≤ (i 2).val
      ∧ (i 2).val < win0_7.index ⟨(i 0).val * 32 + 31, hb⟩ (2 : Fin 3) * 128 + 128
    rw [e2]; omega

end Final

/-! ## What the first call leaves in its four result arrays, for any entry contents -/

theorem arr_sd (c : Dev nD) :
    (dat0 (F := Ideal) V c).arrAt 4 cfg0.N
      = fun j : S2x8x128.Idx => Cert.Spec.sdPart (V c main_arg0) (V c main_v13) (V c main_v16) (j 0) :=
  (dat0 (F := Ideal) V c).arrAt_eq_of_cover 4 (fun j : S2x8x128.Idx => Cert.Spec.sdPart (V c main_arg0) (V c main_v13) (V c main_v16) (j 0))
    (flushed4 V c) covered4

theorem arr_sp (c : Dev nD) :
    (dat0 (F := Ideal) V c).arrAt 5 cfg0.N
      = fun j : S2x8x128.Idx => Cert.Spec.spPart (V c main_arg0) (V c main_v19) (V c main_v13) (V c main_v16) (j 0) :=
  (dat0 (F := Ideal) V c).arrAt_eq_of_cover 5 (fun j : S2x8x128.Idx => Cert.Spec.spPart (V c main_arg0) (V c main_v19) (V c main_v13) (V c main_v16) (j 0))
    (flushed5 V c) covered5

theorem arr_mx (c : Dev nD) :
    (dat0 (F := Ideal) V c).arrAt 6 cfg0.N
      = fun j : S2x8x128.Idx => Cert.Spec.mxPart (V c main_arg0) (V c main_v13) (V c main_v16) (j 0) :=
  (dat0 (F := Ideal) V c).arrAt_eq_of_cover 6 (fun j : S2x8x128.Idx => Cert.Spec.mxPart (V c main_arg0) (V c main_v13) (V c main_v16) (j 0))
    (flushed6 V c) covered6

theorem arr_mn (c : Dev nD) :
    (dat0 (F := Ideal) V c).arrAt 7 cfg0.N
      = fun j : S2x8x128.Idx => Cert.Spec.mnPart (V c main_arg0) (V c main_v13) (V c main_v16) (j 0) :=
  (dat0 (F := Ideal) V c).arrAt_eq_of_cover 7 (fun j : S2x8x128.Idx => Cert.Spec.mnPart (V c main_arg0) (V c main_v13) (V c main_v16) (j 0))
    (flushed7 V c) covered7

end Cert.KernelIdeal.KReg0
end
-- ==== Proof.KPay1.lean ====
/-
  The second pass's arithmetic on one tile, read entry by entry over the extended reals.  The matrix product of the
  tile with the transposed centres into a zero accumulator is sᵣⱼ = Σ_d x_{r,d}·ct_{d,j}; gᵣⱼ = sᵣⱼ − yyⱼ/2; the row
  constant is 16·(B − xxᵣ); the exponent is the row constant plus 32·gᵣⱼ, the labelled exponent the row constant plus
  32 times the masked row sum of g; the row's log ratio is log exp(labelled exponent) − log Σⱼ exp(exponent); and the
  stored block is the carried block plus the tile's sum of log ratios, entrywise.
-/
import proofs.«408375_j76639396429875_3_alg».proof.Proof.Gen.KernelIdeal.Skeleton
import proofs.«408375_j76639396429875_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.TcCoe Idealize.SL.Sem Idealize.ShloMosaic.ValueIdx

namespace Cert.KernelIdeal.KPay1

open Cert.KernelIdeal Cert.KernelIdeal.Gen

/-! ## The layout operations of the second pass, read at an index given by coordinates -/

section Layout
variable {α : Type}

/-- A `[1024]` vector cast to the column `[1024, 1]` reads, at `(r, c)`, the vector at `r`. -/
theorem cast_col (v : S1024.Idx → α) (h : S1024.ShapeCasts S1024x1) (r : Fin 1024) (c : Fin 1) :
    shapeCast S1024x1 v h (ix2 r c) = v (ix1 r) :=
  shapeCast_apply v h _ _ (by
    have hc : c.val = 0 := by omega
    rw [Shape.rowMajor_val_two, Shape.rowMajor_val_one]
    show r.val = r.val * 1 + c.val
    rw [hc, Nat.mul_one, Nat.add_zero])

/-- A `[1]` vector cast to `[1, 1]` reads its one entry. -/
theorem cast_one (v : S1.Idx → α) (h : S1.ShapeCasts S1x1) (a c : Fin 1) :
    shapeCast S1x1 v h (ix2 a c) = v (ix1 (0 : Fin 1)) :=
  shapeCast_apply v h _ _ (by
    have ha : a.val = 0 := by omega
    have hc : c.val = 0 := by omega
    rw [Shape.rowMajor_val_two, Shape.rowMajor_val_one]
    show (0 : ℕ) = a.val * 1 + c.val
    rw [ha, hc])

/-- The `[1, 1]` array broadcast down a column of 1024 rows reads its one entry everywhere. -/
theorem bcast_one_col (v : S1x1.Idx → α) (h : S1x1.Broadcasts S1024x1) (r : Fin 1024) (c : Fin 1) :
    broadcastTo S1024x1 v h (ix2 r c) = v (ix2 (0 : Fin 1) (0 : Fin 1)) := by
  refine broadcastTo_apply v h (ix2 r c) (ix2 (0 : Fin 1) (0 : Fin 1)) fun ax => ?_
  match ax with
  | ⟨0, _⟩ => rfl
  | ⟨1, _⟩ => rfl

/-- A column `[1024, 1]` broadcast over 1024 columns reads, at `(r, j)`, the column at `r`. -/
theorem bcast_col (v : S1024x1.Idx → α) (h : S1024x1.Broadcasts S1024x1024) (r j : Fin 1024) :
    broadcastTo S1024x1024 v h (ix2 r j) = v (ix2 r (0 : Fin 1)) := by
  refine broadcastTo_apply v h (ix2 r j) (ix2 r (0 : Fin 1)) fun ax => ?_
  match ax with
  | ⟨0, _⟩ => rfl
  | ⟨1, _⟩ => rfl

end Layout
/-! ## The matrix product of the second pass at an index -/

theorem lhs_axis0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_axis1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_axis0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_axis1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product into the zero accumulator reads, at `(r, j)`, the sum over the 128 shared coordinates of the
    products of row `r` of the left operand with column `j` of the right one. -/
theorem matmul_at (a : FVec Ideal S1024x128 .bf16) (b : FVec Ideal S128x1024 .bf16) (r j : Fin 1024) :
    matmul dot_S1024x128_S128x1024_S1024x1024_1_0_0_1_n_n none a b (constant (F := Ideal) S1024x1024 .f32 0x00000000#32) (ix2 r j)
      = ∑ d : Fin 128, a (ix2 r d) * b (ix2 d j) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r j) ((contrEquiv1 dot_S1024x128_S128x1024_S1024x1024_1_0_0_1_n_n 128 rfl rfl).symm k) = ix2 r k := funext fun ax => Fin.ext (by
    match ax with
    | ⟨0, _⟩ => exact lhs_axis0 _ _
    | ⟨1, _⟩ => exact (lhs_axis1 _ _).trans hk)
  have er : dot_S1024x128_S128x1024_S1024x1024_1_0_0_1_n_n.rhsIdx (ix2 r j) ((contrEquiv1 dot_S1024x128_S128x1024_S1024x1024_1_0_0_1_n_n 128 rfl rfl).symm k) = ix2 k j := funext fun ax => Fin.ext (by
    match ax with
    | ⟨0, _⟩ => exact (rhs_axis0 _ _).trans hk
    | ⟨1, _⟩ => exact rhs_axis1 _ _)
  rw [el, er]
/-! ## The sums of the second pass at an index -/

/-- The sum along the 128 columns of a 1024 × 128 array reads, at row `r`, the sum of that row. -/
theorem rowsum128 (v : FVec Ideal S1024x128 .f32) (h : S1024x128.Reduces [1] S1024) (hφ : FKind.Formats .f32)
    (hacc : (0x00000000#32 : BitVec 32) = 0x00000000#32) (r : Fin 1024) :
    multiReduction .add [1] S1024 v 0x00000000#32 h hφ hacc (ix1 r) = ∑ d : Fin 128, v (ix2 r d) := by
  refine (Ideal.multiReduction_add_single v 0x00000000#32 h hφ hacc (ix1 r)).trans ?_
  refine Finset.sum_congr rfl fun d _ => congrArg v (funext fun ax => Fin.ext ?_)
  match ax with
  | ⟨0, _⟩ => rfl
  | ⟨1, _⟩ => rfl

/-- The sum along the 1024 columns of a 1024 × 1024 array reads, at row `r`, the sum of that row. -/
theorem rowsum1024 (v : FVec Ideal S1024x1024 .f32) (h : S1024x1024.Reduces [1] S1024) (hφ : FKind.Formats .f32)
    (hacc : (0x00000000#32 : BitVec 32) = 0x00000000#32) (r : Fin 1024) :
    multiReduction .add [1] S1024 v 0x00000000#32 h hφ hacc (ix1 r) = ∑ c : Fin 1024, v (ix2 r c) := by
  refine (Ideal.multiReduction_add_single v 0x00000000#32 h hφ hacc (ix1 r)).trans ?_
  refine Finset.sum_congr rfl fun d _ => congrArg v (funext fun ax => Fin.ext ?_)
  match ax with
  | ⟨0, _⟩ => rfl
  | ⟨1, _⟩ => rfl

/-- The sum down the 1024 rows of a column reads, at its one index, the sum of the column. -/
theorem colsum1024 (v : FVec Ideal S1024x1 .f32) (h : S1024x1.Reduces [0] S1) (hφ : FKind.Formats .f32)
    (hacc : (0x00000000#32 : BitVec 32) = 0x00000000#32) :
    multiReduction .add [0] S1 v 0x00000000#32 h hφ hacc (ix1 (0 : Fin 1)) = ∑ r : Fin 1024, v (ix2 r (0 : Fin 1)) := by
  refine (Ideal.multiReduction_add_single v 0x00000000#32 h hφ hacc (ix1 (0 : Fin 1))).trans ?_
  refine Finset.sum_congr rfl fun d _ => congrArg v (funext fun ax => Fin.ext ?_)
  match ax with
  | ⟨0, _⟩ => rfl
  | ⟨1, _⟩ => rfl

/-! ## The label comparison -/

/-- A value picked by a word comparison for equality is picked exactly when the two words are equal. -/
theorem select_cmpi_eq {α : Type} (x y : BitVec 32) (a b : α) :
    Scalar.select (IntOp.cmpi .eq x y) a b = if x = y then a else b := by
  show (if BitVec.ofBool (x == y) = 1#1 then a else b) = if x = y then a else b
  by_cases h : x = y
  · rw [if_pos h, if_pos]
    rw [beq_iff_eq.mpr h]
    decide
  · rw [if_neg h, if_neg]
    rw [beq_eq_false_iff_ne.mpr h]
    decide

/-- The column-number array reads, at `(r, j)`, the word of `j`. -/
theorem iota_col (h : S1024x1024.Iotas .tc 32 [1]) (r j : Fin 1024) :
    iota .tc S1024x1024 32 [1] h (ix2 r j) = BitVec.ofNat 32 j.val :=
  iota_single_apply .tc S1024x1024 32 1 h (ix2 r j)

/-- A word comparison of two arrays reads, at an index, the comparison of the two words there. -/
theorem cmpi_at {s : Shape} (p : CmpIPredicate) (x y : IVec s 32) (i : s.Idx) :
    cmpi p x y i = IntOp.cmpi p (x i) (y i) := rfl
/-! ## The payloads of the second pass at an index -/

variable (xb : Vec Ideal S1024x128 .f32) (ctb : Vec Ideal S128x1024 .bf16) (yhb : Vec Ideal S1x1024 .f32)
  (tb : Vec Ideal S1024x1 .i32) (bb : Vec Ideal S1x1 .f32) (acc : Vec Ideal S1x8x128 .f32)

theorem pay2_apply (j : S1x8x128.Idx) : k1_pay2 (F := Ideal) j = 0 := by
  unfold k1_pay2
  exact Ideal.ofBits_zero_f32

/-- s_{r,j} − yh_j. -/
theorem pay3_apply (r j : Fin 1024) : k1_pay3 xb ctb yhb (ix2 r j) = Cert.Spec.g xb ctb yhb r j := by
  unfold k1_pay3
  rw [subf_apply, matmul_at, shapeCast_self, shapeCast_self, broadcastTo_1b_ab_apply]
  rfl

/-- 16 · (B − xx_r). -/
theorem pay4_apply (r : Fin 1024) (c : Fin 1) : k1_pay4 xb bb (ix2 r c) = Cert.Spec.rowc xb bb r := by
  unfold k1_pay4
  rw [mulf_apply, broadcast_apply, subf_apply, bcast_one_col, shapeCast_self, cast_col, rowsum128]
  rfl

/-- rowc_r + 32 · (the labelled column's g). -/
theorem pay5_apply (r : Fin 1024) (c : Fin 1) :
    k1_pay5 xb ctb yhb tb bb (ix2 r c) = Cert.Spec.rowc xb bb r + Cert.Spec.c32 * Cert.Spec.posg xb tb ctb yhb r := by
  unfold k1_pay5
  rw [addf_apply, pay4_apply, mulf_apply, broadcast_apply, cast_col, rowsum1024]
  refine congrArg (fun z => Cert.Spec.rowc xb bb r + Cert.Spec.c32 * z) ?_
  unfold Cert.Spec.posg Cert.Spec.hit
  refine Finset.sum_congr rfl fun j _ => ?_
  rw [select_apply, cmpi_at, iota_col, bcast_col, shapeCast_self, select_cmpi_eq, pay3_apply, broadcast_apply]
  exact if_congr Iff.rfl rfl Ideal.ofBits_zero_f32

/-- exp(rowc_r + 32 · g_{r,j}). -/
theorem pay6_apply (r j : Fin 1024) :
    k1_pay6 xb ctb yhb bb (ix2 r j) = Ideal.exp (Cert.Spec.rowc xb bb r + Cert.Spec.c32 * Cert.Spec.g xb ctb yhb r j) := by
  unfold k1_pay6
  show Ideal.exp _ = _
  rw [addf_apply, bcast_col, pay4_apply, mulf_apply, broadcast_apply, pay3_apply]
  rfl

/-- The stored block, for any column of exponents and any array of exponentials: the accumulator plus the sum over
    the rows of log exp of the column's entry less the log of the row's sum of exponentials. -/
theorem pay1_of (v36 : FVec Ideal S1024x1 .f32) (v37 : FVec Ideal S1024x1024 .f32) (j : S1x8x128.Idx) :
    k1_pay1 v36 v37 acc j
      = acc j + ∑ r : Fin 1024, (Ideal.log (Ideal.exp (v36 (ix2 r (0 : Fin 1)))) - Ideal.log (∑ c : Fin 1024, v37 (ix2 r c))) := by
  unfold k1_pay1
  rw [addf_apply, shapeCast_self, broadcast_apply]
  refine congrArg (acc j + ·) ?_
  unfold extractAt
  rw [show (fun a : Fin S1x1.rank => (⟨(![0, 0] : Fin 2 → ℕ) a, inpos_S1x1_p0_0 a⟩ : Fin (S1x1.size a))) = ix2 (0 : Fin 1) (0 : Fin 1) from
    funext fun a => Fin.ext (by match a with | ⟨0, _⟩ => rfl | ⟨1, _⟩ => rfl)]
  rw [cast_one, colsum1024]
  refine Finset.sum_congr rfl fun r _ => ?_
  rw [subf_apply]
  show Ideal.log (Ideal.exp _) - Ideal.log _ = _
  rw [cast_col, rowsum1024]

theorem pay1_apply (j : S1x8x128.Idx) :
    k1_pay1 (k1_pay5 xb ctb yhb tb bb) (k1_pay6 xb ctb yhb bb) acc j
      = acc j + ∑ r : Fin 1024, Cert.Spec.lr xb tb ctb yhb bb r := by
  rw [pay1_of]
  refine congrArg (acc j + ·) (Finset.sum_congr rfl fun r _ => ?_)
  rw [pay5_apply, Finset.sum_congr rfl fun c _ => pay6_apply xb ctb yhb bb r c]
  rfl

end Cert.KernelIdeal.KPay1

end
-- ==== Proof.KReg1.lean ====
/-
  What the second pass leaves in its result array [2, 8, 128], for any contents of its five input arrays.

  The pass walks 64 grid points, point 32 p + s being tile s of half p. One block [1, 8, 128] is carried from point to
  point; its block index is (p, 0, 0). At s = 0 the body stores zeros into it, reads them back and adds the tile's
  total to every entry; at each later s it adds that tile's total to what the point before left; after s = 31 the block
  is written back. The tile's total is the sum over its 1024 rows of the row's log ratio, and a row of a tile is a row
  of the whole input (row (32 p + s) · 1024 + r), so after the last tile every entry of the block holds
  0 + Σ_s Σ_r lr(row p s r): half p's sum. The two written-back blocks tile the result array, so entry j of the result
  is the sum of half j₀.
-/
import proofs.«408375_j76639396429875_3_alg».proof.Proof.Gen.KernelIdeal.Frame
import proofs.«408375_j76639396429875_3_alg».proof.Proof.Spec
import proofs.«408375_j76639396429875_3_alg».proof.Proof.KPay1
import proofs.«408375_j76639396429875_3_alg».proof.Proof.LibBlockSum
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KReg1

open Cert.KernelIdeal Cert.KernelIdeal.Gen

/-! ## What one grid point leaves in the carried block -/

section Pieces

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- At a point that does not reset, the block that held `acc` ends at the update of `acc` by the tile's five
    input blocks: the body's single store covers the block, and its loads read the whole buffers. -/
theorem out_B (c : Dev nD) (i : grid1.Coords)
    (a2 : Memref sig .tc .vmem S1024x128 .f32) (h2 : a2.IsWhole) (a3 : Memref sig .tc .vmem S1024x1 .i32) (h3 : a3.IsWhole)
    (a4 : Memref sig .tc .vmem S128x1024 .bf16) (h4 : a4.IsWhole) (a5 : Memref sig .tc .vmem S1x1024 .f32) (h5 : a5.IsWhole)
    (a6 : Memref sig .tc .vmem S1x1 .f32) (h6 : a6.IsWhole) (a7 : Memref sig .tc .vmem S1x8x128 .f32) (h7 : a7.IsWhole)
    (hc : ¬cond1_0 i) (x0 : Vec F S1024x128 .f32) (x1 : Vec F S1024x1 .i32) (x2 : Vec F S128x1024 .bf16)
    (x3 : Vec F S1x1024 .f32) (x4 : Vec F S1x1 .f32) (acc : Vec F S1x8x128 .f32) :
    out1_B_5 c i a2 h2 a3 h3 a4 h4 a5 h5 a6 h6 a7 h7 hc x0 x1 x2 x3 x4 acc
      = k1_pay1 (k1_pay5 x0 x2 x3 x1 x4) (k1_pay6 x0 x2 x3 x4) acc := by
  unfold out1_B_5
  rw [View.read_writes_eq_canon _ _ _ (cover1_B_5 c i a2 h2 a3 h3 a4 h4 a5 h5 a6 h6 a7 h7 hc x0 x1 x2 x3 x4 acc)]
  unfold kernelRun1_B
  dsimp only
  sl_unfold_words
  rw [View.canon_unit_zero (S := S1x8x128) zero3]
  simp only [View.readAt_eq_ld, h2.read_unread, h3.read_unread, h4.read_unread, h5.read_unread, h6.read_unread,
    h7.read_unread, View.ld_unit_zero (S := S1024x128) zero2, View.ld_unit_zero (S := S1024x1) zero2,
    View.ld_unit_zero (S := S128x1024) zero2, View.ld_unit_zero (S := S1x1024) zero2,
    View.ld_unit_zero (S := S1x1) zero2, View.ld_unit_zero (S := S1x8x128) zero3]

/-- At a point that resets, the block ends at the same update of the reset value: the body stores the reset
    value, reads it back, and its last store covers the block. -/
theorem out_A (c : Dev nD) (i : grid1.Coords)
    (a2 : Memref sig .tc .vmem S1024x128 .f32) (h2 : a2.IsWhole) (a3 : Memref sig .tc .vmem S1024x1 .i32) (h3 : a3.IsWhole)
    (a4 : Memref sig .tc .vmem S128x1024 .bf16) (h4 : a4.IsWhole) (a5 : Memref sig .tc .vmem S1x1024 .f32) (h5 : a5.IsWhole)
    (a6 : Memref sig .tc .vmem S1x1 .f32) (h6 : a6.IsWhole) (a7 : Memref sig .tc .vmem S1x8x128 .f32) (h7 : a7.IsWhole)
    (hc : cond1_0 i) (x0 : Vec F S1024x128 .f32) (x1 : Vec F S1024x1 .i32) (x2 : Vec F S128x1024 .bf16)
    (x3 : Vec F S1x1024 .f32) (x4 : Vec F S1x1 .f32) :
    out1_A_5 c i a2 h2 a3 h3 a4 h4 a5 h5 a6 h6 a7 h7 hc x0 x1 x2 x3 x4
      = k1_pay1 (k1_pay5 x0 x2 x3 x1 x4) (k1_pay6 x0 x2 x3 x4) k1_pay2 := by
  unfold out1_A_5
  rw [View.read_writes_eq_canon _ _ _ (cover1_A_5 c i a2 h2 a3 h3 a4 h4 a5 h5 a6 h6 a7 h7 hc x0 x1 x2 x3 x4)]
  unfold kernelRun1_A
  dsimp only
  sl_unfold_words
  rw [View.canon_cons_unit_zero (S := S1x8x128) zero3, View.readCov_unit_zero (S := S1x8x128) _ zero3]
  simp only [View.readAt_eq_ld, h2.read_unread, h3.read_unread, h4.read_unread, h5.read_unread, h6.read_unread,
    View.ld_unit_zero (S := S1024x128) zero2, View.ld_unit_zero (S := S1024x1) zero2,
    View.ld_unit_zero (S := S128x1024) zero2, View.ld_unit_zero (S := S1x1024) zero2,
    View.ld_unit_zero (S := S1x1) zero2]

end Pieces

/-! ## The five input blocks at a grid point -/

variable (V : (c : Dev nD) → (b : Ref sig .tc) → Buf (Elt Ideal) ((c : Thread nD τ).loc b))

/-- The five input arrays as the region finds them, at their literal types. -/
abbrev xArr (c : Dev nD) : Vec Ideal S65536x128 .f32 := V c main_arg0
abbrev tArr (c : Dev nD) : Vec Ideal S65536x1 .i32 := V c main_v19
abbrev cArr (c : Dev nD) : Vec Ideal S128x1024 .bf16 := V c main_v13
abbrev yArr (c : Dev nD) : Vec Ideal S1x1024 .f32 := V c main_v18
abbrev bArr (c : Dev nD) : Vec Ideal S1x1 .f32 := V c main_v35

/-- Each input window's block at grid point `t`, at its literal type. -/
abbrev xBlk (c : Dev nD) (t : Fin cfg1.N) : Vec Ideal S1024x128 .f32 := iblk1 V c 0 t
abbrev tBlk (c : Dev nD) (t : Fin cfg1.N) : Vec Ideal S1024x1 .i32 := iblk1 V c 1 t
abbrev cBlk (c : Dev nD) (t : Fin cfg1.N) : Vec Ideal S128x1024 .bf16 := iblk1 V c 2 t
abbrev yBlk (c : Dev nD) (t : Fin cfg1.N) : Vec Ideal S1x1024 .f32 := iblk1 V c 3 t
abbrev bBlk (c : Dev nD) (t : Fin cfg1.N) : Vec Ideal S1x1 .f32 := iblk1 V c 4 t

/-- The block indices over the 64 grid points: the two row-tiled inputs are at row tile `t`, the three small
    inputs at their only block, the output at half `t / 32`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 32 ∧ win1_5.index t (1 : Fin 3) = 0 ∧ win1_5.index t (2 : Fin 3) = 0 :=
  (by decide +kernel : ∀ t : Fin grid1.N, _)

/-- The block of the data matrix at point `32 p + s` is tile `s` of half `p`: rows `(32 p + s) · 1024 + r`. -/
theorem xBlk_eq (c : Dev nD) (t : Fin cfg1.N) (p : Fin 2) (s : Fin 32) (ht : t.val = p.val * 32 + s.val) :
    xBlk V c t = Cert.Spec.xTile (xArr V c) p s := by
  obtain ⟨e0, e1, -⟩ := idx_facts t
  funext j
  show ((cfg1.win 0).blk t).view.read (Elt Ideal) (V c (Pipeline.arrRef spec1 0)) j
    = V c main_arg0 (ix2 (Cert.Spec.row p s (j 0)) (j 1))
  rw [View.read_apply]
  show V c main_arg0 _ = V c main_arg0 _
  congr 1
  funext a
  apply Fin.ext
  match a with
  | ⟨0, _⟩ =>
    show win1_0.index t (0 : Fin 2) * 1024 + 1 * (j 0).val = (p.val * 32 + s.val) * 1024 + (j 0).val
    rw [e0, ht]; omega
  | ⟨1, _⟩ =>
    show win1_0.index t (1 : Fin 2) * 128 + 1 * (j 1).val = (j 1).val
    rw [e1]; omega

/-- The block of the label column at point `32 p + s` is the same tile of the labels. -/
theorem tBlk_eq (c : Dev nD) (t : Fin cfg1.N) (p : Fin 2) (s : Fin 32) (ht : t.val = p.val * 32 + s.val) :
    tBlk V c t = Cert.Spec.tgTile (tArr V c) p s := by
  obtain ⟨-, -, e0, e1, -⟩ := idx_facts t
  funext j
  show ((cfg1.win 1).blk t).view.read (Elt Ideal) (V c (Pipeline.arrRef spec1 1)) j
    = V c main_v19 (ix2 (Cert.Spec.row p s (j 0)) 0)
  rw [View.read_apply]
  show V c main_v19 _ = V c main_v19 _
  congr 1
  funext a
  apply Fin.ext
  match a with
  | ⟨0, _⟩ =>
    show win1_1.index t (0 : Fin 2) * 1024 + 1 * (j 0).val = (p.val * 32 + s.val) * 1024 + (j 0).val
    rw [e0, ht]; omega
  | ⟨1, _⟩ =>
    show win1_1.index t (1 : Fin 2) * 1 + 1 * (j 1).val = 0
    have hj : (j 1).val < 1 := (j 1).isLt
    rw [e1]; omega

/-- The transposed centres are staged whole at every point. -/
theorem cBlk_eq (c : Dev nD) (t : Fin cfg1.N) : cBlk V c t = cArr V c := by
  obtain ⟨-, -, -, -, e0, e1, -⟩ := idx_facts t
  funext j
  show ((cfg1.win 2).blk t).view.read (Elt Ideal) (V c (Pipeline.arrRef spec1 2)) j = V c main_v13 j
  rw [View.read_apply]
  show V c main_v13 _ = V c main_v13 _
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 1024 + 1 * (j 1).val = (j 1).val; rw [e1]; omega

/-- So is the row of halved squared norms, -/
theorem yBlk_eq (c : Dev nD) (t : Fin cfg1.N) : yBlk V c t = yArr V c := by
  obtain ⟨-, -, -, -, -, -, e0, e1, -⟩ := idx_facts t
  funext j
  show ((cfg1.win 3).blk t).view.read (Elt Ideal) (V c (Pipeline.arrRef spec1 3)) j = V c main_v18 j
  rw [View.read_apply]
  show V c main_v18 _ = V c main_v18 _
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 1024 + 1 * (j 1).val = (j 1).val; rw [e1]; omega

/-- and the one-entry array holding the base. -/
theorem bBlk_eq (c : Dev nD) (t : Fin cfg1.N) : bBlk V c t = bArr V c := by
  obtain ⟨-, -, -, -, -, -, -, -, e0, e1, -⟩ := idx_facts t
  funext j
  show ((cfg1.win 4).blk t).view.read (Elt Ideal) (V c (Pipeline.arrRef spec1 4)) j = V c main_v35 j
  rw [View.read_apply]
  show V c main_v35 _ = V c main_v35 _
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 1 + 1 * (j 1).val = (j 1).val; rw [e1]; omega

/-! ## The carried block after each point: a running sum of tile totals -/

/-- The per-row quantity of a tile of a half is the whole input's at the tile's row: the tile's entries are
    the input's at that row, so the same sums of the same entries. -/
theorem lr_tile (x : Cert.Spec.SX.Idx → EReal) (tg : Cert.Spec.ST.Idx → BitVec 32) (ct : Cert.Spec.SCT.Idx → EReal)
    (yh : Cert.Spec.SY.Idx → EReal) (base : Cert.Spec.SB.Idx → EReal) (p : Fin 2) (s : Fin 32) (r : Fin 1024) :
    Cert.Spec.lr (Cert.Spec.xTile x p s) (Cert.Spec.tgTile tg p s) ct yh base r
      = Cert.Spec.lr x tg ct yh base (Cert.Spec.row p s r) := rfl

/-- The total of tile `s` of half `p`: the sum of its 1024 rows' log ratios. -/
def tileSum (c : Dev nD) (p : Fin 2) (s : Fin 32) : EReal :=
  ∑ r : Fin 1024, Cert.Spec.lr (xArr V c) (tArr V c) (cArr V c) (yArr V c) (bArr V c) (Cert.Spec.row p s r)

/-- The body's update at point `32 p + s`, at any entry of the block: the tile's total is added. -/
theorem update_apply (c : Dev nD) (t : Fin cfg1.N) (p : Fin 2) (s : Fin 32) (ht : t.val = p.val * 32 + s.val)
    (acc : Vec Ideal S1x8x128 .f32) (j : S1x8x128.Idx) :
    k1_pay1 (k1_pay5 (xBlk V c t) (cBlk V c t) (yBlk V c t) (tBlk V c t) (bBlk V c t))
        (k1_pay6 (xBlk V c t) (cBlk V c t) (yBlk V c t) (bBlk V c t)) acc j
      = acc j + tileSum V c p s := by
  refine (KPay1.pay1_apply (xBlk V c t) (cBlk V c t) (yBlk V c t) (tBlk V c t) (bBlk V c t) acc j).trans ?_
  rw [xBlk_eq V c t p s ht, tBlk_eq V c t p s ht, cBlk_eq V c t, yBlk_eq V c t, bBlk_eq V c t]
  rfl

/-- At a resetting point the carried block ends at the update of the reset value. -/
theorem outsAt_reset (c : Dev nD) (t : Fin cfg1.N) (h0 : t.val % 32 = 0) :
    outsAt1 V c t.val t.isLt
      = k1_pay1 (k1_pay5 (xBlk V c t) (cBlk V c t) (yBlk V c t) (tBlk V c t) (bBlk V c t))
          (k1_pay6 (xBlk V c t) (cBlk V c t) (yBlk V c t) (bBlk V c t)) (k1_pay2 (F := Ideal)) := by
  rw [outsAt1_A V c t h0]
  exact out_A (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) ((hcond1_0 t).mpr h0)
    (iblk1 V c 0 t) (iblk1 V c 1 t) (iblk1 V c 2 t) (iblk1 V c 3 t) (iblk1 V c 4 t)

/-- At any other point it ends at the update of what the point before left. -/
theorem outsAt_step (c : Dev nD) (t : Fin cfg1.N) (h0 : ¬t.val % 32 = 0) :
    outsAt1 V c t.val t.isLt
      = k1_pay1 (k1_pay5 (xBlk V c t) (cBlk V c t) (yBlk V c t) (tBlk V c t) (bBlk V c t))
          (k1_pay6 (xBlk V c t) (cBlk V c t) (yBlk V c t) (bBlk V c t))
          (outsAt1 V c (t.val - 1) (Nat.lt_of_le_of_lt (Nat.sub_le _ _) t.isLt)) := by
  rw [outsAt1_B V c t h0]
  exact out_B (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) (fun h => h0 ((hcond1_0 t).mp h))
    (iblk1 V c 0 t) (iblk1 V c 1 t) (iblk1 V c 2 t) (iblk1 V c 3 t) (iblk1 V c 4 t)
    (outsAt1 V c (t.val - 1) (Nat.lt_of_le_of_lt (Nat.sub_le _ _) t.isLt))

theorem bound (p : Fin 2) (k : ℕ) (hk : k < 32) : p.val * 32 + k < cfg1.N := by
  have hN : cfg1.N = 64 := N_1
  have hp := p.isLt
  rw [hN]; omega

/-- After the last tile of half `p` every entry of the carried block holds the sum of the 32 tile totals:
    the block holds `0 + ` the first tile's total after the reset point and gains one tile's total per later point. -/
theorem outs_last (c : Dev nD) (p : Fin 2) (j : S1x8x128.Idx) :
    outsAt1 V c (p.val * 32 + 31) (bound p 31 (by decide)) j = ∑ s : Fin 32, tileSum V c p s := by
  refine Cert.BlockSum.chain_last 31 (fun k hk => outsAt1 V c (p.val * 32 + k) (bound p k hk) j)
    (fun k hk => tileSum V c p ⟨k, hk⟩) (fun h => ?_) (fun k h => ?_)
  · have h0 : (⟨p.val * 32 + 0, bound p 0 h⟩ : Fin cfg1.N).val % 32 = 0 := by dsimp only; omega
    refine (congrFun (outsAt_reset V c ⟨p.val * 32 + 0, bound p 0 h⟩ h0) j).trans ?_
    refine (update_apply V c ⟨p.val * 32 + 0, bound p 0 h⟩ p ⟨0, h⟩ rfl (k1_pay2 (F := Ideal)) j).trans ?_
    rw [KPay1.pay2_apply]
  · have h0 : ¬(⟨p.val * 32 + (k + 1), bound p (k + 1) h⟩ : Fin cfg1.N).val % 32 = 0 := by dsimp only; omega
    refine (congrFun (outsAt_step V c ⟨p.val * 32 + (k + 1), bound p (k + 1) h⟩ h0) j).trans ?_
    exact update_apply V c ⟨p.val * 32 + (k + 1), bound p (k + 1) h⟩ p ⟨k + 1, h⟩ rfl _ j

/-! ## The result array -/

/-- Entry `j` of the result array: half `j 0`'s sum of the rows' log ratios. -/
abbrev result (c : Dev nD) : Vec Ideal S2x8x128 .f32 := fun j =>
  Cert.Spec.slPart (xArr V c) (tArr V c) (cArr V c) (yArr V c) (bArr V c) (j 0)

/-- A half's sum is the sum of its 32 tile totals. -/
theorem slPart_eq (c : Dev nD) (p : Fin 2) :
    Cert.Spec.slPart (xArr V c) (tArr V c) (cArr V c) (yArr V c) (bArr V c) p = ∑ s : Fin 32, tileSum V c p s := rfl

theorem outsAt_congr (c : Dev nD) (n n' : ℕ) (e : n = n') (h : n < cfg1.N) (h' : n' < cfg1.N) :
    outsAt1 V c n h = outsAt1 V c n' h' := by subst e; rfl

/-- The block is written back at the points `32 p + 31`, where it holds half `p`'s sum in every entry: that is
    block `(p, 0, 0)` of the result. -/
theorem flushed_eq (c : Dev nD) (t : Fin cfg1.N) (hf : (cfg1.win 5).flush t = true) :
    (dat1 (F := Ideal) V c).flushed 5 t = ((cfg1.win 5).blk t).view.read (Elt Ideal) (result V c) := by
  have h31 : t.val % 32 = 31 := (flush1_5 t).mp hf
  have hN : t.val < 64 := lt_of_lt_of_eq t.isLt N_1
  obtain ⟨-, -, -, -, -, -, -, -, -, -, e0, -, -⟩ := idx_facts t
  show (cfg1.win 5).cut (grid1.coords t) ((dat1 (F := Ideal) V c).after 5 t) = _
  rw [after1_5]
  funext y
  rw [View.read_apply]
  have hp : t.val / 32 < 2 := by omega
  have hy : (y 0).val < 1 := (y 0).isLt
  have hidx : (((cfg1.win 5).blk t).view.emb y) 0 = (⟨t.val / 32, hp⟩ : Fin 2) := by
    apply Fin.ext
    show win1_5.index t (0 : Fin 3) * 1 + 1 * (y 0).val = t.val / 32
    rw [e0]; omega
  show outsAt1 V c t.val t.isLt _ = Cert.Spec.slPart (xArr V c) (tArr V c) (cArr V c) (yArr V c) (bArr V c)
    ((((cfg1.win 5).blk t).view.emb y) 0)
  rw [hidx, slPart_eq, outsAt_congr V c t.val ((⟨t.val / 32, hp⟩ : Fin 2).val * 32 + 31) (by dsimp only; omega) t.isLt
    (bound ⟨t.val / 32, hp⟩ 31 (by decide))]
  exact outs_last V c ⟨t.val / 32, hp⟩ _

/-- Entry `j` of the result lies in the block written back at point `32 · (j 0) + 31`. -/
theorem covered (c : Dev nD) (i : S2x8x128.Idx) :
    ∃ t : Fin cfg1.N, (cfg1.win 5).flush t = true ∧ i ∈ ((cfg1.win 5).blk t).view.set := by
  have h0 : (i 0).val < 2 := (i 0).isLt
  have h1 : (i 1).val < 8 := (i 1).isLt
  have h2 : (i 2).val < 128 := (i 2).isLt
  have hb : (i 0).val * 32 + 31 < cfg1.N := bound (i 0) 31 (by decide)
  obtain ⟨-, -, -, -, -, -, -, -, -, -, e0, e1, e2⟩ := idx_facts ⟨(i 0).val * 32 + 31, hb⟩
  refine ⟨⟨(i 0).val * 32 + 31, hb⟩, (flush1_5 _).mpr (by dsimp only; omega), ?_⟩
  show i ∈ ((View.whole main_v36).slice (win1_5.rect ⟨(i 0).val * 32 + 31, hb⟩)).set
  rw [View.set_slice_whole, Rect.mem_set_unit]
  intro a
  match a with
  | ⟨0, _⟩ =>
    show win1_5.index ⟨(i 0).val * 32 + 31, hb⟩ (0 : Fin 3) * 1 ≤ (i 0).val
      ∧ (i 0).val < win1_5.index ⟨(i 0).val * 32 + 31, hb⟩ (0 : Fin 3) * 1 + 1
    rw [e0]; dsimp only; omega
  | ⟨1, _⟩ =>
    show win1_5.index ⟨(i 0).val * 32 + 31, hb⟩ (1 : Fin 3) * 8 ≤ (i 1).val
      ∧ (i 1).val < win1_5.index ⟨(i 0).val * 32 + 31, hb⟩ (1 : Fin 3) * 8 + 8
    rw [e1]; omega
  | ⟨2, _⟩ =>
    show win1_5.index ⟨(i 0).val * 32 + 31, hb⟩ (2 : Fin 3) * 128 ≤ (i 2).val
      ∧ (i 2).val < win1_5.index ⟨(i 0).val * 32 + 31, hb⟩ (2 : Fin 3) * 128 + 128
    rw [e2]; omega

/-- What the second call leaves in its result array, for any entry contents: each half's sum of the rows' log
    ratios, in every entry of that half's block. -/
theorem arr_sl (c : Dev nD) :
    (dat1 (F := Ideal) V c).arrAt 5 cfg1.N
      = fun j : S2x8x128.Idx =>
          Cert.Spec.slPart (V c main_arg0) (V c main_v19) (V c main_v13) (V c main_v18) (V c main_v35) (j 0) :=
  (dat1 (F := Ideal) V c).arrAt_eq_of_cover 5 (result V c) (flushed_eq V c) (covered c)

end Cert.KernelIdeal.KReg1

end
-- ==== Proof.KHostA.lean ====
/-
  What the two passes find in their input arrays.  Before the first pass the program builds, from the inputs as
  launched, the label column, the centres (row sums over guarded counts) transposed, and the row yyⱼ = Σ_d cen_{j,d}²;
  the first pass reads the input matrix and these three.  Between the passes it halves yy and forms, from the first
  pass's third and fourth results, B = (max over the two halves' maxima + min over their minima)·½ as a 1×1 array; the
  second pass reads the input matrix, the label column, the transposed centres (none of which anything has written
  since), yy/2 and B.  A maximum (minimum) folded from −∞ (+∞) over two entries is the larger (smaller) of them.
-/
import proofs.«408375_j76639396429875_3_alg».proof.Proof.Gen.KernelIdeal.Frame
import proofs.«408375_j76639396429875_3_alg».proof.Proof.Spec
import proofs.«408375_j76639396429875_3_alg».proof.Proof.KCen
import proofs.«408375_j76639396429875_3_alg».proof.Proof.KReg0
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.KHostA

open Cert.KernelIdeal Cert.KernelIdeal.Gen Cert.KernelIdeal.KCen

variable (m : (ℓ : Loc nD τ sig) → Buf (Elt Ideal) ℓ) (ρ : Dev nD → PrngReg)

/-- The input matrix as launched. -/
abbrev xA (c : Dev nD) : Vec Ideal S65536x128 .f32 := m ((c.tc : Thread nD τ).loc main_arg0)
/-- The labels as launched. -/
abbrev tA (c : Dev nD) : IVec S65536 32 := m ((c.tc : Thread nD τ).loc main_arg1)

/-! ## The first pass's inputs: the host operations before it, read back -/

theorem V1_x (c : Dev nD) : V1 m ρ c main_arg0 = xA m c := by
  show StableHlo.after hostOps0 _ (Proc.devRef .tc main_arg0) = _
  after_results

theorem V1_tg_raw (c : Dev nD) :
    V1 m ρ c main_v19 = broadcastInDim S65536x1 ![0] bcast_S65536_S65536x1_0 (tA m c) := by
  show StableHlo.after hostOps0 _ (Proc.devRef .tc main_v19) = _
  after_results

/-- The label column read at a row is the row's label. -/
theorem tgCol_read (t : IVec S65536 32) :
    broadcastInDim S65536x1 ![0] bcast_S65536_S65536x1_0 t = Cert.Spec.tgCol t := by
  funext i
  exact broadcastInDim_apply _ bcast_S65536_S65536x1_0 t i (ix1 (i 0)) (fun a => match a with
    | ⟨0, _⟩ => by show (i 0).val = if (65536 : Nat) = 1 then 0 else (i 0).val; rw [if_neg (by decide)])

theorem V1_tg (c : Dev nD) : V1 m ρ c main_v19 = Cert.Spec.tgCol (tA m c) :=
  (V1_tg_raw m ρ c).trans (tgCol_read _)

/-- The transposed centres; the change of format is the identity on the extended reals. -/
theorem ct_read (cen : FVec Ideal S1024x128 .f32) :
    (truncf .bf16 (transpose S128x1024 [1, 0] cen transposes_S1024x128_S128x1024_1_0) bitsLt_bf16_f32 : FVec Ideal S128x1024 .bf16)
      = Cert.Spec.ctOf cen := by
  funext i
  rw [eq_ix2 i]
  exact transpose_ix2_apply cen transposes_S1024x128_S128x1024_1_0 (i 0) (i 1)

theorem V1_ct_raw (c : Dev nD) : V1 m ρ c main_v13
    = (truncf .bf16 (transpose S128x1024 [1, 0] (cenKer (F := Ideal) (xA m c) (tA m c)) transposes_S1024x128_S128x1024_1_0)
        bitsLt_bf16_f32 : FVec Ideal S128x1024 .bf16) := by
  show StableHlo.after hostOps0 _ (Proc.devRef .tc main_v13) = _
  after_results
  rfl

theorem V1_ct (c : Dev nD) : V1 m ρ c main_v13 = Cert.Spec.ctOf (cenKer (F := Ideal) (xA m c) (tA m c)) :=
  (V1_ct_raw m ρ c).trans (ct_read _)

/-- The centres' squared norms as the host computes them: per centre the sum over the 128 columns of the squares,
    from the zero initial value, laid out as a row. -/
def yyKer (cen : FVec Ideal S1024x128 .f32) : FVec Ideal S1x1024 .f32 :=
  broadcastInDim S1x1024 ![1] bcast_S1024_S1x1024_1
    (Host.reduceAdd (mulf cen cen) (constant (F := Ideal) S_ .f32 0x00000000#32) reducesTo_S1024x128_S1024_d1 h_S_)

theorem yy_read (cen : FVec Ideal S1024x128 .f32) : yyKer cen = Cert.Spec.yyOf cen := by
  funext i
  unfold yyKer
  refine (broadcastInDim_apply _ bcast_S1024_S1x1024_1 _ i (ix1 (i 1)) (fun a => match a with
    | ⟨0, _⟩ => by show (i 1).val = if (1024 : Nat) = 1 then 0 else (i 1).val; rw [if_neg (by decide)])).trans ?_
  simp only [Host.reduceAdd, Ideal.hostReduceAdd_def]
  rw [Ideal.hostReduceAdd_single reducesTo_S1024x128_S1024_d1 (by decide)]
  show Ideal.ofBits .f32 0x00000000#32 + _ = _
  rw [Ideal.ofBits_zero_f32, zero_add]
  refine Finset.sum_congr rfl fun k _ => ?_
  exact congrArg (fun j : S1024x128.Idx => cen j * cen j)
    (funext fun a => Fin.ext (by match a with | ⟨0, _⟩ => rfl | ⟨1, _⟩ => rfl))

theorem V1_yy_raw (c : Dev nD) : V1 m ρ c main_v16 = yyKer (cenKer (F := Ideal) (xA m c) (tA m c)) := by
  show StableHlo.after hostOps0 _ (Proc.devRef .tc main_v16) = _
  after_results
  rfl

theorem V1_yy (c : Dev nD) : V1 m ρ c main_v16 = Cert.Spec.yyOf (cenKer (F := Ideal) (xA m c) (tA m c)) :=
  (V1_yy_raw m ρ c).trans (yy_read _)

/-- Half the squared norms: the constant 0.5, broadcast to a row, times the row. -/
def yhKer (cen : FVec Ideal S1024x128 .f32) : FVec Ideal S1x1024 .f32 :=
  mulf (broadcastInDim S1x1024 ![] bcast_S_S1x1024 (constant (F := Ideal) S_ .f32 0x3F000000#32)) (yyKer cen)

theorem yh_read (cen : FVec Ideal S1024x128 .f32) : yhKer cen = Cert.Spec.yhOf cen := by
  funext i
  show broadcastInDim S1x1024 ![] bcast_S_S1x1024 (constant (F := Ideal) S_ .f32 0x3F000000#32) i * yyKer cen i
    = Cert.Spec.cHalf * Cert.Spec.yyOf cen i
  rw [yy_read, broadcastInDim_apply _ bcast_S_S1x1024 _ i ix0 (fun a => a.elim0)]
  rfl

theorem V1_yh_raw (c : Dev nD) : V1 m ρ c main_v18 = yhKer (cenKer (F := Ideal) (xA m c) (tA m c)) := by
  show StableHlo.after hostOps0 _ (Proc.devRef .tc main_v18) = _
  after_results
  rfl

/-! ## Between the passes: which buffers the second stretch of host operations leaves alone -/

section Keep
variable (X : Valuation τ sig (Elt Ideal))

theorem keep_arg0 : StableHlo.after hostOps1 X (Proc.devRef .tc main_arg0) = X (Proc.devRef .tc main_arg0) := by
  after_results
theorem keep_v19 : StableHlo.after hostOps1 X (Proc.devRef .tc main_v19) = X (Proc.devRef .tc main_v19) := by
  after_results
theorem keep_v13 : StableHlo.after hostOps1 X (Proc.devRef .tc main_v13) = X (Proc.devRef .tc main_v13) := by
  after_results
theorem keep_v18 : StableHlo.after hostOps1 X (Proc.devRef .tc main_v18) = X (Proc.devRef .tc main_v18) := by
  after_results

end Keep

/-! ## The second pass's inputs that the first pass also read, or that were computed before it -/

theorem V3_x (c : Dev nD) : V3 m ρ c main_arg0 = xA m c :=
  calc V3 m ρ c main_arg0
    _ = W2 m ρ c (Proc.devRef .tc main_arg0) := keep_arg0 _
    _ = W1 m ρ c (Proc.devRef .tc main_arg0) :=
          (W2_arr m ρ c 0).trans (((dat0 (V1 m ρ) c).arrAt_in 0 rfl _).trans (A_eq0 (V1 m ρ) c 0))
    _ = xA m c := V1_x m ρ c

theorem V3_tg (c : Dev nD) : V3 m ρ c main_v19 = Cert.Spec.tgCol (tA m c) :=
  calc V3 m ρ c main_v19
    _ = W2 m ρ c (Proc.devRef .tc main_v19) := keep_v19 _
    _ = W1 m ρ c (Proc.devRef .tc main_v19) :=
          (W2_arr m ρ c 1).trans (((dat0 (V1 m ρ) c).arrAt_in 1 rfl _).trans (A_eq0 (V1 m ρ) c 1))
    _ = Cert.Spec.tgCol (tA m c) := V1_tg m ρ c

theorem V3_ct (c : Dev nD) : V3 m ρ c main_v13 = Cert.Spec.ctOf (cenKer (F := Ideal) (xA m c) (tA m c)) :=
  calc V3 m ρ c main_v13
    _ = W2 m ρ c (Proc.devRef .tc main_v13) := keep_v13 _
    _ = W1 m ρ c (Proc.devRef .tc main_v13) :=
          (W2_arr m ρ c 2).trans (((dat0 (V1 m ρ) c).arrAt_in 2 rfl _).trans (A_eq0 (V1 m ρ) c 2))
    _ = Cert.Spec.ctOf (cenKer (F := Ideal) (xA m c) (tA m c)) := V1_ct m ρ c

theorem V3_yh (c : Dev nD) : V3 m ρ c main_v18 = Cert.Spec.yhOf (cenKer (F := Ideal) (xA m c) (tA m c)) :=
  calc V3 m ρ c main_v18
    _ = W2 m ρ c (Proc.devRef .tc main_v18) := keep_v18 _
    _ = W1 m ρ c (Proc.devRef .tc main_v18) := W2_of_ne m ρ c main_v18 (by decide)
    _ = yhKer (cenKer (F := Ideal) (xA m c) (tA m c)) := V1_yh_raw m ρ c
    _ = Cert.Spec.yhOf (cenKer (F := Ideal) (xA m c) (tA m c)) := yh_read _

/-! ## The distance scale's midpoint, from the first pass's extremes -/

/-- The host's term: of each of the two result arrays the entries [p, 0, 0] as a 2-vector, the first reduced by
    maximum from −∞ and the second by minimum from +∞, their sum halved, as a 1×1 array. -/
def baseTerm (A B : FVec Ideal S2x8x128 .f32) : FVec Ideal S1x1 .f32 :=
  shapeCast S1x1
    (mulf
      (addf
        (Host.reduce FloatOps.maximumf
          (shapeCast S2 (extractStridedSlice S2x1x1 ![0, 0, 0] A slices_S2x8x128_S2x1x1_0_0_0) shapeCasts_S2x1x1_S2)
          (constant (F := Ideal) S_ .f32 0xFF800000#32) reducesTo_S2_S_d0 h_S_)
        (Host.reduce FloatOps.minimumf
          (shapeCast S2 (extractStridedSlice S2x1x1 ![0, 0, 0] B slices_S2x8x128_S2x1x1_0_0_0) shapeCasts_S2x1x1_S2)
          (constant (F := Ideal) S_ .f32 0x7F800000#32) reducesTo_S2_S_d0 h_S_))
      (constant (F := Ideal) S_ .f32 0x3F000000#32))
    shapeCasts_S_S1x1

theorem v35_raw (X : Valuation τ sig (Elt Ideal)) :
    StableHlo.after hostOps1 X (Proc.devRef .tc main_v35)
      = baseTerm (X (Proc.devRef .tc main_v20_2)) (X (Proc.devRef .tc main_v20_3)) := by
  after_results
  rfl

/-- Entry p of the 2-vector cut out of a [2, 8, 128] array is the array's entry [p, 0, 0]. -/
theorem pick_read (A : FVec Ideal S2x8x128 .f32) (p : Fin 2) :
    shapeCast S2 (extractStridedSlice S2x1x1 ![0, 0, 0] A slices_S2x8x128_S2x1x1_0_0_0) shapeCasts_S2x1x1_S2 (ix1 p)
      = A (ix3 p 0 0) := by
  refine (shapeCast_apply _ shapeCasts_S2x1x1_S2 (ix1 p) (ix3 p 0 0) ?_).trans ?_
  · rw [Shape.rowMajor_val_three, Shape.rowMajor_val_one]
    show (p.val * 1 + 0) * 1 + 0 = p.val
    omega
  · exact extractStridedSlice_apply _ A slices_S2x8x128_S2x1x1_0_0_0 (ix3 p 0 0) (ix3 p 0 0) (fun a => match a with
      | ⟨0, _⟩ => by show p.val = 0 + p.val; omega
      | ⟨1, _⟩ => by show 0 = 0 + 0; rfl
      | ⟨2, _⟩ => by show 0 = 0 + 0; rfl)

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

/-- The indices of a 2-vector are 0 and 1. -/
theorem univ_S2 : (Finset.univ : Finset S2.Idx) = insert (ix1 (0 : Fin 2)) {ix1 (1 : Fin 2)} := by
  ext i
  simp only [Finset.mem_univ, Finset.mem_insert, Finset.mem_singleton, true_iff]
  have hlt : (i 0).val < 2 := (i 0).isLt
  rcases (by omega : (i 0).val = 0 ∨ (i 0).val = 1) with h | h
  · exact Or.inl ((eq_ix1 i).trans (congrArg ix1 (Fin.ext h)))
  · exact Or.inr ((eq_ix1 i).trans (congrArg ix1 (Fin.ext h)))

/-- A commutative, associative reduction of a 2-vector to a scalar combines the two entries with the initial value. -/
theorem reduce_S2 {α : Type} (f : α → α → α) [Std.Commutative f] [Std.Associative f] (v : S2.Idx → α) (init : S_.Idx → α)
    (j : S_.Idx) :
    Host.reduce f v init reducesTo_S2_S_d0 h_S_ j = f (v (ix1 0)) (f (v (ix1 1)) (init (Shape.Idx.first h_S_))) := by
  have hall : ∀ i : S2.Idx, reducesTo_S2_S_d0.drop i = j := fun i => funext fun b => b.elim0
  have hne : ix1 (0 : Fin 2) ∉ ({ix1 (1 : Fin 2)} : Finset S2.Idx) := by
    rw [Finset.mem_singleton]
    intro e
    exact absurd (congrArg (fun k : S2.Idx => (k 0).val) e) (by decide)
  rw [Host.reduce_eq_fold, Finset.filter_true_of_mem (fun i _ => hall i), univ_S2, Finset.fold_insert hne,
    Finset.fold_singleton]

theorem base_read (A B : FVec Ideal S2x8x128 .f32) (i : S1x1.Idx) :
    baseTerm A B i
      = (max (A (ix3 0 0 0)) (A (ix3 1 0 0)) + min (B (ix3 0 0 0)) (B (ix3 1 0 0))) * Cert.Spec.cHalf := by
  unfold baseTerm
  refine (shapeCast_apply _ shapeCasts_S_S1x1 i ix0 ?_).trans ?_
  · rw [Shape.rowMajor_val_two]
    have hz : (S_.rowMajor ix0).val = 0 := Shape.rowMajorPi_zero _ _
    rw [hz]
    have h0' : (i 0).val < 1 := (i 0).isLt
    have h1' : (i 1).val < 1 := (i 1).isLt
    show 0 = (i 0).val * 1 + (i 1).val
    omega
  · show (Host.reduce FloatOps.maximumf _ _ reducesTo_S2_S_d0 h_S_ ix0 + Host.reduce FloatOps.minimumf _ _ reducesTo_S2_S_d0 h_S_ ix0)
        * Ideal.ofBits .f32 0x3F000000#32 = _
    rw [reduce_S2, reduce_S2, pick_read, pick_read, pick_read, pick_read]
    show (max (A (ix3 0 0 0)) (max (A (ix3 1 0 0)) (Ideal.ofBits .f32 0xFF800000#32))
        + min (B (ix3 0 0 0)) (min (B (ix3 1 0 0)) (Ideal.ofBits .f32 0x7F800000#32))) * Cert.Spec.cHalf = _
    rw [ofBits_neg_inf, ofBits_pos_inf, max_bot_right, min_top_right]

theorem V3_base (c : Dev nD) :
    V3 m ρ c main_v35 = Cert.Spec.baseArr (xA m c) (cenKer (F := Ideal) (xA m c) (tA m c)) := by
  have e6 : W2 m ρ c (Proc.devRef .tc main_v20_2)
      = fun j : S2x8x128.Idx => Cert.Spec.mxPart (xA m c) (Cert.Spec.ctOf (cenKer (F := Ideal) (xA m c) (tA m c)))
          (Cert.Spec.yyOf (cenKer (F := Ideal) (xA m c) (tA m c))) (j 0) :=
    (W2_arr m ρ c 6).trans ((Cert.KernelIdeal.KReg0.arr_mx (V1 m ρ) c).trans (by rw [V1_x, V1_ct, V1_yy]))
  have e7 : W2 m ρ c (Proc.devRef .tc main_v20_3)
      = fun j : S2x8x128.Idx => Cert.Spec.mnPart (xA m c) (Cert.Spec.ctOf (cenKer (F := Ideal) (xA m c) (tA m c)))
          (Cert.Spec.yyOf (cenKer (F := Ideal) (xA m c) (tA m c))) (j 0) :=
    (W2_arr m ρ c 7).trans ((Cert.KernelIdeal.KReg0.arr_mn (V1 m ρ) c).trans (by rw [V1_x, V1_ct, V1_yy]))
  refine (v35_raw (W2 m ρ c)).trans ?_
  rw [e6, e7]
  funext i
  exact base_read _ _ i

end Cert.KernelIdeal.KHostA

end
-- ==== Proof.KHostB.lean ====
/-
  The program's four results, from the inputs as launched.  After the second pass: the loss is minus the sum of the
  two halves' log-ratio sums over 65536; the labelled-distance diagnostic is the literal 64/63 (rounded) times the sum
  of the halves' labelled totals over 65536; the other diagnostic is (sum of the halves' totals − sum of their
  labelled totals) over 65536·1023; the fourth result is the constant 0.  A sum folded from 0 over two entries is
  their sum; the halves' sums are what the passes leave in entry (p, 0, 0) of their result arrays.
-/
import proofs.«408375_j76639396429875_3_alg».proof.Proof.Gen.KernelIdeal.Frame
import proofs.«408375_j76639396429875_3_alg».proof.Proof.Spec
import proofs.«408375_j76639396429875_3_alg».proof.Proof.KCen
import proofs.«408375_j76639396429875_3_alg».proof.Proof.KReg0
import proofs.«408375_j76639396429875_3_alg».proof.Proof.KReg1
import proofs.«408375_j76639396429875_3_alg».proof.Proof.KHostA
import Idealize.ShloMosaic.Lib.Pipeline.Value
import Idealize.ShloMosaic.Lib.StableHlo.Run
import Idealize.ShloMosaic.PureOps.Ideal.Laws
import Idealize.ShloMosaic.Lib.ValueIdxRank1

noncomputable section

open scoped BigOperators
open Idealize.ShloMosaic Idealize.ShloMosaic.TcCoe Idealize.SL.Sem Idealize.ShloMosaic.ValueIdx
open Idealize.ShloMosaic.Pipeline (Dat)

namespace Cert.KernelIdeal.KHostB

open Cert.KernelIdeal Cert.KernelIdeal.Gen Cert.KernelIdeal.KCen Cert.KernelIdeal.KHostA

variable (m : (ℓ : Loc nD τ sig) → Buf (Elt Ideal) ℓ) (ρ : Dev nD → PrngReg)

/-! Each pass leaves, per half of the rows, a partial result spread over a [2, 8, 128] array that is constant along its two
    minor axes. The host code reads the entries [p, 0, 0], adds the two halves from zero, and scales: the loss is
    −((sl₀ + sl₁) / 65536), d_ap is (64/63) · ((sp₀ + sp₁) / 65536), d_an is ((sd₀ + sd₁) − (sp₀ + sp₁)) / (65536 · 1023). -/

/-- A rank-3 array constant along its two minor axes, sliced at [p, 0, 0], read as a vector of two and summed from the
    zero word: the sum of its two leading entries. -/
theorem halves_sum (A : FVec Ideal S2x8x128 .f32) (f : Fin 2 → EReal) (hA : ∀ j : S2x8x128.Idx, A j = f (j 0)) :
    Host.reduceAdd (F := Ideal) (φ := .f32)
        (shapeCast S2 (extractStridedSlice S2x1x1 ![0, 0, 0] A slices_S2x8x128_S2x1x1_0_0_0) shapeCasts_S2x1x1_S2)
        (constant (F := Ideal) S_ .f32 0x00000000#32) reducesTo_S2_S_d0 h_S_
      = fun _ => f 0 + f 1 := by
  funext j
  have e : ∀ k : Fin 2, shapeCast S2 (extractStridedSlice S2x1x1 ![0, 0, 0] A slices_S2x8x128_S2x1x1_0_0_0) shapeCasts_S2x1x1_S2 (ix1 k) = f k := by
    intro k
    rw [shapeCast_apply _ _ (ix1 k) (ix3 k 0 0) (by rw [Shape.rowMajor_val_three, Shape.rowMajor_val_one]; simp),
      extractStridedSlice_apply _ _ _ (ix3 k 0 0) (ix3 k 0 0) (by intro a; match a with | ⟨0, _⟩ => simp | ⟨1, _⟩ => simp | ⟨2, _⟩ => simp), hA]
  unfold Host.reduceAdd
  rw [Ideal.hostReduceAdd_def, Ideal.hostReduceAdd_total reducesTo_S2_S_d0 (fun b => b.elim0),
    ← Equiv.sum_comp (idxEquiv1 (n := 2)).symm, Fin.sum_univ_two]
  show Ideal.ofBits .f32 0x00000000#32 + (_ + _) = _
  rw [Ideal.ofBits_zero_f32, zero_add]
  exact congrArg₂ (· + ·) (e 0) (e 1)

/-- The second pass's result array at its exit: per half the sum of the rows' log ratios. -/
theorem W4_sl (c : Dev nD) (j : S2x8x128.Idx) :
    (W4 m ρ c (Proc.devRef .tc main_v36) : FVec Ideal S2x8x128 .f32) j
      = Cert.Spec.slPart (xA m c) (Cert.Spec.tgCol (tA m c)) (Cert.Spec.ctOf (cenKer (F := Ideal) (xA m c) (tA m c)))
          (Cert.Spec.yhOf (cenKer (F := Ideal) (xA m c) (tA m c))) (Cert.Spec.baseArr (xA m c) (cenKer (F := Ideal) (xA m c) (tA m c))) (j 0) := by
  rw [show W4 m ρ c (Proc.devRef .tc main_v36) = _ from W4_arr m ρ c 5, KReg1.arr_sl, V3_x, V3_tg, V3_ct, V3_yh, V3_base]

/-- The first pass's first result array at its exit: per half the sum of all distances. -/
theorem W2_sd (c : Dev nD) (j : S2x8x128.Idx) :
    (W2 m ρ c (Proc.devRef .tc main_v20_0) : FVec Ideal S2x8x128 .f32) j
      = Cert.Spec.sdPart (xA m c) (Cert.Spec.ctOf (cenKer (F := Ideal) (xA m c) (tA m c)))
          (Cert.Spec.yyOf (cenKer (F := Ideal) (xA m c) (tA m c))) (j 0) := by
  rw [show W2 m ρ c (Proc.devRef .tc main_v20_0) = _ from W2_arr m ρ c 4, KReg0.arr_sd, V1_x, V1_ct, V1_yy]

/-- The first pass's second result array at its exit: per half the sum of the labelled distances. -/
theorem W2_sp (c : Dev nD) (j : S2x8x128.Idx) :
    (W2 m ρ c (Proc.devRef .tc main_v20_1) : FVec Ideal S2x8x128 .f32) j
      = Cert.Spec.spPart (xA m c) (Cert.Spec.tgCol (tA m c)) (Cert.Spec.ctOf (cenKer (F := Ideal) (xA m c) (tA m c)))
          (Cert.Spec.yyOf (cenKer (F := Ideal) (xA m c) (tA m c))) (j 0) := by
  rw [show W2 m ρ c (Proc.devRef .tc main_v20_1) = _ from W2_arr m ρ c 5, KReg0.arr_sp, V1_x, V1_tg, V1_ct, V1_yy]

/-- The sum of all distances, as the host code between the passes forms it; the second pass leaves it alone. -/
theorem W4_sd (c : Dev nD) :
    (W4 m ρ c (Proc.devRef .tc main_v23) : FVec Ideal S_ .f32)
      = fun _ => Cert.Spec.sdPart (xA m c) (Cert.Spec.ctOf (cenKer (F := Ideal) (xA m c) (tA m c)))
            (Cert.Spec.yyOf (cenKer (F := Ideal) (xA m c) (tA m c))) 0
          + Cert.Spec.sdPart (xA m c) (Cert.Spec.ctOf (cenKer (F := Ideal) (xA m c) (tA m c)))
            (Cert.Spec.yyOf (cenKer (F := Ideal) (xA m c) (tA m c))) 1 := by
  rw [show W4 m ρ c (Proc.devRef .tc main_v23) = W3 m ρ c (Proc.devRef .tc main_v23) from W4_of_ne m ρ c main_v23 (by decide)]
  show StableHlo.after hostOps1 _ (Proc.devRef .tc main_v23) = _
  after_results
  exact halves_sum (W2 m ρ c (Proc.devRef .tc main_v20_0)) _ (W2_sd m ρ c)

/-- The sum of the labelled distances likewise. -/
theorem W4_sp (c : Dev nD) :
    (W4 m ρ c (Proc.devRef .tc main_v26) : FVec Ideal S_ .f32)
      = fun _ => Cert.Spec.spPart (xA m c) (Cert.Spec.tgCol (tA m c)) (Cert.Spec.ctOf (cenKer (F := Ideal) (xA m c) (tA m c)))
            (Cert.Spec.yyOf (cenKer (F := Ideal) (xA m c) (tA m c))) 0
          + Cert.Spec.spPart (xA m c) (Cert.Spec.tgCol (tA m c)) (Cert.Spec.ctOf (cenKer (F := Ideal) (xA m c) (tA m c)))
            (Cert.Spec.yyOf (cenKer (F := Ideal) (xA m c) (tA m c))) 1 := by
  rw [show W4 m ρ c (Proc.devRef .tc main_v26) = W3 m ρ c (Proc.devRef .tc main_v26) from W4_of_ne m ρ c main_v26 (by decide)]
  show StableHlo.after hostOps1 _ (Proc.devRef .tc main_v26) = _
  after_results
  exact halves_sum (W2 m ρ c (Proc.devRef .tc main_v20_1)) _ (W2_sp m ρ c)

/-! The four results at the last boundary, from the inputs as launched. -/
theorem W5_loss (c : Dev nD) :
    W5 m ρ c (Proc.devRef .tc main_v41) = fun _ => Cert.Spec.lossK (xA m c) (tA m c) (cenKer (F := Ideal) (xA m c) (tA m c)) := by
  show StableHlo.after hostOps2 _ (Proc.devRef .tc main_v41) = _
  after_results
  -- −((half 0 + half 1) / 65536)
  refine (congrArg (fun z : FVec Ideal S_ .f32 => Host.negf (Host.divf z (constant S_ .f32 0x47800000#32)))
    (halves_sum (W4 m ρ c (Proc.devRef .tc main_v36)) _ (W4_sl m ρ c))).trans ?_
  rfl
theorem W5_c (c : Dev nD) :
    W5 m ρ c (Proc.devRef .tc main_c) = constantI S_ 32 0#32 := by
  show StableHlo.after hostOps2 _ (Proc.devRef .tc main_c) = _
  after_results
theorem W5_ap (c : Dev nD) :
    W5 m ρ c (Proc.devRef .tc main_v45) = fun _ => Cert.Spec.apK (xA m c) (tA m c) (cenKer (F := Ideal) (xA m c) (tA m c)) := by
  show StableHlo.after hostOps2 _ (Proc.devRef .tc main_v45) = _
  after_results
  -- (64/63) · ((half 0 + half 1) / 65536)
  refine (congrArg (fun z : FVec Ideal S_ .f32 => mulf (constant S_ .f32 0x3F820821#32) (Host.divf z (constant S_ .f32 0x47800000#32)))
    (W4_sp m ρ c)).trans ?_
  rfl
theorem W5_an (c : Dev nD) :
    W5 m ρ c (Proc.devRef .tc main_v43) = fun _ => Cert.Spec.anK (xA m c) (tA m c) (cenKer (F := Ideal) (xA m c) (tA m c)) := by
  show StableHlo.after hostOps2 _ (Proc.devRef .tc main_v43) = _
  after_results
  -- ((all distances) − (labelled distances)) / (65536 · 1023)
  refine (congrArg₂ (fun y z : FVec Ideal S_ .f32 => Host.divf (subf y z) (constant S_ .f32 0x4C7FC000#32))
    (W4_sd m ρ c) (W4_sp m ρ c)).trans ?_
  rfl

end Cert.KernelIdeal.KHostB

end
-- ==== Proof.LibExtReal.lean ====
/-
  Extended reals that are real numbers.  The extended reals carry two infinities, and the distributive law
  x * (a + b) = x * a + x * b fails there (take x = +∞, a = 1, b = -1).  It does hold when every term is a
  real number, and being a real number is preserved by finite sums, products, maxima, and by quotients whose
  divisor is a real number other than zero.  This file collects those facts, and the one identity built on
  them: a sum over 2n terms whose second half multiplies one fixed finite factor splits as the first half's sum
  plus that factor times the sum of the second half's other factors.
-/
import Idealize.ShloMosaic.PureOps.Ideal.Laws

namespace Cert.ExtReal

open Idealize.ShloMosaic

/-- The extended real `x` is (the image of) a real number. -/
def IsFin (x : EReal) : Prop := ∃ r : ℝ, x = (r : EReal)

theorem IsFin.coe (r : ℝ) : IsFin (r : EReal) := ⟨r, rfl⟩

theorem IsFin.zero : IsFin 0 := ⟨0, EReal.coe_zero.symm⟩

theorem IsFin.one : IsFin 1 := ⟨1, EReal.coe_one.symm⟩

theorem IsFin.add {x y : EReal} (hx : IsFin x) (hy : IsFin y) : IsFin (x + y) := by
  obtain ⟨a, rfl⟩ := hx; obtain ⟨b, rfl⟩ := hy
  exact ⟨a + b, (EReal.coe_add a b).symm⟩

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.max {x y : EReal} (hx : IsFin x) (hy : IsFin y) : IsFin (max x y) := by
  rcases le_total x y with h | h
  · rw [max_eq_right h]; exact hy
  · rw [max_eq_left h]; exact hx

/-- A finite sum of real numbers is a real number. -/
theorem IsFin.sum {ι : Type} (s : Finset ι) (f : ι → EReal) : (∀ i ∈ s, IsFin (f i)) → IsFin (∑ i ∈ s, f i) := by
  classical
  refine Finset.induction_on s (fun _ => ?_) (fun a s ha ih h => ?_)
  · rw [Finset.sum_empty]; exact IsFin.zero
  · rw [Finset.sum_insert ha]
    exact (h a (Finset.mem_insert_self a s)).add (ih fun i hi => h i (Finset.mem_insert_of_mem hi))

/-- The quotient of two real numbers, the divisor not zero, is a real number. -/
theorem IsFin.div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- The larger of anything and one is not zero. -/
theorem max_one_ne_zero (x : EReal) : max x 1 ≠ 0 :=
  (lt_of_lt_of_le zero_lt_one (le_max_right x 1)).ne'

/-- Among real numbers multiplication distributes over addition. -/
theorem mul_add_of_isFin {x y z : EReal} (hx : IsFin x) (hy : IsFin y) (hz : IsFin z) :
    x * (y + z) = x * y + x * z := by
  obtain ⟨a, rfl⟩ := hx; obtain ⟨b, rfl⟩ := hy; obtain ⟨c, rfl⟩ := hz
  exact_mod_cast mul_add a b c

/-- A real factor moves inside a finite sum of real numbers. -/
theorem mul_sum_of_isFin {ι : Type} (s : Finset ι) (x : EReal) (f : ι → EReal) (hx : IsFin x) :
    (∀ i ∈ s, IsFin (f i)) → x * ∑ i ∈ s, f i = ∑ i ∈ s, x * f i := by
  classical
  refine Finset.induction_on s (fun _ => ?_) (fun a s ha ih h => ?_)
  · rw [Finset.sum_empty, Finset.sum_empty, mul_zero]
  · rw [Finset.sum_insert ha, Finset.sum_insert ha,
      mul_add_of_isFin hx (h a (Finset.mem_insert_self a s))
        (IsFin.sum s f fun i hi => h i (Finset.mem_insert_of_mem hi)),
      ih fun i hi => h i (Finset.mem_insert_of_mem hi)]

/-- A sum of products over `n + n` terms, whose first `n` left factors are `u` and whose last `n` left factors
    are all the one real number `x`, the right factors being `v` then the real numbers `w`: it is the sum of
    `u d * v d` plus `x` times the sum of `w`. -/
theorem sum_two_halves {n : ℕ} (l r : Fin (n + n) → EReal) (u v w : Fin n → EReal) (x : EReal)
    (hl1 : ∀ d, l (Fin.castAdd n d) = u d) (hl2 : ∀ d, l (Fin.natAdd n d) = x)
    (hr1 : ∀ d, r (Fin.castAdd n d) = v d) (hr2 : ∀ d, r (Fin.natAdd n d) = w d)
    (hx : IsFin x) (hw : ∀ d, IsFin (w d)) :
    ∑ k, l k * r k = (∑ d, u d * v d) + x * ∑ d, w d := by
  rw [Fin.sum_univ_add, mul_sum_of_isFin Finset.univ x w hx fun d _ => hw d]
  congr 1
  · exact Finset.sum_congr rfl fun d _ => by rw [hl1, hr1]
  · exact Finset.sum_congr rfl fun d _ => by rw [hl2, hr2]

end Cert.ExtReal
-- ==== Proof.PreCen.lean ====
/-
  What the precondition gives, over the extended reals.  The precondition is one truth value: the conjunction of
  three "for every entry" statements, (1) |x| < +∞ for every input entry, (2) 0 ≤ label < 1024 (as signed words) for
  every label, (3) count ≥ 1 for every class, the count being the scatter-add of ones over the labels that both
  programs compute.  From (1) every input entry is a real number; from (2) every label, read unsigned, is below
  1024; from (3) no class is empty, so the maximum of a count with one is the count itself and the guarded centres
  (row sums over max(count, 1)) are the plain ones (row sums over count); and since the row sums are finite sums of
  real numbers and the counts are real numbers other than zero, every centre is a real number.
-/
import proofs.«408375_j76639396429875_3_alg».proof.Pre_finite_inputs
import proofs.«408375_j76639396429875_3_alg».proof.Proof.Gen.Pre_finite_inputs
import proofs.«408375_j76639396429875_3_alg».proof.Proof.KCen
import proofs.«408375_j76639396429875_3_alg».proof.Proof.RefRead
import proofs.«408375_j76639396429875_3_alg».proof.Proof.Spec
import proofs.«408375_j76639396429875_3_alg».proof.Proof.LibExtReal
import Idealize.ShloMosaic.PureOps.Ideal.Laws
import Idealize.ShloMosaic.Lib.ReduceAll
import Idealize.ShloMosaic.Lib.StableHlo.Predicate

noncomputable section

open scoped BigOperators
open Idealize.ShloMosaic Idealize.ShloMosaic.TcCoe Idealize.SL.Sem Idealize.ShloMosaic.ValueIdx

namespace Cert.PreCen

open Cert.KernelIdeal.KCen

/-- The precondition, as the claims state it of a program's two argument arrays. -/
abbrev Pre (x : Cert.Spec.SX.Idx → EReal) (tg : Cert.Spec.ST1.Idx → BitVec 32) : Prop :=
  Cert.Pre_finite_inputs.fn (F := Ideal) x tg = fun _ => 1#1

open Cert.ExtReal

/-! ## The literals the precondition spells, in one place -/

/-- The pattern 0x7F800000 is +∞. -/
theorem lit_inf : Ideal.ofBits .f32 0x7F800000#32 = (⊤ : EReal) := by
  simp [Ideal.ofBits, Ideal.ieee]

/-- The pattern 0x3F800000 is the real number 1. -/
theorem lit_one : Ideal.ofBits .f32 0x3F800000#32 = (1 : EReal) := by
  simp [Ideal.ofBits, Ideal.ieee, -EReal.coe_mul]
  norm_num

/-- The pattern 0 is the real number 0. -/
theorem lit_zero : Ideal.ofBits .f32 0x00000000#32 = (0 : EReal) := by
  simp [Ideal.ofBits, Ideal.ieee]

/-! ## Comparisons read back -/

/-- An ordered "less than" that came out true is the strict order of the extended reals. -/
theorem lt_of_cmp_olt {a b : EReal} (h : Ideal.cmp .olt a b = 1#1) : a < b :=
  of_decide_eq_true ((StableHlo.Predicate.ofBool_eq_one_iff _).1 h)

/-- An ordered "greater or equal" that came out true is the order of the extended reals. -/
theorem le_of_cmp_oge {a b : EReal} (h : Ideal.cmp .oge a b = 1#1) : b ≤ a :=
  of_decide_eq_true ((StableHlo.Predicate.ofBool_eq_one_iff _).1 h)

/-- An extended real whose absolute value max(a, −a) is below +∞ is a real number. -/
theorem isFin_of_abs_lt_top (a : EReal) (h : max a (-a) < ⊤) : IsFin a := by
  induction a using EReal.rec with
  | bot => simp at h
  | coe r => exact ⟨r, rfl⟩
  | top => simp at h

/-- A 32-bit word that is, read signed, at least 0 and below 1024 is, read unsigned, below 1024. -/
theorem toNat_lt_of_signed_range (t : BitVec 32) (h1 : IntOp.cmpi .sge t 0#32 = 1#1)
    (h2 : IntOp.cmpi .slt t 1024#32 = 1#1) : t.toNat < 1024 := by
  unfold IntOp.cmpi at h1 h2
  simp only [StableHlo.Predicate.ofBool_eq_one_iff, BitVec.sle, BitVec.slt, decide_eq_true_eq] at h1 h2
  have e0 : (0#32 : BitVec 32).toInt = 0 := by decide
  have e1 : (1024#32 : BitVec 32).toInt = 1024 := by decide
  rw [e0] at h1
  rw [e1] at h2
  rw [BitVec.toInt_eq_toNat_cond] at h1 h2
  have hlt := t.isLt
  by_cases hc : 2 * t.toNat < 2 ^ 32
  · rw [if_pos hc] at h2
    omega
  · rw [if_neg hc] at h1
    omega

/-! ## The scatter-add of real numbers -/

/-- A scatter-add whose operand and updates are all real numbers has only real entries: each is an operand
    entry plus a finite sum of update entries. -/
theorem scatterAdd_isFin {s si su : Shape} (d : ScatterDims s si su) {w : Nat} (v : s.Idx → EReal) (idx : IVec si w)
    (upd : su.Idx → EReal) (hv : ∀ i, IsFin (v i)) (hu : ∀ j, IsFin (upd j)) (i : s.Idx) :
    IsFin (Ideal.hostScatterAdd d v idx upd i) := by
  unfold Ideal.hostScatterAdd
  exact (hv i).add (IsFin.sum _ _ fun j _ => hu j)

/-! ## Entries of the operations the precondition uses -/

/-- A comparison of two arrays, read at an entry. -/
theorem cmpf_apply {s : Shape} (p : CmpFPredicate) (a b : FVec Ideal s .f32) (i : s.Idx) :
    cmpf p a b i = Ideal.cmp p (a i) (b i) := rfl

/-- A constant broadcast to any shape, read at an entry. -/
theorem bcast_const_apply {t : Shape} (h : (⟨0, ![]⟩ : Shape).BroadcastsInDim t ![]) (b : BitVec 32) (i : t.Idx) :
    broadcastInDim t ![] h (constant (F := Ideal) ⟨0, ![]⟩ .f32 b) i = Ideal.ofBits .f32 b := rfl

/-- The absolute value of an array, read at an entry. -/
theorem absf_apply {s : Shape} (a : FVec Ideal s .f32) (i : s.Idx) : Host.absf a i = max (a i) (-(a i)) := rfl

/-! ## The precondition, conjunct by conjunct -/

instance : Subsingleton Cert.Pre_finite_inputs.S_.Idx := ⟨fun a b => funext fun d => d.elim0⟩

variable (x : Cert.Spec.SX.Idx → EReal) (tg : Cert.Spec.ST1.Idx → BitVec 32)

/-- The row count as the precondition spells it: a scatter-add of ones, over the labels, into zeros. -/
def cnt : (⟨1, ![1024]⟩ : Shape).Idx → EReal :=
  Host.scatterAdd (F := Ideal) Cert.Pre_finite_inputs.scatter_S1024_S65536x1_S65536_n_0_0_1
    (broadcastInDim Cert.Pre_finite_inputs.S1024 ![] Cert.Pre_finite_inputs.Facts.bcast_S_S1024
      (constant Cert.Pre_finite_inputs.S_ .f32 0x00000000#32))
    (broadcastInDim Cert.Pre_finite_inputs.S65536x1 ![0] Cert.Pre_finite_inputs.Facts.bcast_S65536_S65536x1_0 tg)
    (broadcastInDim Cert.Pre_finite_inputs.S65536 ![] Cert.Pre_finite_inputs.Facts.bcast_S_S65536
      (constant Cert.Pre_finite_inputs.S_ .f32 0x3F800000#32))

/-- The precondition is a conjunction of three "for all entries": |x| < +∞, 0 ≤ label < 1024 (signed), and
    count ≥ 1. -/
theorem pre_split (h : Pre x tg) :
    (∀ i, Ideal.cmp .olt (max (x i) (-(x i))) (Ideal.ofBits .f32 0x7F800000#32) = 1#1)
    ∧ (∀ i, IntOp.andi (IntOp.cmpi .sge (tg i) 0#32) (IntOp.cmpi .slt (tg i) 1024#32) = 1#1)
    ∧ (∀ i, Ideal.cmp .oge (cnt tg i) (Ideal.ofBits .f32 0x3F800000#32) = 1#1) := by
  have h0 := congrFun h ValueIdx.ix0
  dsimp only [Cert.Pre_finite_inputs.fn, Cert.Pre_finite_inputs.fn_part1] at h0
  obtain ⟨h12, h3⟩ := IntOp.andi_eq_one.1 h0
  obtain ⟨h1, h2⟩ := IntOp.andi_eq_one.1 h12
  refine ⟨fun i => ?_, fun i => Host.reduce_andi_all _ _ _ _ _ h2 i, fun i => ?_⟩
  · have h1' := Host.reduce_andi_all _ _ _ _ _ h1 i
    rw [cmpf_apply, bcast_const_apply, absf_apply] at h1'
    exact h1'
  · have h3' := Host.reduce_andi_all _ _ _ _ _ h3 i
    rw [cmpf_apply, bcast_const_apply] at h3'
    exact h3'

/-- Every input entry is a real number. -/
theorem pre_x (h : Pre x tg) : ∀ i, ∃ r : ℝ, x i = (r : EReal) := fun i => by
  have h1 := lt_of_cmp_olt ((pre_split x tg h).1 i)
  rw [lit_inf] at h1
  exact isFin_of_abs_lt_top (x i) h1

/-- Every label is a class number. -/
theorem pre_t (h : Pre x tg) : ∀ i, (tg i).toNat < 1024 := fun i => by
  obtain ⟨h1, h2⟩ := IntOp.andi_eq_one.1 ((pre_split x tg h).2.1 i)
  exact toNat_lt_of_signed_range (tg i) h1 h2

/-- Every class has at least one row. -/
theorem one_le_cnt (h : Pre x tg) : ∀ i, (1 : EReal) ≤ cnt tg i := fun i => by
  have h3 := le_of_cmp_oge ((pre_split x tg h).2.2 i)
  rw [lit_one] at h3
  exact h3

/-- Every count is a real number: a sum of ones added to zero. -/
theorem cnt_isFin : ∀ i, IsFin (cnt tg i) := fun i => by
  refine scatterAdd_isFin _ _ _ _ (fun i => ?_) (fun j => ?_) i
  · show IsFin (Ideal.ofBits .f32 0x00000000#32)
    rw [lit_zero]; exact IsFin.zero
  · show IsFin (Ideal.ofBits .f32 0x3F800000#32)
    rw [lit_one]; exact IsFin.one

/-! ## The three programs spell the same count and the same row sums -/

/-- The reference's count is that count. -/
theorem cnt_eq_ref : Cert.ReferenceIdeal.ReadP.val_main_v3 (F := Ideal) tg = cnt tg := rfl

/-- The tiled program's count is that count. -/
theorem cnt_eq_ker : cntKer (F := Ideal) tg = cnt tg := rfl

/-- The two programs' row sums are one term. -/
theorem sum_eq : sumKer (F := Ideal) x tg = Cert.ReferenceIdeal.ReadP.val_main_v6 (F := Ideal) x tg := rfl

/-- Every class has at least one row, said of the reference's own count. -/
theorem pre_cnt (h : Pre x tg) : ∀ k, (1 : EReal) ≤ Cert.ReferenceIdeal.ReadP.val_main_v3 (F := Ideal) tg k := fun k => by
  rw [cnt_eq_ref]; exact one_le_cnt x tg h k

/-! ## The centres -/

open Cert.ReferenceIdeal.ReadP in
/-- The reference's divisor at an entry of class j's row is the count of class j. -/
theorem v8_apply (i : Cert.ReferenceIdeal.S1024x128.Idx) :
    val_main_v8 (F := Ideal) tg i = cnt tg (idx_main_v7 (idx_main_v8 i)) := by
  rw [val_main_v8_apply, val_main_v7_apply, cnt_eq_ref]

open Cert.ReferenceIdeal.ReadP in
/-- Every entry of the reference's centres is a real number. -/
theorem pre_cen_real (h : Pre x tg) :
    ∀ i, ∃ r : ℝ, Cert.ReferenceIdeal.ReadP.val_main_v9 (F := Ideal) x tg i = (r : EReal) := fun i => by
  rw [val_main_v9_apply, Ideal.hostDivf_def]
  refine IsFin.div ?_ ?_ ?_
  · -- the row sums: zeros plus finitely many input entries
    refine scatterAdd_isFin _ _ _ _ (fun k => ?_) (fun j => pre_x x tg h j) i
    show IsFin (Ideal.ofBits .f32 0x00000000#32)
    rw [lit_zero]; exact IsFin.zero
  · rw [v8_apply]; exact cnt_isFin tg _
  · rw [v8_apply]; exact (lt_of_lt_of_le zero_lt_one (one_le_cnt x tg h _)).ne'

/-- A count that is at least one is its own maximum with one. -/
theorem max_cnt (h : Pre x tg) :
    maximumf (cntKer (F := Ideal) tg)
        (broadcastInDim Cert.KernelIdeal.S1024 ![] Cert.KernelIdeal.Gen.bcast_S_S1024
          (constant Cert.KernelIdeal.S_ .f32 0x3F800000#32))
      = Cert.ReferenceIdeal.ReadP.val_main_v3 (F := Ideal) tg := by
  funext i
  show max (cnt tg i) (broadcastInDim Cert.KernelIdeal.S1024 ![] Cert.KernelIdeal.Gen.bcast_S_S1024
      (constant (F := Ideal) Cert.KernelIdeal.S_ .f32 0x3F800000#32) i) = cnt tg i
  rw [bcast_const_apply, lit_one]
  exact max_eq_left (one_le_cnt x tg h i)

/-- Under the precondition no class is empty, so the tiled program's guarded centres are the reference's. -/
theorem pre_cenKer (h : Pre x tg) :
    cenKer (F := Ideal) x tg = Cert.ReferenceIdeal.ReadP.val_main_v9 (F := Ideal) x tg := by
  unfold cenKer
  rw [max_cnt x tg h]
  rfl

end Cert.PreCen

end
-- ==== Proof.RefMaxMin.lean ====
/-
  The largest and the smallest entry of a 65536 × 1024 array of extended reals, as a reduction computes them:
  a fold of max from −∞ (of min from +∞) over every index of the array. The fold's order is immaterial, every
  index takes part (the result has a single entry), −∞ is below and +∞ above everything, so the fold is the
  supremum (infimum) of the entries over all pairs (row, column).
-/
import proofs.«408375_j76639396429875_3_alg».proof.Proof.RefRead
import Idealize.ShloMosaic.PureOps.Reduce
import Idealize.ShloMosaic.PureOps.Ideal.Laws
import Idealize.ShloMosaic.Lib.ValueIdx
import Mathlib.Data.Finset.Fold

noncomputable section

namespace Cert.ReferenceIdeal.RefMaxMin

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## The two infinities' patterns -/

/-- The pattern of −∞ denotes the least extended real. -/
theorem ofBits_neg_inf : Ideal.ofBits .f32 0xFF800000#32 = ⊥ := by simp [Ideal.ofBits, Ideal.ieee]
/-- The pattern of +∞ denotes the greatest extended real. -/
theorem ofBits_pos_inf : Ideal.ofBits .f32 0x7F800000#32 = ⊤ := by simp [Ideal.ofBits, Ideal.ieee]

/-! ## Folds over every index are the extremes over all pairs -/

/-- A fold of max from −∞ over every index of the array is the supremum over all (row, column). -/
theorem fold_max_all (D : S65536x1024.Idx → EReal) :
    (Finset.univ : Finset S65536x1024.Idx).fold max ⊥ D
      = Finset.univ.sup fun q : Fin 65536 × Fin 1024 => D (ix2 q.1 q.2) := by
  apply le_antisymm
  · refine (Finset.fold_max_le _).mpr ⟨bot_le, fun i _ => ?_⟩
    have h := Finset.le_sup (f := fun q : Fin 65536 × Fin 1024 => D (ix2 q.1 q.2)) (Finset.mem_univ (i 0, i 1))
    rw [eq_ix2 i]
    exact h
  · refine Finset.sup_le fun q _ => ?_
    exact (Finset.le_fold_max _).mpr (Or.inr ⟨ix2 q.1 q.2, Finset.mem_univ _, le_rfl⟩)

/-- A fold of min from +∞ over every index of the array is the infimum over all (row, column). -/
theorem fold_min_all (D : S65536x1024.Idx → EReal) :
    (Finset.univ : Finset S65536x1024.Idx).fold min ⊤ D
      = Finset.univ.inf fun q : Fin 65536 × Fin 1024 => D (ix2 q.1 q.2) := by
  apply le_antisymm
  · refine Finset.le_inf fun q _ => ?_
    exact (Finset.fold_min_le _).mpr (Or.inr ⟨ix2 q.1 q.2, Finset.mem_univ _, le_rfl⟩)
  · refine (Finset.le_fold_min _).mpr ⟨le_top, fun i _ => ?_⟩
    have h := Finset.inf_le (f := fun q : Fin 65536 × Fin 1024 => D (ix2 q.1 q.2)) (Finset.mem_univ (i 0, i 1))
    rw [eq_ix2 i]
    exact h

/-! ## The reductions over both axes -/

/-- The reduction with a maximum body over both axes, from −∞: the supremum of the entries. -/
theorem reduce_max_all (D : S65536x1024.Idx → EReal) :
    Host.reduce (FloatOps.maximumf (F := Ideal) (φ := .f32)) D (val_main_cst_5 (F := Ideal))
        reducesTo_S65536x1024_S_d0_1 h_S_
      = fun _ => Finset.univ.sup fun q : Fin 65536 × Fin 1024 => D (ix2 q.1 q.2) := by
  funext j
  rw [Host.reduce_eq_fold, Finset.filter_true_of_mem fun i _ => funext fun b => b.elim0]
  show Finset.fold max (Ideal.ofBits .f32 0xFF800000#32) D Finset.univ = _
  rw [ofBits_neg_inf]
  exact fold_max_all D

/-- The reduction with a minimum body over both axes, from +∞: the infimum of the entries. -/
theorem reduce_min_all (D : S65536x1024.Idx → EReal) :
    Host.reduce (FloatOps.minimumf (F := Ideal) (φ := .f32)) D (val_main_cst_6 (F := Ideal))
        reducesTo_S65536x1024_S_d0_1 h_S_
      = fun _ => Finset.univ.inf fun q : Fin 65536 × Fin 1024 => D (ix2 q.1 q.2) := by
  funext j
  rw [Host.reduce_eq_fold, Finset.filter_true_of_mem fun i _ => funext fun b => b.elim0]
  show Finset.fold min (Ideal.ofBits .f32 0x7F800000#32) D Finset.univ = _
  rw [ofBits_pos_inf]
  exact fold_min_all D

/-! ## The two stages of the program -/

theorem val_main_v27_eq_sup (x0 : (⟨S65536x128, .f32⟩ : BufTy).Contents (Elt Ideal))
    (x1 : (⟨S65536, .i32⟩ : BufTy).Contents (Elt Ideal)) :
    val_main_v27 (F := Ideal) x0 x1
      = fun _ => Finset.univ.sup fun q : Fin 65536 × Fin 1024 => val_main_v23 (F := Ideal) x0 x1 (ix2 q.1 q.2) := by
  unfold val_main_v27
  exact reduce_max_all _

theorem val_main_v28_eq_inf (x0 : (⟨S65536x128, .f32⟩ : BufTy).Contents (Elt Ideal))
    (x1 : (⟨S65536, .i32⟩ : BufTy).Contents (Elt Ideal)) :
    val_main_v28 (F := Ideal) x0 x1
      = fun _ => Finset.univ.inf fun q : Fin 65536 × Fin 1024 => val_main_v23 (F := Ideal) x0 x1 (ix2 q.1 q.2) := by
  unfold val_main_v28
  exact reduce_min_all _

end Cert.ReferenceIdeal.RefMaxMin

end
-- ==== Proof.RefValue.lean ====
/-
  The reference's three float results, operation by operation, as the formulas of the specification over its own
  centres.  Its distance array is (xxᵢ + yyⱼ) − 2·Σ_d x_{i,d}·cen_{j,d}; for a label that is a class number the
  column lookup's negative-label wrap does not fire, both range tests hold, the looked-up entry (not the fill) is
  taken and the clamp is the identity, so the lookup returns the labelled column; the global maximum and minimum are
  the supremum and infimum over all pairs; the rest is entrywise arithmetic, and sums whose initial value is zero.
-/
import proofs.«408375_j76639396429875_3_alg».proof.Proof.RefRead
import proofs.«408375_j76639396429875_3_alg».proof.Proof.Spec
import proofs.«408375_j76639396429875_3_alg».proof.Proof.RefMaxMin
import Idealize.ShloMosaic.PureOps.Ideal.Laws
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.ReadP

variable (x : Cert.Spec.SX.Idx → EReal) (tg : Cert.Spec.ST1.Idx → BitVec 32)

/-- The squared distance array, entry by entry. -/
theorem dist23 (i : Fin 65536) (j : Fin 1024) :
    val_main_v23 (F := Ideal) x tg (ix2 i j) = Cert.Spec.distR x (val_main_v9 (F := Ideal) x tg) i j := by
  have e11 : ∀ k : Fin 128, idx_main_v11 (idx_main_v12 (idx_main_v16 (ix2 i j))) k = ix2 i k := fun k =>
    funext fun a => Fin.ext (by match a with | ⟨0, _⟩ => rfl | ⟨1, _⟩ => rfl)
  have e14 : ∀ k : Fin 128, idx_main_v14 (idx_main_v15 (idx_main_v17 (ix2 i j))) k = ix2 j k := fun k =>
    funext fun a => Fin.ext (by match a with | ⟨0, _⟩ => rfl | ⟨1, _⟩ => rfl)
  have el : ∀ k : Fin 128, lidx_main_v20 (ix2 i j) k = ix2 i k := fun k =>
    funext fun a => Fin.ext (by match a with | ⟨0, _⟩ => rfl | ⟨1, _⟩ => rfl)
  have er : ∀ k : Fin 128, idx_main_v19 (ridx_main_v20 (ix2 i j) k) = ix2 j k := fun k =>
    funext fun a => Fin.ext (by match a with | ⟨0, _⟩ => rfl | ⟨1, _⟩ => rfl)
  rw [val_main_v23_apply, val_main_v18_apply, val_main_v16_apply, val_main_v12_apply, val_main_v11_apply,
    val_main_v17_apply, val_main_v15_apply, val_main_v14_apply, val_main_v22_apply, val_main_v21_apply, val_main_v20_apply]
  simp only [val_main_v10_apply, val_main_v13_apply, val_main_v19_apply, val_main_cst_2_apply, val_main_cst_3_apply,
    val_main_cst_4_apply, e11, e14, el, er, Ideal.ofBits_def, Ideal.ofBits_zero_f32, zero_add,
    Ideal.addf_def, Ideal.subf_def, Ideal.mulf_def]
  rfl

/-! ## A label word below 1024, compared and clamped -/

theorem word_toInt {t : BitVec 32} (h : t.toNat < 1024) : t.toInt = (t.toNat : Int) :=
  BitVec.toInt_eq_toNat_of_lt (by omega)

/-- Such a word is not negative … -/
theorem word_slt {t : BitVec 32} (h : t.toNat < 1024) : IntOp.cmpi .slt t 0#32 = 0#1 := by
  refine eq_zero_of_ne_one fun e => ?_
  have := IntOp.cmpi_slt.1 e
  rw [word_toInt h] at this
  simp at this
  omega

/-- … it is at least 0 … -/
theorem word_sge {t : BitVec 32} (h : t.toNat < 1024) : IntOp.cmpi .sge t 0#32 = 1#1 := by
  refine IntOp.cmpi_sge.2 ?_
  rw [word_toInt h]
  simp

/-- … and at most 1023 … -/
theorem word_sle {t : BitVec 32} (h : t.toNat < 1024) : IntOp.cmpi .sle t 1023#32 = 1#1 := by
  refine IntOp.cmpi_sle.2 ?_
  rw [word_toInt h]
  have : (1023#32 : BitVec 32).toInt = 1023 := by decide
  rw [this]
  omega

/-- … and clamping it into 0..1023 leaves it unchanged. -/
theorem word_clamp {t : BitVec 32} (h : t.toNat < 1024) : min t.toInt.toNat (1024 - 1) = t.toNat % 1024 := by
  rw [word_toInt h, Int.toNat_natCast, Nat.mod_eq_of_lt h]
  omega

/-! ## The label column as the gather reads it -/

/-- The start-index array holds each row's label: the wrap-around of a negative label is not taken. -/
theorem labels5 (ht : ∀ i, (tg i).toNat < 1024) (k : S65536x1x1.Idx) :
    val_main_call0_v5 (F := Ideal) tg k = tg (ix1 (n := 65536) (k 0)) := by
  have e24 : idx_main_v24 (idx_main_call0_v5 k) = ix1 (n := 65536) (k 0) :=
    funext fun a => Fin.ext (by
      match a with
      | ⟨0, _⟩ =>
        have h1 : (k 1).val < 1 := (k 1).isLt
        have h2 : (k 2).val < 1 := (k 2).isLt
        show (((k 0).val * 1 + (k 1).val) * 1 + (k 2).val) / 1 = (k 0).val
        omega)
  rw [val_main_call0_v5_apply, val_main_call0_v4_apply, val_main_call0_v1_apply, val_main_v24_apply,
    val_main_call0_v0_apply, val_main_call0_c_apply, e24, word_slt (ht _), select_zero]

/-- Both range checks hold at every label. -/
theorem inrange11 (ht : ∀ i, (tg i).toNat < 1024) (k : S65536x1x1.Idx) :
    val_main_call0_v11 (F := Ideal) tg k = 1#1 := by
  rw [val_main_call0_v11_apply, val_main_call0_v7_apply, val_main_call0_v10_apply, labels5 tg ht,
    val_main_call0_v6_apply, val_main_call0_c_2_apply, val_main_call0_v9_apply, val_main_call0_v8_apply,
    val_main_call0_c_1_apply, word_sge (ht _), word_sle (ht _)]
  rfl

/-- A left fold of `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- So the reduction of the checks over the index vector's axis is 1 in every row. -/
theorem inrange12 (ht : ∀ i, (tg i).toNat < 1024) (j : S65536x1.Idx) :
    val_main_call0_v12 (F := Ideal) tg j = 1#1 := by
  unfold val_main_call0_v12
  rw [Host.reduce_eq_foldl]
  exact foldl_andi_one _ (inrange11 tg ht) _

/-! ## The gather of one column per row -/

section Gather
variable {α : Type} (idx : IVec S65536x1x1 32) (i : Fin 65536)

/-- On the batching axis the operand index is the row. -/
theorem gather_row :
    (gather_S65536x1024_S65536x1x1_S65536x1_n_1_0_0_1_2_11.operandIdx (ix2 i (0 : Fin 1)) idx 0).val = i.val := by
  show gather_S65536x1024_S65536x1x1_S65536x1_n_1_0_0_1_2_11.start (ix2 i (0 : Fin 1)) idx 0
    + gather_S65536x1024_S65536x1x1_S65536x1_n_1_0_0_1_2_11.batchCoord (ix2 i (0 : Fin 1)) 0
    + gather_S65536x1024_S65536x1x1_S65536x1_n_1_0_0_1_2_11.offCoord (ix2 i (0 : Fin 1)) 0 = i.val
  rw [GatherDims.start_batching _ _ _ _ (List.mem_singleton.mpr rfl),
    GatherDims.offCoord_eq_zero _ _ _ (fun h => ((GatherDims.mem_sKept _ _).mp h).2 (List.mem_singleton.mpr rfl))]
  unfold GatherDims.batchCoord
  rw [dif_pos (show (0 : Fin 2) ∈ gather_S65536x1024_S65536x1x1_S65536x1_n_1_0_0_1_2_11.operandBatchingDims from
    List.mem_singleton.mpr rfl)]
  simp only [Nat.zero_add, Nat.add_zero]
  rfl

/-- On the collapsed axis it is the row's start index, read signed and clamped into 0..1023. -/
theorem gather_column :
    (gather_S65536x1024_S65536x1x1_S65536x1_n_1_0_0_1_2_11.operandIdx (ix2 i (0 : Fin 1)) idx 1).val
      = min (idx (ix3 i (0 : Fin 1) (0 : Fin 1))).toInt.toNat (1024 - 1) := by
  show gather_S65536x1024_S65536x1x1_S65536x1_n_1_0_0_1_2_11.start (ix2 i (0 : Fin 1)) idx 1
    + gather_S65536x1024_S65536x1x1_S65536x1_n_1_0_0_1_2_11.batchCoord (ix2 i (0 : Fin 1)) 1
    + gather_S65536x1024_S65536x1x1_S65536x1_n_1_0_0_1_2_11.offCoord (ix2 i (0 : Fin 1)) 1 = _
  rw [GatherDims.batchCoord_eq_zero _ _ _ (show (1 : Fin 2) ∉ [(0 : Fin 2)] by decide),
    GatherDims.offCoord_eq_zero _ _ _ (fun h => ((GatherDims.mem_sKept _ _).mp h).1 (List.mem_singleton.mpr rfl))]
  unfold GatherDims.start
  rw [dif_pos (show (1 : Fin 2) ∈ gather_S65536x1024_S65536x1x1_S65536x1_n_1_0_0_1_2_11.startIndexMap from
    List.mem_singleton.mpr rfl)]
  have hsi : gather_S65536x1024_S65536x1x1_S65536x1_n_1_0_0_1_2_11.siIdx (ix2 i (0 : Fin 1))
      ⟨List.idxOf (1 : Fin 2) gather_S65536x1024_S65536x1x1_S65536x1_n_1_0_0_1_2_11.startIndexMap,
        List.idxOf_lt_length_iff.2 (List.mem_singleton.mpr rfl)⟩ = ix3 i (0 : Fin 1) (0 : Fin 1) := by
    funext b; refine Fin.ext ?_
    match b with
    | ⟨0, _⟩ => rfl
    | ⟨1, _⟩ => rfl
    | ⟨2, _⟩ => rfl
  rw [hsi]
  rfl

/-- The gather at row `i`: the operand at `(i, c)`, `c` the clamped start index. -/
theorem gather_col (v : S65536x1024.Idx → α) (c : Fin 1024)
    (hc : min (idx (ix3 i (0 : Fin 1) (0 : Fin 1))).toInt.toNat (1024 - 1) = c.val) :
    Host.gather gather_S65536x1024_S65536x1x1_S65536x1_n_1_0_0_1_2_11 v idx (ix2 i (0 : Fin 1)) = v (ix2 i c) := by
  unfold Host.gather
  congr 1
  funext a
  refine Fin.ext ?_
  match a with
  | ⟨0, _⟩ => exact gather_row idx i
  | ⟨1, _⟩ => exact (gather_column idx i).trans hc

end Gather

/-- The labelled column's distance, row by row. -/
theorem pos26 (ht : ∀ i, (tg i).toNat < 1024) (i : Fin 65536) :
    val_main_v26 (F := Ideal) x tg (ix1 i)
      = Cert.Spec.posR x (Cert.Spec.tOf tg) (val_main_v9 (F := Ideal) x tg) i := by
  have e26 : idx_main_v26 (ix1 i) = ix2 i (0 : Fin 1) :=
    funext fun a => Fin.ext (by match a with | ⟨0, _⟩ => exact Nat.div_one _ | ⟨1, _⟩ => rfl)
  rw [val_main_v26_apply, val_main_v25_apply, e26, inrange12 tg ht, select_one]
  unfold val_main_call0_v13
  rw [gather_col _ i _ (Cert.Spec.tOf tg i) (by rw [labels5 tg ht]; exact word_clamp (ht _)), dist23]
  rfl

/-! ## The extremes and the base -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- The largest distance. -/
theorem max27 (j : S_.Idx) :
    val_main_v27 (F := Ideal) x tg j = Cert.Spec.mxR x (val_main_v9 (F := Ideal) x tg) := by
  rw [Cert.ReferenceIdeal.RefMaxMin.val_main_v27_eq_sup]
  exact congrArg Finset.univ.sup (funext fun q => dist23 x tg q.1 q.2)

/-- The smallest distance. -/
theorem min28 (j : S_.Idx) :
    val_main_v28 (F := Ideal) x tg j = Cert.Spec.mnR x (val_main_v9 (F := Ideal) x tg) := by
  rw [Cert.ReferenceIdeal.RefMaxMin.val_main_v28_eq_inf]
  exact congrArg Finset.univ.inf (funext fun q => dist23 x tg q.1 q.2)

/-- B = (max + min)/2. -/
theorem base30 (j : S_.Idx) :
    val_main_v30 (F := Ideal) x tg j = Cert.Spec.baseR x (val_main_v9 (F := Ideal) x tg) := by
  rw [val_main_v30_apply, val_main_v29_apply, max27, min28, val_main_cst_7_apply]
  rfl

/-! ## The rows' log ratios -/

theorem lr43 (ht : ∀ i, (tg i).toNat < 1024) (i : Fin 65536) :
    val_main_v43 (F := Ideal) x tg (ix1 i)
      = Cert.Spec.lrR x (Cert.Spec.tOf tg) (val_main_v9 (F := Ideal) x tg) i := by
  have e41 : ∀ k : Fin 1024, idx_main_v41 (ix1 i) k = ix2 i k := fun k =>
    funext fun a => Fin.ext (by match a with | ⟨0, _⟩ => rfl | ⟨1, _⟩ => rfl)
  rw [val_main_v43_apply, val_main_v42_apply, val_main_v35_apply, val_main_v34_apply, val_main_v33_apply,
    val_main_v32_apply, val_main_v31_apply, val_main_v41_apply, pos26 x tg ht, base30]
  simp only [val_main_v40_apply, val_main_v39_apply, val_main_v38_apply, val_main_v37_apply, val_main_v36_apply,
    val_main_cst_8_apply, val_main_cst_9_apply, val_main_cst_10_apply, e41, dist23, base30,
    Ideal.ofBits_def, Ideal.ofBits_zero_f32, zero_add, Ideal.hostDivf_def, Ideal.hostUnary_exp_def,
    Ideal.hostUnary_log_def, Ideal.subf_def, Ideal.mulf_def]
  rfl

/-! ## The three results

    The reference's three float results, as the formulas of the specification over its own centres,
    for labels that are class numbers. -/

theorem ref_loss (ht : ∀ i, (tg i).toNat < 1024) :
    val_main_v46 (F := Ideal) x tg = fun _ => Cert.Spec.lossR x (Cert.Spec.tOf tg) (val_main_v9 (F := Ideal) x tg) := by
  funext j
  rw [val_main_v46_apply, val_main_v45_apply, val_main_v44_apply, sum_idx1]
  simp only [lr43 x tg ht, val_main_cst_11_apply, val_main_cst_12_apply, Ideal.ofBits_def, Ideal.ofBits_zero_f32,
    zero_add, Ideal.hostDivf_def, Ideal.hostNegf_def, Ideal.negf_def]
  rfl

theorem ref_ap (ht : ∀ i, (tg i).toNat < 1024) :
    val_main_v53 (F := Ideal) x tg = fun _ => Cert.Spec.apR x (Cert.Spec.tOf tg) (val_main_v9 (F := Ideal) x tg) := by
  funext j
  rw [val_main_v53_apply, val_main_v52_apply, val_main_v51_apply, sum_idx1]
  simp only [pos26 x tg ht, val_main_cst_16_apply, val_main_cst_17_apply, val_main_cst_18_apply, Ideal.ofBits_def,
    Ideal.ofBits_zero_f32, zero_add, Ideal.hostDivf_def, Ideal.mulf_def]
  rfl

theorem ref_an (ht : ∀ i, (tg i).toNat < 1024) :
    val_main_v50 (F := Ideal) x tg = fun _ => Cert.Spec.anR x (Cert.Spec.tOf tg) (val_main_v9 (F := Ideal) x tg) := by
  funext j
  rw [val_main_v50_apply, val_main_v49_apply, val_main_v47_apply, val_main_v48_apply, sum_idx1, sum_idx2]
  simp only [pos26 x tg ht, dist23, val_main_cst_13_apply, val_main_cst_14_apply, val_main_cst_15_apply,
    Ideal.ofBits_def, Ideal.ofBits_zero_f32, zero_add, Ideal.hostDivf_def, Ideal.subf_def]
  rfl

end Cert.ReferenceIdeal.RefValue

end
-- ==== Proof.Algebra.lean ====
/-
  Pure mathematics over the extended reals: for real inputs, real centres and labels that are class numbers, the
  half-by-half results equal the formulas as written.  The literals 2, 1/2, 16, 32, −16, 65536 are read as the real
  numbers their words encode.  A masked row sum whose mask is "the column number is the label" picks the labelled
  column.  The rows of the two halves' tiles are all the rows once each, so a sum taken tile by tile is the sum over
  all rows and the larger (smaller) of the halves' extremes is the extreme over all rows.  Every per-row quantity is a
  real number, where 16(B − xx) + 32(s − yy/2) = −16((xx + yy − 2s) − B) is an identity of the field, the exponentials
  are positive reals, their finite sum is a positive real, and the logarithm of a quotient of positive reals is the
  difference of the logarithms.
-/
import proofs.«408375_j76639396429875_3_alg».proof.Proof.Spec
import proofs.«408375_j76639396429875_3_alg».proof.Proof.LibBlockSum
import proofs.«408375_j76639396429875_3_alg».proof.Proof.LibExtReal
import Idealize.ShloMosaic.PureOps.Ideal.Laws
import Idealize.ShloMosaic.Lib.ValueIdx

noncomputable section

open scoped BigOperators
open Idealize.ShloMosaic Idealize.ShloMosaic.TcCoe Idealize.SL.Sem Idealize.ShloMosaic.ValueIdx

namespace Cert.Algebra

open Cert.Spec Cert.ExtReal

/-! ## The literals, as real numbers -/

section Literals

theorem c2_eq : c2 = ((2 : ℝ) : EReal) := by
  unfold c2; simp [Ideal.ofBits, Ideal.ieee, -EReal.coe_mul]; norm_num
theorem cHalf_eq : cHalf = ((1 / 2 : ℝ) : EReal) := by
  unfold cHalf; simp [Ideal.ofBits, Ideal.ieee, -EReal.coe_mul]; norm_num
theorem c16_eq : c16 = ((16 : ℝ) : EReal) := by
  unfold c16; simp [Ideal.ofBits, Ideal.ieee, -EReal.coe_mul]; norm_num
theorem c32_eq : c32 = ((32 : ℝ) : EReal) := by
  unfold c32; simp [Ideal.ofBits, Ideal.ieee, -EReal.coe_mul]; norm_num
theorem cm16_eq : cm16 = ((-16 : ℝ) : EReal) := by
  unfold cm16; simp [Ideal.ofBits, Ideal.ieee, -EReal.coe_mul]; norm_num

end Literals

/-! ## The labelled column: the comparison picks exactly column `tOf tg i` -/

section Hit

variable (tg : ST1.Idx → BitVec 32)

/-- For a label below 1024 the column number, as a 32-bit word, is the label exactly at column `tOf tg i`. -/
theorem hit_iff (ht : ∀ i, (tg i).toNat < 1024) (i : Fin 65536) (j : Fin 1024) :
    hit (tgCol tg) i j ↔ j = tOf tg i := by
  have hlt := ht (ix1 i)
  have hj := j.isLt
  unfold hit tgCol tOf
  show BitVec.ofNat 32 j.val = tg (ix1 i) ↔ _
  constructor
  · intro h
    apply Fin.ext
    have h2 := congrArg BitVec.toNat h
    rw [BitVec.toNat_ofNat] at h2
    show j.val = (tg (ix1 i)).toNat % 1024
    omega
  · intro h
    apply BitVec.eq_of_toNat_eq
    rw [BitVec.toNat_ofNat]
    have h2 : j.val = (tg (ix1 i)).toNat % 1024 := congrArg Fin.val h
    omega

/-- A masked row sum over the comparison is the summand at the labelled column. -/
theorem sum_hit (ht : ∀ i, (tg i).toNat < 1024) (i : Fin 65536) (f : Fin 1024 → EReal) :
    (∑ j : Fin 1024, if hit (tgCol tg) i j then f j else 0) = f (tOf tg i) := by
  have h : ∀ j : Fin 1024, (if hit (tgCol tg) i j then f j else 0) = if j = tOf tg i then f j else 0 := by
    intro j
    by_cases hj : j = tOf tg i
    · rw [if_pos hj, if_pos ((hit_iff tg ht i j).mpr hj)]
    · rw [if_neg hj, if_neg (fun h => hj ((hit_iff tg ht i j).mp h))]
  rw [Finset.sum_congr rfl fun j _ => h j, Finset.sum_ite_eq' Finset.univ (tOf tg i) f, if_pos (Finset.mem_univ _)]

end Hit

/-! ## Re-tiling: two halves of 32 tiles of 1024 rows are all 65536 rows -/

section Tiling

/-- Every row is row r of tile t of half p for some p, t, r. -/
theorem exists_row (i : Fin 65536) : ∃ p t r, i = row p t r := by
  have hi := i.isLt
  refine ⟨⟨i.val / 32768, by omega⟩, ⟨i.val / 1024 % 32, by omega⟩, ⟨i.val % 1024, by omega⟩, Fin.ext ?_⟩
  show i.val = (i.val / 32768 * 32 + i.val / 1024 % 32) * 1024 + i.val % 1024
  omega

theorem fin2_cases (p : Fin 2) : p = 0 ∨ p = 1 := by
  rcases p with ⟨p, hp⟩
  rcases Nat.lt_or_ge p 1 with h | h
  · left; apply Fin.ext; show p = 0; omega
  · right; apply Fin.ext; show p = 1; omega

/-- A sum over the halves, tiles and rows of a tile is the sum over all rows. -/
theorem sum_rows {M : Type*} [AddCommMonoid M] (f : Fin 65536 → M) :
    (∑ p : Fin 2, ∑ t : Fin 32, ∑ r : Fin 1024, f (row p t r)) = ∑ i : Fin 65536, f i := by
  rw [Cert.BlockSum.sum_blocks 2 32768 (by norm_num) f]
  refine Finset.sum_congr rfl fun p _ => ?_
  rw [Cert.BlockSum.sum_blocks 32 1024 (by norm_num) fun q : Fin 32768 => f (Cert.BlockSum.pos 2 32768 (by norm_num) p q)]
  refine Finset.sum_congr rfl fun t _ => Finset.sum_congr rfl fun r _ => ?_
  congr 1
  apply Fin.ext
  show (p.val * 32 + t.val) * 1024 + r.val = p.val * 32768 + (t.val * 1024 + r.val)
  ring

/-- The two halves' sums add up to the sum over all rows. -/
theorem sum_halves {M : Type*} [AddCommMonoid M] (f : Fin 65536 → M) :
    (∑ t : Fin 32, ∑ r : Fin 1024, f (row 0 t r)) + (∑ t : Fin 32, ∑ r : Fin 1024, f (row 1 t r))
      = ∑ i : Fin 65536, f i := by
  rw [← sum_rows f, Fin.sum_univ_two]

theorem le_sup_univ {ι : Type} [Fintype ι] (G : ι → EReal) (q : ι) : G q ≤ Finset.univ.sup G :=
  Finset.le_sup (Finset.mem_univ q)
theorem inf_univ_le {ι : Type} [Fintype ι] (G : ι → EReal) (q : ι) : Finset.univ.inf G ≤ G q :=
  Finset.inf_le (Finset.mem_univ q)

/-- The larger of the two halves' maxima is the maximum over all rows and columns. -/
theorem sup_halves (G0 G1 : Fin 32 × Fin 1024 × Fin 1024 → EReal) (G : Fin 65536 × Fin 1024 → EReal)
    (h0 : ∀ q, G0 q = G (row 0 q.1 q.2.1, q.2.2)) (h1 : ∀ q, G1 q = G (row 1 q.1 q.2.1, q.2.2)) :
    max (Finset.univ.sup G0) (Finset.univ.sup G1) = Finset.univ.sup G := by
  apply le_antisymm
  · refine max_le (Finset.sup_le fun q _ => ?_) (Finset.sup_le fun q _ => ?_)
    · rw [h0 q]; exact le_sup_univ G _
    · rw [h1 q]; exact le_sup_univ G _
  · refine Finset.sup_le fun q _ => ?_
    obtain ⟨p, t, r, h⟩ := exists_row q.1
    have hq : q = (row p t r, q.2) := Prod.ext h rfl
    rw [hq]
    rcases fin2_cases p with rfl | rfl
    · have e : G (row 0 t r, q.2) = G0 (t, r, q.2) := (h0 (t, r, q.2)).symm
      rw [e]
      exact le_max_of_le_left (le_sup_univ G0 _)
    · have e : G (row 1 t r, q.2) = G1 (t, r, q.2) := (h1 (t, r, q.2)).symm
      rw [e]
      exact le_max_of_le_right (le_sup_univ G1 _)

/-- The smaller of the two halves' minima is the minimum over all rows and columns. -/
theorem inf_halves (G0 G1 : Fin 32 × Fin 1024 × Fin 1024 → EReal) (G : Fin 65536 × Fin 1024 → EReal)
    (h0 : ∀ q, G0 q = G (row 0 q.1 q.2.1, q.2.2)) (h1 : ∀ q, G1 q = G (row 1 q.1 q.2.1, q.2.2)) :
    min (Finset.univ.inf G0) (Finset.univ.inf G1) = Finset.univ.inf G := by
  apply le_antisymm
  · refine Finset.le_inf fun q _ => ?_
    obtain ⟨p, t, r, h⟩ := exists_row q.1
    have hq : q = (row p t r, q.2) := Prod.ext h rfl
    rw [hq]
    rcases fin2_cases p with rfl | rfl
    · have e : G (row 0 t r, q.2) = G0 (t, r, q.2) := (h0 (t, r, q.2)).symm
      rw [e]
      exact min_le_of_left_le (inf_univ_le G0 _)
    · have e : G (row 1 t r, q.2) = G1 (t, r, q.2) := (h1 (t, r, q.2)).symm
      rw [e]
      exact min_le_of_right_le (inf_univ_le G1 _)
  · refine le_min (Finset.le_inf fun q _ => ?_) (Finset.le_inf fun q _ => ?_)
    · rw [h0 q]; exact inf_univ_le G _
    · rw [h1 q]; exact inf_univ_le G _

end Tiling

/-! ## The tiled program's distances are the formula's distances -/

section Dist

variable (x : SX.Idx → EReal) (cen : SC.Idx → EReal)

theorem dist_eq (i : Fin 65536) (j : Fin 1024) : dist x (ctOf cen) (yyOf cen) i j = distR x cen i j := rfl

theorem g_eq (i : Fin 65536) (j : Fin 1024) :
    g x (ctOf cen) (yhOf cen) i j = scR x cen i j - cHalf * yyR cen j := rfl

end Dist

/-! ## Real numbers among the extended reals: differences, sums, extremes -/

section Real

theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- A finite sum of real numbers, taken in the extended reals, is their sum as real numbers. -/
theorem coe_sum {ι : Type} (s : Finset ι) (R : ι → ℝ) : (∑ i ∈ s, (R i : EReal)) = ((∑ i ∈ s, R i : ℝ) : EReal) := by
  classical
  refine Finset.induction_on s ?_ (fun a s ha ih => ?_)
  · rw [Finset.sum_empty, Finset.sum_empty, EReal.coe_zero]
  · rw [Finset.sum_insert ha, Finset.sum_insert ha, ih, EReal.coe_add]

variable (x : SX.Idx → EReal) (cen : SC.Idx → EReal)

theorem isFin_c2 : IsFin c2 := ⟨2, c2_eq⟩
theorem isFin_cHalf : IsFin cHalf := ⟨1 / 2, cHalf_eq⟩

theorem isFin_xx (hx : ∀ i, IsFin (x i)) (i : Fin 65536) : IsFin (xx x i) :=
  IsFin.sum _ _ fun d _ => IsFin.mul (hx _) (hx _)
theorem isFin_yyR (hc : ∀ i, IsFin (cen i)) (j : Fin 1024) : IsFin (yyR cen j) :=
  IsFin.sum _ _ fun d _ => IsFin.mul (hc _) (hc _)
theorem isFin_scR (hx : ∀ i, IsFin (x i)) (hc : ∀ i, IsFin (cen i)) (i : Fin 65536) (j : Fin 1024) :
    IsFin (scR x cen i j) :=
  IsFin.sum _ _ fun d _ => IsFin.mul (hx _) (hc _)
theorem isFin_distR (hx : ∀ i, IsFin (x i)) (hc : ∀ i, IsFin (cen i)) (i : Fin 65536) (j : Fin 1024) :
    IsFin (distR x cen i j) :=
  IsFin.sub (IsFin.add (isFin_xx x hx i) (isFin_yyR cen hc j)) (IsFin.mul isFin_c2 (isFin_scR x cen hx hc i j))

/-- The largest of finitely many real numbers (at least one) is one of them, so a real number. -/
theorem isFin_mxR (hx : ∀ i, IsFin (x i)) (hc : ∀ i, IsFin (cen i)) : IsFin (mxR x cen) := by
  obtain ⟨q, _, hq⟩ := Finset.exists_mem_eq_sup (Finset.univ : Finset (Fin 65536 × Fin 1024))
    Finset.univ_nonempty (fun q => distR x cen q.1 q.2)
  unfold mxR
  rw [hq]
  exact isFin_distR x cen hx hc q.1 q.2
theorem isFin_mnR (hx : ∀ i, IsFin (x i)) (hc : ∀ i, IsFin (cen i)) : IsFin (mnR x cen) := by
  obtain ⟨q, _, hq⟩ := Finset.exists_mem_eq_inf (Finset.univ : Finset (Fin 65536 × Fin 1024))
    Finset.univ_nonempty (fun q => distR x cen q.1 q.2)
  unfold mnR
  rw [hq]
  exact isFin_distR x cen hx hc q.1 q.2
theorem isFin_baseR (hx : ∀ i, IsFin (x i)) (hc : ∀ i, IsFin (cen i)) : IsFin (baseR x cen) :=
  IsFin.mul (IsFin.add (isFin_mxR x cen hx hc) (isFin_mnR x cen hx hc)) isFin_cHalf

end Real

/-! ## Positive real numbers: exponentials, their sums, and the logarithm of a quotient -/

section Pos

/-- The extended real `v` is a positive real number. -/
def IsPos (v : EReal) : Prop := ∃ r : ℝ, 0 < r ∧ v = (r : EReal)

/-- The exponential of a real number is a positive real number. -/
theorem isPos_exp {v : EReal} (hv : IsFin v) : IsPos (Ideal.exp v) := by
  obtain ⟨r, rfl⟩ := hv
  exact ⟨Real.exp r, Real.exp_pos r, rfl⟩

/-- A sum of 1024 positive real numbers is a positive real number. -/
theorem isPos_sum (f : Fin 1024 → EReal) (hf : ∀ j, IsPos (f j)) : IsPos (∑ j : Fin 1024, f j) := by
  choose R hR hfR using hf
  refine ⟨∑ j : Fin 1024, R j, Finset.sum_pos (fun j _ => hR j) Finset.univ_nonempty, ?_⟩
  rw [Finset.sum_congr rfl fun j _ => hfR j]
  exact coe_sum Finset.univ R

/-- For positive real numbers the difference of the logarithms is the logarithm of the quotient. -/
theorem log_sub_log {a b : EReal} (ha : IsPos a) (hb : IsPos b) :
    Ideal.log a - Ideal.log b = Ideal.log (Ideal.div a b) := by
  obtain ⟨r, hr, rfl⟩ := ha
  obtain ⟨s, hs, rfl⟩ := hb
  have h1 : Ideal.log (r : EReal) = ((Real.log r : ℝ) : EReal) := by
    rw [Ideal.log_coe, if_neg (not_le.mpr hr)]
  have h2 : Ideal.log (s : EReal) = ((Real.log s : ℝ) : EReal) := by
    rw [Ideal.log_coe, if_neg (not_le.mpr hs)]
  have hq : 0 < r * (1 / s) := mul_pos hr (one_div_pos.mpr hs)
  have h3 : Ideal.log (Ideal.div (r : EReal) (s : EReal)) = ((Real.log (r * (1 / s)) : ℝ) : EReal) := by
    rw [Ideal.div_coe hs.ne', ← EReal.coe_mul, Ideal.log_coe, if_neg (not_le.mpr hq)]
  rw [h1, h2, h3, ← EReal.coe_sub]
  congr 1
  rw [mul_one_div, Real.log_div hr.ne' hs.ne']

end Pos

/-! ## The exponent, rewritten -/

section Exponent

/-- In real numbers, 16·(B − a) + 32·(s − ½·y) = −16·((a + y − 2·s) − B). -/
theorem expo_real (a y s B : ℝ) :
    c16 * ((B : EReal) - (a : EReal)) + c32 * ((s : EReal) - cHalf * (y : EReal))
      = cm16 * ((((a : EReal) + (y : EReal)) - c2 * (s : EReal)) - (B : EReal)) := by
  rw [c16_eq, c32_eq, cHalf_eq, cm16_eq, c2_eq]
  simp only [← EReal.coe_mul, ← EReal.coe_add, ← EReal.coe_sub]
  congr 1
  ring

end Exponent

/-! ## The tiled program's pieces are the formula's pieces -/

section Pieces

variable (x : SX.Idx → EReal) (tg : ST1.Idx → BitVec 32) (cen : SC.Idx → EReal)

theorem mx_eq : max (mxPart x (ctOf cen) (yyOf cen) 0) (mxPart x (ctOf cen) (yyOf cen) 1) = mxR x cen :=
  sup_halves (fun q : Fin 32 × Fin 1024 × Fin 1024 => dist x (ctOf cen) (yyOf cen) (row 0 q.1 q.2.1) q.2.2)
    (fun q : Fin 32 × Fin 1024 × Fin 1024 => dist x (ctOf cen) (yyOf cen) (row 1 q.1 q.2.1) q.2.2)
    (fun q : Fin 65536 × Fin 1024 => distR x cen q.1 q.2) (fun q => rfl) (fun q => rfl)

theorem mn_eq : min (mnPart x (ctOf cen) (yyOf cen) 0) (mnPart x (ctOf cen) (yyOf cen) 1) = mnR x cen :=
  inf_halves (fun q : Fin 32 × Fin 1024 × Fin 1024 => dist x (ctOf cen) (yyOf cen) (row 0 q.1 q.2.1) q.2.2)
    (fun q : Fin 32 × Fin 1024 × Fin 1024 => dist x (ctOf cen) (yyOf cen) (row 1 q.1 q.2.1) q.2.2)
    (fun q : Fin 65536 × Fin 1024 => distR x cen q.1 q.2) (fun q => rfl) (fun q => rfl)

/-- B from the two halves' extremes is B from the extremes over all rows. -/
theorem baseK_eq : baseK x cen = baseR x cen := by
  unfold baseK baseR
  rw [mx_eq, mn_eq]

/-- The masked row sum of the distances is the distance at the labelled column. -/
theorem pos_eq (ht : ∀ i, (tg i).toNat < 1024) (i : Fin 65536) :
    pos x (tgCol tg) (ctOf cen) (yyOf cen) i = posR x (tOf tg) cen i :=
  sum_hit tg ht i (dist x (ctOf cen) (yyOf cen) i)

theorem posg_eq (ht : ∀ i, (tg i).toNat < 1024) (i : Fin 65536) :
    posg x (tgCol tg) (ctOf cen) (yhOf cen) i = g x (ctOf cen) (yhOf cen) i (tOf tg i) :=
  sum_hit tg ht i (g x (ctOf cen) (yhOf cen) i)

theorem sp_eq (ht : ∀ i, (tg i).toNat < 1024) :
    spPart x (tgCol tg) (ctOf cen) (yyOf cen) 0 + spPart x (tgCol tg) (ctOf cen) (yyOf cen) 1
      = ∑ i : Fin 65536, posR x (tOf tg) cen i := by
  unfold spPart
  rw [sum_halves (pos x (tgCol tg) (ctOf cen) (yyOf cen))]
  exact Finset.sum_congr rfl fun i _ => pos_eq x tg cen ht i

theorem sd_eq :
    sdPart x (ctOf cen) (yyOf cen) 0 + sdPart x (ctOf cen) (yyOf cen) 1
      = ∑ i : Fin 65536, ∑ j : Fin 1024, distR x cen i j := by
  unfold sdPart
  rw [sum_halves (fun i : Fin 65536 => ∑ j : Fin 1024, dist x (ctOf cen) (yyOf cen) i j)]
  exact Finset.sum_congr rfl fun i _ => Finset.sum_congr rfl fun j _ => dist_eq x cen i j

/-- The exponent the tiled program writes is the exponent as written, the inputs being real numbers. -/
theorem expo_eq (hx : ∀ i, IsFin (x i)) (hc : ∀ i, IsFin (cen i)) (i : Fin 65536) (j : Fin 1024) :
    rowc x (baseArr x cen) i + c32 * g x (ctOf cen) (yhOf cen) i j = cm16 * (distR x cen i j - baseR x cen) := by
  obtain ⟨a, ha⟩ := isFin_xx x hx i
  obtain ⟨y, hy⟩ := isFin_yyR cen hc j
  obtain ⟨s, hs⟩ := isFin_scR x cen hx hc i j
  obtain ⟨B, hB⟩ := isFin_baseR x cen hx hc
  have h := expo_real a y s B
  rw [← ha, ← hy, ← hs, ← hB] at h
  show c16 * (baseK x cen - xx x i) + c32 * (scR x cen i j - cHalf * yyR cen j)
    = cm16 * (((xx x i + yyR cen j) - c2 * scR x cen i j) - baseR x cen)
  rw [baseK_eq]
  exact h

theorem isFin_expo (hx : ∀ i, IsFin (x i)) (hc : ∀ i, IsFin (cen i)) (i : Fin 65536) (j : Fin 1024) :
    IsFin (cm16 * (distR x cen i j - baseR x cen)) :=
  IsFin.mul ⟨-16, cm16_eq⟩ (IsFin.sub (isFin_distR x cen hx hc i j) (isFin_baseR x cen hx hc))

/-- A row's difference of logarithms is the logarithm of the quotient as written. -/
theorem lr_eq (hx : ∀ i, IsFin (x i)) (hc : ∀ i, IsFin (cen i)) (ht : ∀ i, (tg i).toNat < 1024) (i : Fin 65536) :
    lr x (tgCol tg) (ctOf cen) (yhOf cen) (baseArr x cen) i = lrR x (tOf tg) cen i := by
  unfold lr lrR
  rw [posg_eq x tg cen ht i, expo_eq x cen hx hc i (tOf tg i),
    Finset.sum_congr rfl fun j _ => congrArg Ideal.exp (expo_eq x cen hx hc i j)]
  exact log_sub_log (isPos_exp (isFin_expo x cen hx hc i (tOf tg i)))
    (isPos_sum _ fun j => isPos_exp (isFin_expo x cen hx hc i j))

theorem sl_eq (hx : ∀ i, IsFin (x i)) (hc : ∀ i, IsFin (cen i)) (ht : ∀ i, (tg i).toNat < 1024) :
    slPart x (tgCol tg) (ctOf cen) (yhOf cen) (baseArr x cen) 0
        + slPart x (tgCol tg) (ctOf cen) (yhOf cen) (baseArr x cen) 1
      = ∑ i : Fin 65536, lrR x (tOf tg) cen i := by
  unfold slPart
  rw [sum_halves (lr x (tgCol tg) (ctOf cen) (yhOf cen) (baseArr x cen))]
  exact Finset.sum_congr rfl fun i _ => lr_eq x tg cen hx hc ht i

end Pieces

variable (x : SX.Idx → EReal) (tg : ST1.Idx → BitVec 32) (cen : SC.Idx → EReal)

/-! For real inputs, real centres and labels that are class numbers, the tiled program's three results are
    the formulas as written. -/
theorem lossK_eq (hx : ∀ i, ∃ r : ℝ, x i = (r : EReal)) (hc : ∀ i, ∃ r : ℝ, cen i = (r : EReal))
    (ht : ∀ i, (tg i).toNat < 1024) : lossK x tg cen = lossR x (tOf tg) cen := by
  unfold lossK lossR
  rw [sl_eq x tg cen hx hc ht]
theorem apK_eq (hx : ∀ i, ∃ r : ℝ, x i = (r : EReal)) (hc : ∀ i, ∃ r : ℝ, cen i = (r : EReal))
    (ht : ∀ i, (tg i).toNat < 1024) : apK x tg cen = apR x (tOf tg) cen := by
  unfold apK apR
  rw [sp_eq x tg cen ht]
theorem anK_eq (hx : ∀ i, ∃ r : ℝ, x i = (r : EReal)) (hc : ∀ i, ∃ r : ℝ, cen i = (r : EReal))
    (ht : ∀ i, (tg i).toNat < 1024) : anK x tg cen = anR x (tOf tg) cen := by
  unfold anK anR
  rw [sd_eq x cen, sp_eq x tg cen ht]

end Cert.Algebra

end
-- ==== Proof.lean ====
/-
  The five claims about the tiled contrastive-loss program, its idealization and its reference.

  Both idealized programs compute, over the extended reals, the class centres of the input rows and from them
  a loss and two diagnostics (Proof/Spec.lean states the formulas).  The reference evaluates the formulas as
  written; the tiled program walks the rows in two halves of 32 tiles, first collecting per half the sum, the
  labelled sum, the maximum and the minimum of the squared distances, then — with the midpoint B of the
  extremes — the sum of the rows' log ratios, the exponent rewritten as 16(B − xxᵢ) + 32(sᵢⱼ − yyⱼ/2) and the
  logarithm of a quotient as a difference of logarithms.  Under the precondition (finite inputs, labels that
  are class numbers, no empty class) every quantity is a real number, the two spellings of the exponent and of
  the logarithm agree, a sum or an extremum taken tile by tile is the sum or extremum over all rows, the
  guarded row count is the row count, and the masked row sum picks the labelled column: the results are equal.
  The frames of the two tiled programs are the generated ones; the reference's frame is its run with the
  results dropped; the idealization rewrote nothing.
-/
import proofs.«408375_j76639396429875_3_alg».proof.Defs
import proofs.«408375_j76639396429875_3_alg».proof.Proof.Gen.Kernel
import proofs.«408375_j76639396429875_3_alg».proof.Proof.Gen.Kernel.Frame
import proofs.«408375_j76639396429875_3_alg».proof.Proof.Gen.KernelIdeal
import proofs.«408375_j76639396429875_3_alg».proof.Proof.Gen.KernelIdeal.Frame
import proofs.«408375_j76639396429875_3_alg».proof.Proof.Gen.ReferenceIdeal
import proofs.«408375_j76639396429875_3_alg».proof.Proof.Gen.Pre_finite_inputs
import proofs.«408375_j76639396429875_3_alg».proof.Proof.RefRead
import proofs.«408375_j76639396429875_3_alg».proof.Proof.RefRun
import proofs.«408375_j76639396429875_3_alg».proof.Proof.RefReadEq
import proofs.«408375_j76639396429875_3_alg».proof.Proof.KRun
import proofs.«408375_j76639396429875_3_alg».proof.Proof.KHostB
import proofs.«408375_j76639396429875_3_alg».proof.Proof.PreCen
import proofs.«408375_j76639396429875_3_alg».proof.Proof.RefValue
import proofs.«408375_j76639396429875_3_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => ⟨(h c).2.2.2.2.1, (h c).2.2.2.2.2⟩)
    (Cert.ReferenceIdeal.ValueP.run (F := Ideal) m ρ)

theorem preserves : Cert.preserves_Kernel_KernelIdeal := trivial

open Cert.KernelIdeal.KHostA Cert.KernelIdeal.KCen in
/-- Both runs end, the tiled one at its half-by-half results, the reference at the formulas as written; under
    the precondition the two are equal. -/
theorem algebraic : Cert.algebraic_KernelIdeal_ReferenceIdeal := by
  intro m ρ m' ρ' hpre hagree
  refine ⟨fun c => fun _ => Cert.Spec.lossK (xA m c) (tA m c) (cenKer (F := Ideal) (xA m c) (tA m c)),
    fun c => constantI Cert.KernelIdeal.S_ 32 0#32,
    fun c => fun _ => Cert.Spec.apK (xA m c) (tA m c) (cenKer (F := Ideal) (xA m c) (tA m c)),
    fun c => fun _ => Cert.Spec.anK (xA m c) (tA m c) (cenKer (F := Ideal) (xA m c) (tA m c)), ?_, ?_⟩
  · exact (θ_run Cert.KernelIdeal.defs _ _).mono (fun r h c =>
      ⟨(h c).1.trans (Cert.KernelIdeal.KHostB.W5_loss m ρ c),
       (h c).2.1.trans (Cert.KernelIdeal.KHostB.W5_c m ρ c),
       (h c).2.2.1.trans (Cert.KernelIdeal.KHostB.W5_ap m ρ c),
       (h c).2.2.2.1.trans (Cert.KernelIdeal.KHostB.W5_an m ρ c),
       (h c).2.2.2.2.1, (h c).2.2.2.2.2⟩) (Cert.KernelIdeal.KRun.run (F := Ideal) m ρ)
  · refine (θ_run Cert.ReferenceIdeal.defs _ _).mono (fun r h c => ?_) (Cert.ReferenceIdeal.ValueP.run (F := Ideal) m' ρ')
    have hp := hpre c
    have hx := Cert.PreCen.pre_x (xA m c) (tA m c) hp
    have ht := Cert.PreCen.pre_t (xA m c) (tA m c) hp
    have hcr := Cert.PreCen.pre_cen_real (xA m c) (tA m c) hp
    have hck := Cert.PreCen.pre_cenKer (xA m c) (tA m c) hp
    have e0 := (hagree c).1
    have e1 := (hagree c).2
    refine ⟨?_, (h c).2.1, ?_, ?_, (h c).2.2.2.2.1, (h c).2.2.2.2.2⟩
    · rw [(h c).1, Cert.ReferenceIdeal.ReadP.val_main_v46_eq, e0, e1]
      exact (Cert.ReferenceIdeal.RefValue.ref_loss (xA m c) (tA m c) ht).trans
        (funext fun _ => by
          dsimp only
          rw [hck, Cert.Algebra.lossK_eq (xA m c) (tA m c) _ hx hcr ht])
    · rw [(h c).2.2.1, Cert.ReferenceIdeal.ReadP.val_main_v53_eq, e0, e1]
      exact (Cert.ReferenceIdeal.RefValue.ref_ap (xA m c) (tA m c) ht).trans
        (funext fun _ => by
          dsimp only
          rw [hck, Cert.Algebra.apK_eq (xA m c) (tA m c) _ hx hcr ht])
    · rw [(h c).2.2.2.1, Cert.ReferenceIdeal.ReadP.val_main_v50_eq, e0, e1]
      exact (Cert.ReferenceIdeal.RefValue.ref_an (xA m c) (tA m c) ht).trans
        (funext fun _ => by
          dsimp only
          rw [hck, Cert.Algebra.anK_eq (xA m c) (tA m c) _ hx hcr ht])

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
